-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S64x64 .f32) (main_arg10 : FVec F S64 .f32) (main_arg11 : FVec F S64x64 .f32) (main_arg12 : FVec F S64x10 .f32) (main_arg13 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x10 .f32 := Host.absf main_arg12
  let main_cst_18 : FVec F S_ .f32 := constant S_ .f32 0x7F800000#32
  let main_v50 : FVec F S64x10 .f32 := broadcastInDim S64x10 ![] bcast_S_S64x10 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x10 .f32) (main_arg13 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x10 .f32) (main_arg13 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x10 : Shape := ⟨2, ![1, 10]⟩
abbrev S512x10 : Shape := ⟨2, ![512, 10]⟩
abbrev S2000x64 : Shape := ⟨2, ![2000, 64]⟩
abbrev S2000x1 : Shape := ⟨2, ![2000, 1]⟩
abbrev S512x64 : Shape := ⟨2, ![512, 64]⟩
abbrev S512x1 : Shape := ⟨2, ![512, 1]⟩
abbrev S1x512 : Shape := ⟨2, ![1, 512]⟩
abbrev S2000x512 : Shape := ⟨2, ![2000, 512]⟩

abbrev nBuf : Space → Nat
  | .hbm => 71
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x10, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x1, .i32⟩
  | .hbm, ⟨19, _⟩ => ⟨S100000x64, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .bf16⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .bf16⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .bf16⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S1x64, .f32⟩
  | .hbm, ⟨69, _⟩ => ⟨S1x10, .f32⟩
  | .hbm, ⟨70, _⟩ => ⟨S512x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S2000x1, .i32⟩
  | .local _ .vmem, ⟨26, _⟩ => ⟨S2000x1, .i32⟩
  | .local _ .vmem, ⟨27, _⟩ => ⟨S64x10, .f32⟩
  | .local _ .vmem, ⟨28, _⟩ => ⟨S1x10, .f32⟩
  | .local _ .vmem, ⟨29, _⟩ => ⟨S512x10, .f32⟩
  | .local _ .vmem, ⟨30, _⟩ => ⟨S512x64, .f32⟩
  | .local _ .vmem, ⟨31, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_scratch0 : Ref sig .tc := ⟨.vmem, 30, rfl⟩
abbrev cc2_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem7_0 : DmaSem sig := 28
abbrev cc2_sem8_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v43 : BitVec 1 := Scalar.cmpi .eq arg0 c49_i32
  let v44 : BitVec 32 := Scalar.extui v43
  let c0_i32_24 : BitVec 32 := 0#32
  let v45 : BitVec 1 := Scalar.cmpi .ne v44 c0_i32_24
  v45

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  broadcasts_S512x1_S512x64 : S512x1.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S2000x64_S64x64_S2000x64_1_0_0_1_n_n_wf : DotDims.WF S2000x64 S64x64 S2000x64 [1] [0] [0] [1] [] []
  dot_S2000x512_S2000x64_S512x64_0_0_1_1_n_n_wf : DotDims.WF S2000x512 S2000x64 S512x64 [0] [0] [1] [1] [] []
  dot_S2000x512_S2000x1_S512x1_0_0_1_1_n_n_wf : DotDims.WF S2000x512 S2000x1 S512x1 [0] [0] [1] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .i32 = 32 ∨ (Rect.block (s := S100000x1) S2000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x10.size a ≤ S64x10.size a
  hwx2_6 : ∀ i : grid2.Coords, EltTy.bits .f32 = 32 ∨ (Rect.block (s := S64x10) S64x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x10.size a ≤ S1x10.size a
  hwx2_7 : ∀ i : grid2.Coords, EltTy.bits .f32 = 32 ∨ (Rect.block (s := S1x10) S1x10.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x10.size a ≤ S512x10.size a
  hwx2_8 : ∀ i : grid2.Coords, EltTy.bits .f32 = 32 ∨ (Rect.block (s := S512x10) S512x10.size (cc2_transform_8 i) (hinb2_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S64x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S1x10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47) S512x10.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S512x64 : Shape := ⟨2, ![512, 64]⟩
abbrev S100000x1 : Shape := ⟨2, ![100000, 1]⟩
abbrev S512x1 : Shape := ⟨2, ![512, 1]⟩
abbrev S512x10 : Shape := ⟨2, ![512, 10]⟩
abbrev S1x10 : Shape := ⟨2, ![1, 10]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x10, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S512x64, .f32⟩
  | .hbm, ⟨83, _⟩ => ⟨S100000x1, .i32⟩
  | .hbm, ⟨84, _⟩ => ⟨S512x64, .f32⟩
  | .hbm, ⟨85, _⟩ => ⟨S_, .f32⟩
  | .hbm, ⟨86, _⟩ => ⟨S100000x1, .f32⟩
  | .hbm, ⟨87, _⟩ => ⟨S_, .f32⟩
  | .hbm, ⟨88, _⟩ => ⟨S512x1, .f32⟩
  | .hbm, ⟨89, _⟩ => ⟨S100000x1, .i32⟩
  | .hbm, ⟨90, _⟩ => ⟨S512x1, .f32⟩
  | .hbm, ⟨91, _⟩ => ⟨S_, .f32⟩
  | .hbm, ⟨92, _⟩ => ⟨S512x1, .f32⟩
  | .hbm, ⟨93, _⟩ => ⟨S512x1, .f32⟩
  | .hbm, ⟨94, _⟩ => ⟨S512x64, .f32⟩
  | .hbm, ⟨95, _⟩ => ⟨S512x64, .f32⟩
  | .hbm, ⟨96, _⟩ => ⟨S512x10, .f32⟩
  | .hbm, ⟨97, _⟩ => ⟨S1x10, .f32⟩
  | .hbm, ⟨98, _⟩ => ⟨S512x10, .f32⟩
  | .hbm, ⟨99, _⟩ => ⟨S512x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  dot_S512x64_S64x10_S512x10_1_0_0_1_n_n_wf : DotDims.WF S512x64 S64x10 S512x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KI.Base.lean ====
/-
  The three kernel regions' proof data, stated once at any float instance `F` and at a parameter `V` (what
  the core's unscoped buffers hold when the region is entered).

  Regions 0 and 1 are one GraphConv layer each on a row tile of 5000 nodes: the tile of the result is
  `relu((agg · W_rel + b) + h · W_root)` of the tiles of `agg` and `h` and of the whole weights; nothing is
  kept between tiles.

  Region 2 walks fifty row tiles of 2000 nodes. At each it forms the layer-3 rows of the tile (no relu),
  multiplies them by the tile's one-hot membership matrix (row n, column g is 1 when node n lies in graph g) and
  adds the 512×64 product to a running sum kept in scratch, and likewise adds the column sums of the membership
  matrix (the tile's node count per graph) to a running 512×1 count. The first tile starts both from zero.
  After the last tile the output block is `(sum / max(count, 1)) · W_lin + b_lin`. `sumsAt n` and `cntsAt n`
  are the scratch contents after the first `n` tiles.
-/
import proofs.«417198_j24592982737081_2_alg».proof.Proof.Gen.KernelIdeal.Launch
import proofs.«417198_j24592982737081_2_alg».proof.Proof.Gen.KernelIdeal.Skeleton
import proofs.«417198_j24592982737081_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: layer 1 on a tile of 5000 rows -/

/-- Window `w`'s block at tile `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result tile from the tiles of `agg` (x0) and `h` (x1), `W_rel` (x2), the bias row (x3), `W_root` (x4). -/
def out0_5 (x0 x1 : Vec F S5000x64 .f32) (x2 : Vec F S64x64 .f32) (x3 : Vec F S1x64 .f32) (x4 : Vec F S64x64 .f32) :
    Vec F S5000x64 .f32 :=
  k0_pay1 x0 x1 x2 x4 x3

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## Region 1: layer 2 on a tile of 5000 rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 x1 : Vec F S5000x64 .f32) (x2 : Vec F S64x64 .f32) (x3 : Vec F S1x64 .f32) (x4 : Vec F S64x64 .f32) :
    Vec F S5000x64 .f32 :=
  k1_pay1 x0 x1 x2 x4 x3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## Region 2: layer 3, the pooled sums and counts, and the linear head -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running 512×64 sum after the first `n` tiles: zero, then at each tile the sum so far plus the tile's
    one-hot membership matrix (transposed) times the tile's layer-3 rows. -/
def sumsAt (c : Dev nD) : ℕ → Vec F S512x64 .f32
  | 0 => k2_pay4
  | n + 1 =>
    if h : n < cfg2.N then
      k2_pay1 (k2_pay8 (iblk2 V c 0 ⟨n, h⟩) (iblk2 V c 1 ⟨n, h⟩) (iblk2 V c 2 ⟨n, h⟩) (iblk2 V c 4 ⟨n, h⟩)
        (iblk2 V c 3 ⟨n, h⟩) (iblk2 V c 5 ⟨n, h⟩) (sumsAt c n))
    else sumsAt c n

/-- The running 512×1 node count after the first `n` tiles. -/
def cntsAt (c : Dev nD) : ℕ → Vec F S512x1 .f32
  | 0 => k2_pay5
  | n + 1 =>
    if h : n < cfg2.N then k2_pay2 (k2_pay7 (iblk2 V c 5 ⟨n, h⟩)) (cntsAt c n) else cntsAt c n

/-- The output block from the sums and counts and the head's weight and bias row. -/
def out2_8 (s : Vec F S512x64 .f32) (n : Vec F S512x1 .f32) (x6 : Vec F S64x10 .f32) (x7 : Vec F S1x10 .f32) :
    Vec F S512x10 .f32 :=
  k2_pay3 s n x6 x7

/-- The kernel's two scratch buffers. -/
abbrev scr2 : List (Ref sig .tc) := [cc2_scratch0, cc2_scratch1]

/-- Region 2's invariant before tile `t`: every scoped buffer that is neither a staging buffer of this call nor
    its scratch at some contents, the generator register at some state, and the two scratch buffers whole — before
    the first tile at any contents, after `t > 0` tiles at the running sum and count. -/
def Phi2 (c : Dev nD) (t : Fin (cfg2.N + 1)) : sProp 𝕄 :=
  iprop(Pipeline.scopedRestBut (Ix := Unit) (Name := ℕ) (U := UR sig nD τ) (Lvl := ℕ) (Val := Elt F) spec2 c scr2
    ∗ (∃ r, prngReg c r)
    ∗ ∃ (d0 : Vec F S512x64 .f32) (d1 : Vec F S512x1 .f32),
        owns (c : Thread nD τ) (Memref.whole cc2_scratch0) fullShare d0
        ∗ owns (c : Thread nD τ) (Memref.whole cc2_scratch1) fullShare d1
        ∗ ⌜t.val ≠ 0 → d0 = sumsAt V c t.val ∧ d1 = cntsAt V c t.val⌝)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (sumsAt V c (t.val + 1)) (cntsAt V c (t.val + 1)) (iblk2 V c 6 t) (iblk2 V c 7 t)
  Φ t := Phi2 V c t
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (sumsAt V c (t.val + 1)) (cntsAt V c (t.val + 1)) (iblk2 V c 6 t) (iblk2 V c 7 t) := by
  dsimp only [dat2]
theorem Phi_eq2 (c : Dev nD) (t : Fin (cfg2.N + 1)) : (dat2 V c).Φ t = Phi2 V c t := by dsimp only [dat2]

end Cert.KernelIdeal.Hand

end
-- ==== Proof.KI.Vals.lean ====
/-
  What the core's unscoped buffers hold at each boundary of @main, as a fold from the launch memory: after a
  stretch of host operations, those operations applied; after a kernel region, the region's arrays at what its
  tiles' write-backs leave (the input arrays as entered, the output array with every tile written) and every
  other buffer as entered.
-/
import proofs.«417198_j24592982737081_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev w1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (w1 m) c).arrAt w cfg0.N
theorem W2_arr (c : Dev nD) (w : Fin cfg0.W) :
    W2 m c (Proc.devRef .tc (Pipeline.arrRef spec0 w)) = (dat0 (w1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev w2 : (c : Dev nD) → (b : Ref sig .tc) → Buf (Elt F) ((c : Thread nD τ).loc b) := fun c b => W2 m c b
theorem hF0 (c : Dev nD) (w : Fin cfg0.W) : (dat0 (w1 m) c).arrAt w cfg0.N = w2 m c (Pipeline.arrRef spec0 w) :=
  (W2_arr m c w).symm
theorem hrest0 (c : Dev nD) : ∀ b, b ∉ Finset.univ.image (Pipeline.arrRef spec0) → w2 m c b = w1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev w3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (w3 m) c).arrAt w cfg1.N
theorem W4_arr (c : Dev nD) (w : Fin cfg1.W) :
    W4 m c (Proc.devRef .tc (Pipeline.arrRef spec1 w)) = (dat1 (w3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev w4 : (c : Dev nD) → (b : Ref sig .tc) → Buf (Elt F) ((c : Thread nD τ).loc b) := fun c b => W4 m c b
theorem hF1 (c : Dev nD) (w : Fin cfg1.W) : (dat1 (w3 m) c).arrAt w cfg1.N = w4 m c (Pipeline.arrRef spec1 w) :=
  (W4_arr m c w).symm
theorem hrest1 (c : Dev nD) : ∀ b, b ∉ Finset.univ.image (Pipeline.arrRef spec1) → w4 m c b = w3 m c b :=
  fun b hb => W4_of_ne m c b fun w e => hb (Finset.mem_image.mpr ⟨w, Finset.mem_univ _, e⟩)

/-- After the third host stretch: region 2's entry. -/
abbrev W5 : Dev nD → Valuation τ sig (Elt F) := fun c => StableHlo.after hostOps2 (W4 m c)
abbrev w5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (w5 m) c).arrAt w cfg2.N
theorem W6_arr (c : Dev nD) (w : Fin cfg2.W) :
    W6 m c (Proc.devRef .tc (Pipeline.arrRef spec2 w)) = (dat2 (w5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev w6 : (c : Dev nD) → (b : Ref sig .tc) → Buf (Elt F) ((c : Thread nD τ).loc b) := fun c b => W6 m c b
theorem hF2 (c : Dev nD) (w : Fin cfg2.W) : (dat2 (w5 m) c).arrAt w cfg2.N = w6 m c (Pipeline.arrRef spec2 w) :=
  (W6_arr m c w).symm
theorem hrest2 (c : Dev nD) : ∀ b, b ∉ Finset.univ.image (Pipeline.arrRef spec2) → w6 m c b = w5 m c b :=
  fun b hb => W6_of_ne m c b fun w e => hb (Finset.mem_image.mpr ⟨w, Finset.mem_univ _, e⟩)

end Cert.KernelIdeal.Hand

end
-- ==== Proof.KI.Run.lean ====
/-
  The whole run of @main: a stretch of host operations, the first layer's kernel region, a second stretch, the
  second layer's region, a third stretch, and the pooling region, each entered from what the one before it left.

  Between two items a core holds every unscoped buffer whole at the boundary's contents (the fold of Vals.lean),
  its generator register at some state, and owes no other core anything. A host stretch moves the buffers from a
  valuation to the operations applied to it. A kernel region takes its windows' arrays out of the unscoped buffers
  at the entry contents, runs its tiles, and puts the arrays back with every tile's write-back folded in, all other
  buffers as they were. The two layer regions keep nothing between tiles beyond the scoped buffers no window stages
  and the register; the pooling region keeps its two running totals, and its invariant's two ends are taken as
  hypotheses here, as are the three bodies' obligations.

  At the end every unscoped buffer is read off the last valuation; an argument's buffer walks back through the
  fold to the launch memory, since no host operation writes an argument and a region only reads one through an
  input window.
-/
import proofs.«417198_j24592982737081_2_alg».proof.Proof.KI.Vals
import proofs.«417198_j24592982737081_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arguments end as launched -/
/-- `main_arg0` holds at the end what it held at launch. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (w1 m) c).arrAt_in 1 rfl _).trans (A_eq0 (w1 m) c 1))
    _ = W0 m c (Proc.devRef .tc main_arg0) := StableHlo.after_of_writes_sub hostOps0 _ hostOps0_writes (by decide)
    _ = m ((c : Thread nD τ).loc main_arg0) := rfl

/-- `main_arg1` holds at the end what it held at launch. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` holds at the end what it held at launch. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` holds at the end what it held at launch. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 2).trans (((dat0 (w1 m) c).arrAt_in 2 rfl _).trans (A_eq0 (w1 m) c 2))
    _ = W0 m c (Proc.devRef .tc main_arg3) := StableHlo.after_of_writes_sub hostOps0 _ hostOps0_writes (by decide)
    _ = m ((c : Thread nD τ).loc main_arg3) := rfl

/-- `main_arg4` holds at the end what it held at launch. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` holds at the end what it held at launch. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 4).trans (((dat0 (w1 m) c).arrAt_in 4 rfl _).trans (A_eq0 (w1 m) c 4))
    _ = W0 m c (Proc.devRef .tc main_arg5) := StableHlo.after_of_writes_sub hostOps0 _ hostOps0_writes (by decide)
    _ = m ((c : Thread nD τ).loc main_arg5) := rfl

/-- `main_arg6` holds at the end what it held at launch. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := (W4_arr m c 2).trans (((dat1 (w3 m) c).arrAt_in 2 rfl _).trans (A_eq1 (w3 m) c 2))
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` holds at the end what it held at launch. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- `main_arg8` holds at the end what it held at launch. -/
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := (W4_arr m c 4).trans (((dat1 (w3 m) c).arrAt_in 4 rfl _).trans (A_eq1 (w3 m) c 4))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-- `main_arg9` holds at the end what it held at launch. -/
theorem W6_main_arg9 (c : Dev nD) : W6 m c (Proc.devRef .tc main_arg9) = m ((c : Thread nD τ).loc main_arg9) :=
  calc W6 m c (Proc.devRef .tc main_arg9)
    _ = W5 m c (Proc.devRef .tc main_arg9) := (W6_arr m c 2).trans (((dat2 (w5 m) c).arrAt_in 2 rfl _).trans (A_eq2 (w5 m) c 2))
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

/-- `main_arg10` holds at the end what it held at launch. -/
theorem W6_main_arg10 (c : Dev nD) : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-- `main_arg11` holds at the end what it held at launch. -/
theorem W6_main_arg11 (c : Dev nD) : W6 m c (Proc.devRef .tc main_arg11) = m ((c : Thread nD τ).loc main_arg11) :=
  calc W6 m c (Proc.devRef .tc main_arg11)
    _ = W5 m c (Proc.devRef .tc main_arg11) := (W6_arr m c 4).trans (((dat2 (w5 m) c).arrAt_in 4 rfl _).trans (A_eq2 (w5 m) c 4))
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

/-- `main_arg12` holds at the end what it held at launch. -/
theorem W6_main_arg12 (c : Dev nD) : W6 m c (Proc.devRef .tc main_arg12) = m ((c : Thread nD τ).loc main_arg12) :=
  calc W6 m c (Proc.devRef .tc main_arg12)
    _ = W5 m c (Proc.devRef .tc main_arg12) := (W6_arr m c 6).trans (((dat2 (w5 m) c).arrAt_in 6 rfl _).trans (A_eq2 (w5 m) c 6))
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-- `main_arg13` holds at the end what it held at launch. -/
theorem W6_main_arg13 (c : Dev nD) : W6 m c (Proc.devRef .tc main_arg13) = m ((c : Thread nD τ).loc main_arg13) :=
  calc W6 m c (Proc.devRef .tc main_arg13)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

/-! ## The proof data of the three pipelines and the thread state between items -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (w1 m) c
  | ⟨1, _⟩ => fun c => dat1 (w3 m) c
  | ⟨2, _⟩ => fun c => dat2 (w5 m) c

/-- No core owes another anything, so no pair carries a level. -/
abbrev L0 : GSem nD τ sig → Finset Unit := fun _ => ∅
abbrev lv0 : GSem nD τ sig → Unit → ℕ := fun _ _ => 0

/-- A core owing nothing, whatever pairs its waits recorded. -/
abbrev owesNone (c : Dev nD) : sProp 𝕄 := iprop(∃ W, owes (c : Thread nD τ) (0 : CellTallies nD τ sig Unit) W)
/-- The core's generator register at some state. -/
abbrev regSome (c : Dev nD) : sProp 𝕄 := iprop(∃ r, prngReg c r)
/-- What a core holds beside its unscoped buffers at every boundary. -/
abbrev Rst (c : Dev nD) : sProp 𝕄 := iprop(regSome (F := F) c ∗ owesNone (F := F) c)
/-- The thread state at a boundary whose contents are `W`. -/
abbrev stAt (W : Dev nD → Valuation τ sig (Elt F)) (c : Dev nD) : sProp 𝕄 :=
  iprop(StableHlo.held (c : Thread nD τ) (Pipeline.ucRefs τ sig) (W c) ∗ Rst (F := F) c)
/-- The last thread state, the dues apart. -/
abbrev Tend (c : Dev nD) : sProp 𝕄 :=
  iprop(StableHlo.held (c : Thread nD τ) (Pipeline.ucRefs τ sig) (W6 m c) ∗ regSome (F := F) c)

/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A stretch of host operations from the contents `W`: it leaves the unscoped buffers at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rst (F := F))

/-! ## Dues: a core that owes nothing meets, and is left by, proof data that owe nothing -/

theorem dues_in {cfg : Cfg sig Λ₀} {c : Dev nD} (d : Dat τ (Elt F) Unit ℕ (UR sig nD τ) ℕ cfg c) (t : Fin (cfg.N + 1))
    (ho : d.owed t = 0) (hr : d.recorded t = Set.univ) : owesNone (F := F) c ⊢ d.owesAt () t := by
  show _ ⊢ Pipeline.owesWithin c (d.owed t) (d.bound () t)
  rw [ho]
  iintro ⟨%W, HO⟩
  iexists W
  isplitr
  · ipureintro; exact fun x _ => Or.inl (hr ▸ Set.mem_univ x)
  iexact HO

theorem dues_out {cfg : Cfg sig Λ₀} {c : Dev nD} (d : Dat τ (Elt F) Unit ℕ (UR sig nD τ) ℕ cfg c) (t : Fin (cfg.N + 1))
    (ho : d.owed t = 0) : d.owesAt () t ⊢ owesNone (F := F) c := by
  show Pipeline.owesWithin c (d.owed t) (d.bound () t) ⊢ _
  rw [ho]
  iintro ⟨%W, -, HO⟩
  iexists W
  iexact HO

set_option backward.isDefEq.respectTransparency.types false in
/-- Region 0: entered with every unscoped buffer at `W1`, left with them at `W2`. The register and the
    scoped buffers no window stages go into the invariant and come back; nothing is owed; the kernel has no semaphore
    of its own. -/
def reg0 (hb0 : ∀ c, BodyObligation (dat0 (F := F) (w1 m) c) (defs₀ (F := F)) Variants.none () Set.univ) :
    Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L0 lv0 0 fun _ _ => rfl
  pre := stAt (F := F) (W1 m)
  post := stAt (F := F) (W2 m)
  X := regSome (F := F)
  Y := regSome (F := F)
  Z c := Pipeline.unscopedRest (Ix := Unit) (Name := ℕ) (U := UR sig nD τ) (Lvl := ℕ) spec0 c (w1 m c)
  hentry c := by
    rw [Pipeline.ownSems0_none]
    have harrs := Pipeline.arrays_of_unscopedBufs (p := 0) (pcfgs (F := F)) adm (pdats m) launch0.win launch0.arr_whole c
      ((pdats m 0 c).share_full fun _ => rfl) (w1 m c) fun _ => rfl
    rw [Pipeline.unscopedBufs_held] at harrs
    have hdue := dues_in (pdats m 0 c) 0 rfl rfl
    iintro ⟨⟨Hbufs, Hreg, Hdue⟩, -, -⟩
    ihave Hsp := harrs $$ Hbufs
    icases Hsp with ⟨Harr, Hrest⟩
    ihave Hd := hdue $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 0 c).Φ 0 = Pipeline.ΦA spec0 c from rfl]
    unfold Pipeline.ΦA
    iintro ⟨Hreg, -, Hsc⟩
    isplitl [Hsc]; · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]; · iexact Hreg
    isplitr; · iempintro
    iexact Hsc
  hexit c := by
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (w1 m c) (w2 m c) ((pdats m 0 c).arrAt · cfg0.N) (hF0 m c) (hrest0 m c)
    rw [Pipeline.unscopedBufs_held] at hback
    have hdue := dues_out (pdats m 0 c) (Fin.last _) rfl
    iintro ⟨Harr, Hdue, Hreg, Hrest⟩
    ihave Hd := hdue $$ Hdue
    imodintro
    isplitl [Harr Hrest]
    · iapply hback; isplitl [Harr] <;> iassumption
    isplitl [Hreg]; · iexact Hreg
    iexact Hd

set_option backward.isDefEq.respectTransparency.types false in
/-- Region 1: entered with every unscoped buffer at `W3`, left with them at `W4`. The register and the
    scoped buffers no window stages go into the invariant and come back; nothing is owed; the kernel has no semaphore
    of its own. -/
def reg1 (hb1 : ∀ c, BodyObligation (dat1 (F := F) (w3 m) c) (defs₀ (F := F)) Variants.none () Set.univ) :
    Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L0 lv0 1 fun _ _ => rfl
  pre := stAt (F := F) (W3 m)
  post := stAt (F := F) (W4 m)
  X := regSome (F := F)
  Y := regSome (F := F)
  Z c := Pipeline.unscopedRest (Ix := Unit) (Name := ℕ) (U := UR sig nD τ) (Lvl := ℕ) spec1 c (w3 m c)
  hentry c := by
    rw [Pipeline.ownSems0_none]
    have harrs := Pipeline.arrays_of_unscopedBufs (p := 1) (pcfgs (F := F)) adm (pdats m) launch1.win launch1.arr_whole c
      ((pdats m 1 c).share_full fun _ => rfl) (w3 m c) fun _ => rfl
    rw [Pipeline.unscopedBufs_held] at harrs
    have hdue := dues_in (pdats m 1 c) 0 rfl rfl
    iintro ⟨⟨Hbufs, Hreg, Hdue⟩, -, -⟩
    ihave Hsp := harrs $$ Hbufs
    icases Hsp with ⟨Harr, Hrest⟩
    ihave Hd := hdue $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (w3 m c) (w4 m c) ((pdats m 1 c).arrAt · cfg1.N) (hF1 m c) (hrest1 m c)
    rw [Pipeline.unscopedBufs_held] at hback
    have hdue := dues_out (pdats m 1 c) (Fin.last _) rfl
    iintro ⟨Harr, Hdue, Hreg, Hrest⟩
    ihave Hd := hdue $$ Hdue
    imodintro
    isplitl [Harr Hrest]
    · iapply hback; isplitl [Harr] <;> iassumption
    isplitl [Hreg]; · iexact Hreg
    iexact Hd

set_option backward.isDefEq.respectTransparency.types false in
/-- Region 2: entered with every unscoped buffer at `W5`, left with them at `W6`, the end of @main. Its invariant
    is the pooling region's own (the two running totals beside the other scoped buffers and the register); its two
    ends are the hypotheses, stated over the same two conjuncts the region hands in and takes back. -/
def reg2 (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) :
    Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L0 lv0 2 fun _ _ => rfl
  pre := stAt (F := F) (W5 m)
  post c := iprop(Tend m c ∗ owesNone (F := F) c)
  X := regSome (F := F)
  Y := regSome (F := F)
  Z c := Pipeline.unscopedRest (Ix := Unit) (Name := ℕ) (U := UR sig nD τ) (Lvl := ℕ) spec2 c (w5 m c)
  hentry c := by
    rw [Pipeline.ownSems0_none]
    have harrs := Pipeline.arrays_of_unscopedBufs (p := 2) (pcfgs (F := F)) adm (pdats m) launch2.win launch2.arr_whole c
      ((pdats m 2 c).share_full fun _ => rfl) (w5 m c) fun _ => rfl
    rw [Pipeline.unscopedBufs_held] at harrs
    have hdue := dues_in (pdats m 2 c) 0 rfl rfl
    iintro ⟨⟨Hbufs, Hreg, Hdue⟩, -, -⟩
    ihave Hsp := harrs $$ Hbufs
    icases Hsp with ⟨Harr, Hrest⟩
    ihave Hd := hdue $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 2 c).Φ 0 = Phi2 (w5 m) c 0 from rfl]
    iintro ⟨Hreg, -, Hsc⟩
    iapply hin c
    isplitl [Hreg]; · iexact Hreg
    iexact Hsc
  hout c := by
    rw [Pipeline.ownSems0_none, show (pdats m 2 c).Φ (Fin.last _) = Phi2 (w5 m) c (Fin.last cfg2.N) from rfl]
    refine (hout c).trans ?_
    iintro ⟨Hreg, Hsc⟩
    isplitl [Hreg]; · iexact Hreg
    isplitr; · iempintro
    iexact Hsc
  hexit c := by
    have hback := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (w5 m c) (w6 m c) ((pdats m 2 c).arrAt · cfg2.N) (hF2 m c) (hrest2 m c)
    rw [Pipeline.unscopedBufs_held] at hback
    have hdue := dues_out (pdats m 2 c) (Fin.last _) rfl
    iintro ⟨Harr, Hdue, Hreg, Hrest⟩
    ihave Hd := hdue $$ Hdue
    imodintro
    isplitl [Harr Hrest Hreg]
    · isplitl [Harr Hrest]
      · iapply hback; isplitl [Harr] <;> iassumption
      iexact Hreg
    iexact Hd

/-! ## @main as its six items, and the launch -/

/-- @main's items in order, each host stretch from its boundary's contents. -/
abbrev runSegs (hb0 : ∀ c, BodyObligation (dat0 (F := F) (w1 m) c) (defs₀ (F := F)) Variants.none () Set.univ) (hb1 : ∀ c, BodyObligation (dat1 (F := F) (w3 m) c) (defs₀ (F := F)) Variants.none () Set.univ) (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) :
    List (Pipeline.Seg (pcfgs (F := F)) adm (pdats m) () defs₀ Variants.none L0 lv0) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2 hin hout) ]

/-- @main is the run of those items. -/
theorem main_run (hb0 : ∀ c, BodyObligation (dat0 (F := F) (w1 m) c) (defs₀ (F := F)) Variants.none () Set.univ) (hb1 : ∀ c, BodyObligation (dat1 (F := F) (w3 m) c) (defs₀ (F := F)) Variants.none () Set.univ) (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) (c : Dev nD) :
    main (F := F) c = Pipeline.Seg.run (runSegs m hb0 hb1 hb2 hin hout) :=
  main_segs adm (pdats m) () Variants.none L0 lv0 _ _ _ (reg0 m hb0) (reg1 m hb1) (reg2 m hb2 hin hout) rfl rfl rfl c

set_option backward.isDefEq.respectTransparency.types false in
/-- From any memory with every counter at zero, every weakly fair execution of @main terminates, and at the end every
    unscoped buffer of every core holds what the fold's last valuation says. -/
theorem run_all (ρ : Dev nD → PrngReg)
    (hb0 : ∀ c, BodyObligation (dat0 (F := F) (w1 m) c) (defs₀ (F := F)) Variants.none () Set.univ)
    (hb1 : ∀ c, BodyObligation (dat1 (F := F) (w3 m) c) (defs₀ (F := F)) Variants.none () Set.univ)
    (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  Pipeline.θ_run_regions_kit (pcfgs (F := F)) adm (pdats m) () cellOf_inj emb₁ defs₀ Variants.none L0 lv0 m ρ main
    (runSegs m hb0 hb1 hb2 hin hout)
    (fun c Q => by rw [main_run m hb0 hb1 hb2 hin hout c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stAt (F := F) (W0 m)) (Tₙ := Tend m)
    (hch := ⟨fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem ((c : Thread nD τ).1, b) = W6 m c b)
    (hfin := fun c s' => by
      iintro ⟨⟨Hbufs, -⟩, HSI⟩
      unfold StableHlo.held
      imodintro
      iapply (pointsTo_read_all (Pipeline.ucRefs τ sig) (fun b => ((c : Thread nD τ).1, b)) (W6 m c) s')
      isplitl [Hbufs] <;> iassumption)
    (hQ := fun s h c => h c)

end Cert.KernelIdeal.Hand

end
-- ==== Proof.KI.R0.lean ====
/-
  Region 0's body obligation: one GraphConv layer on a row tile.

  At every tile the five input windows' staging buffers hold their blocks of the arrays the region finds — the
  two row tiles are fetched at every tile, the two weights and the bias row at the first tile only, and an
  unfetched buffer still holds the block fetched before, because its block index does not move. The body reads
  the five buffers whole, reads the output buffer (the value is not used), and overwrites the output buffer
  whole with `relu((x0 · x2 + x3) + x1 · x4)`; the inputs are left as they were.
-/
import proofs.«417198_j24592982737081_2_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The input windows' staging buffers hold their blocks -/

/-- Window 0 (the tile of `agg`): fetched at every tile. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (the tile of `h`): fetched at every tile. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (`W_rel`): one block for every tile, fetched at the first; later the buffer keeps it. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Window 3 (the bias row): one block for every tile. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Window 4 (`W_root`): one block for every tile. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's triple -/

set_option maxHeartbeats 1000000 in
/-- The body on whole staging buffers, the five inputs' at contents `x0 … x4` and the output's at anything, runs to
    the inputs' buffers as they were and the output's at `out0_5 x0 x1 x2 x3 x4`: five whole loads, one more of the
    output buffer whose value is dropped, and one whole store of the payload over the loaded values. -/
theorem sound_kernel0 (c : Dev nD) (E : Set ℕ) (i : cfg0.grid.Coords)
    (a0 : Memref sig .tc .vmem S5000x64 .f32) (ha0 : a0.IsWhole) (a1 : Memref sig .tc .vmem S5000x64 .f32) (ha1 : a1.IsWhole)
    (a2 : Memref sig .tc .vmem S64x64 .f32) (ha2 : a2.IsWhole) (a3 : Memref sig .tc .vmem S1x64 .f32) (ha3 : a3.IsWhole)
    (a4 : Memref sig .tc .vmem S64x64 .f32) (ha4 : a4.IsWhole) (a5 : Memref sig .tc .vmem S5000x64 .f32) (ha5 : a5.IsWhole)
    (x0 x1 : Vec F S5000x64 .f32) (x2 : Vec F S64x64 .f32) (x3 : Vec F S1x64 .f32) (x4 : Vec F S64x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)) -∗ K ⟨⟩))
      ⊢ wp frame (wpE (defs₀ (F := F)) Variants.none c none) E
          (cc0__graphconv_kernel i a0 ha0 a1 ha1 a2 ha2 a3 ha3 a4 ha4 a5 ha5) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon]
  · rw [View.canon_unit_zero hz]
    simp only [View.readAt_eq_ld, View.ld_unit_zero (S := S5000x64) hz, View.ld_unit_zero (S := S64x64) hz,
      View.ld_unit_zero (S := S1x64) hz]
    unfold out0_5
    rfl
  · intro y
    refine ⟨_, List.mem_singleton_self _, ?_⟩
    exact View.mem_set_unit_zero hz inb_S5000x64_S5000x64_0_0 y

/-! ## The body obligation -/

/-- What the body is called with at tile `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the invariant and the core's debt at the next tile, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at tile `t`. The five inputs' buffers hold their blocks (`before0_0 … before0_4`), the output's
    holds something, so the triple applies with `x0 … x4` the blocks; what it leaves is what the proof data
    says the body leaves. The invariant and the core's debt do not change from one tile to the next and the body
    does not touch them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [after0_0, after0_1, after0_2, after0_3, after0_4, after0_5,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, H5⟩
  iapply (sound_kernel0 c Set.univ _ _ _ _ _ _ _ _ _ _ _ _ _
    (iblk0 V c 0 t) (iblk0 V c 1 t) (iblk0 V c 2 t) (iblk0 V c 3 t) (iblk0 V c 4 t) _)
  iframe H0 H1 H2 H3 H4
  isplitl [H5]
  · icases H5 with ⟨%d5, H5⟩
    iexists _; iexact H5
  iintro ⟨H0, H1, H2, H3, H4, H5⟩
  iframe

/-- The library's body obligation, at every tile: its two products over the six windows written out. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1's body obligation: one GraphConv layer on a row tile.

  At every tile the five input windows' staging buffers hold their blocks of the arrays the region finds — the
  two row tiles are fetched at every tile, the two weights and the bias row at the first tile only, and an
  unfetched buffer still holds the block fetched before, because its block index does not move. The body reads
  the five buffers whole, reads the output buffer (the value is not used), and overwrites the output buffer
  whole with `relu((x0 · x2 + x3) + x1 · x4)`; the inputs are left as they were.
-/
import proofs.«417198_j24592982737081_2_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The input windows' staging buffers hold their blocks -/

/-- Window 0 (the tile of `agg`): fetched at every tile. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Window 1 (the tile of `h`): fetched at every tile. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Window 2 (`W_rel`): one block for every tile, fetched at the first; later the buffer keeps it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Window 3 (the bias row): one block for every tile. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Window 4 (`W_root`): one block for every tile. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's triple -/

set_option maxHeartbeats 1000000 in
/-- The body on whole staging buffers, the five inputs' at contents `x0 … x4` and the output's at anything, runs to
    the inputs' buffers as they were and the output's at `out1_5 x0 x1 x2 x3 x4`: five whole loads, one more of the
    output buffer whose value is dropped, and one whole store of the payload over the loaded values. -/
theorem sound_kernel1 (c : Dev nD) (E : Set ℕ) (i : cfg1.grid.Coords)
    (a0 : Memref sig .tc .vmem S5000x64 .f32) (ha0 : a0.IsWhole) (a1 : Memref sig .tc .vmem S5000x64 .f32) (ha1 : a1.IsWhole)
    (a2 : Memref sig .tc .vmem S64x64 .f32) (ha2 : a2.IsWhole) (a3 : Memref sig .tc .vmem S1x64 .f32) (ha3 : a3.IsWhole)
    (a4 : Memref sig .tc .vmem S64x64 .f32) (ha4 : a4.IsWhole) (a5 : Memref sig .tc .vmem S5000x64 .f32) (ha5 : a5.IsWhole)
    (x0 x1 : Vec F S5000x64 .f32) (x2 : Vec F S64x64 .f32) (x3 : Vec F S1x64 .f32) (x4 : Vec F S64x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out1_5 x0 x1 x2 x3 x4)) -∗ K ⟨⟩))
      ⊢ wp frame (wpE (defs₀ (F := F)) Variants.none c none) E
          (cc1__graphconv_kernel i a0 ha0 a1 ha1 a2 ha2 a3 ha3 a4 ha4 a5 ha5) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon]
  · rw [View.canon_unit_zero hz]
    simp only [View.readAt_eq_ld, View.ld_unit_zero (S := S5000x64) hz, View.ld_unit_zero (S := S64x64) hz,
      View.ld_unit_zero (S := S1x64) hz]
    unfold out1_5
    rfl
  · intro y
    refine ⟨_, List.mem_singleton_self _, ?_⟩
    exact View.mem_set_unit_zero hz inb_S5000x64_S5000x64_0_0 y

/-! ## The body obligation -/

/-- What the body is called with at tile `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the invariant and the core's debt at the next tile, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at tile `t`. The five inputs' buffers hold their blocks (`before1_0 … before1_4`), the output's
    holds something, so the triple applies with `x0 … x4` the blocks; what it leaves is what the proof data
    says the body leaves. The invariant and the core's debt do not change from one tile to the next and the body
    does not touch them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [after1_0, after1_1, after1_2, after1_3, after1_4, after1_5,
    show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, H5⟩
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]
  · icases H5 with ⟨%d5, H5⟩
    iexists _; iexact H5
  iintro ⟨H0, H1, H2, H3, H4, H5⟩
  iframe

/-- The library's body obligation, at every tile: its two products over the six windows written out. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2's body obligation and the two ends of its invariant.

  The body has two branches on the tile number. At the first tile it stores the zero sum and the zero count into the
  two scratch buffers. At every tile it then loads the six per-tile and constant operands whole, reads the running sum,
  stores the sum plus this tile's contribution, reads the running count, and stores the count plus this tile's column
  sums. At the last tile it reads both scratch buffers and the head's weight and bias and stores the output block.
  So there are three courses of the body — first tile, a middle tile, last tile — and one statement for each, over any
  whole buffers; the obligation is the case split over the tile, the scratch contents before the tile taken from the
  invariant (`sumsAt t`, `cntsAt t`; anything at the first tile) and left at `sumsAt (t+1)`, `cntsAt (t+1)`.
  The output window is idle away from the last tile and is handed back as found; at the last tile it is left at
  `out2_8` of the final sum and count.

  The invariant's ends: before the first tile the two scratch buffers are taken out of the scoped rest at whatever
  they hold; after the last tile they are put back, their contents forgotten.
-/
import proofs.«417198_j24592982737081_2_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's two ends -/

/-- The scoped rest split at the two scratch buffers. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c scr2) :=
  Pipeline.scopedRest_split_of_list spec2 c scr2 (by decide) (by decide)

/-- Before the first tile: the two scratch buffers, at whatever they hold, come out of the scoped rest; the invariant's
    fact about their contents is vacuous there. -/
theorem hin2 (c : Dev nD) :
    iprop((∃ r, prngReg c r) ∗ Pipeline.scopedRest (Ix := Unit) (Name := ℕ) (U := UR sig nD τ) (Lvl := ℕ) (Val := Elt F) spec2 c)
      ⊢ (Phi2 V c 0 : sProp 𝕄) := by
  rw [scopedRest2_split]
  unfold Phi2
  iintro ⟨Hr, ⟨⟨%f0, H0⟩, ⟨%f1, H1⟩⟩, Hrest⟩
  isplitl [Hrest]
  · iexact Hrest
  isplitl [Hr]
  · iexact Hr
  iexists f0, f1
  rw [owns_whole, owns_whole]
  isplitl [H0]
  · iexact H0
  isplitl [H1]
  · iexact H1
  ipureintro
  intro h; exact absurd rfl h

/-- After the last tile: the two scratch buffers go back into the scoped rest, their contents forgotten. -/
theorem hout2 (c : Dev nD) :
    (Phi2 V c (Fin.last cfg2.N) : sProp 𝕄)
      ⊢ iprop((∃ r, prngReg c r) ∗ Pipeline.scopedRest (Ix := Unit) (Name := ℕ) (U := UR sig nD τ) (Lvl := ℕ) (Val := Elt F) spec2 c) := by
  rw [scopedRest2_split]
  unfold Phi2
  simp only [owns_whole]
  iintro ⟨Hrest, Hr, %d0, %d1, H0, H1, -⟩
  isplitl [Hr]
  · iexact Hr
  isplitr [Hrest]
  · isplitl [H0]
    · iexists d0; iexact H0
    · iexists d1; iexact H1
  · iexact Hrest

/-! ## The three courses of the body -/

/-- Zero offsets, however spelt. -/
theorem hz2 : (![0, 0] : Fin 2 → Nat) = fun _ => 0 := funext fun a => by fin_cases a <;> rfl

/-- The first branch's condition: the tile is the first. -/
abbrev cond2_0 (i : grid2.Coords) : Prop :=
  (Scalar.cmpi .ne (Scalar.extui (Scalar.cmpi .eq (BitVec.ofNat 32 (i 0).val) 0#32)) 0#32) = 1#1
/-- The second branch's condition: the tile is the last. -/
abbrev cond2_1 (i : grid2.Coords) : Prop := k2_cond2 i = 1#1

set_option maxHeartbeats 1000000 in
/-- The body at the first tile: both scratch buffers are reset, then the tile's sum and count are added. -/
theorem run2_first (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x1 .i32) (harg6 : arg6.IsWhole) (arg7 : Memref sig .tc .vmem S64x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x64 .f32) (harg10 : arg10.IsWhole) (arg11 : Memref sig .tc .vmem S512x1 .f32) (harg11 : arg11.IsWhole)
    (hc0 : cond2_0 i) (hc1 : ¬cond2_1 i) (x0 x1 : Vec F S2000x64 .f32) (x2 : Vec F S64x64 .f32) (x3 : Vec F S1x64 .f32) (x4 : Vec F S64x64 .f32) (x5 : Vec F S2000x1 .i32) (x6 : Vec F S64x10 .f32) (x7 : Vec F S1x10 .f32) (x8 : Vec F S512x10 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k2_pay1 (k2_pay8 x0 x1 x2 x4 x3 x5 k2_pay4))
            ∗ owns (c : Thread nD τ) arg11 fullShare (k2_pay2 (k2_pay7 x5) k2_pay5)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11) K := by
  simp only [cc2__pool_kernel_eq_skeleton]; unfold cc2__pool_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    rw [View.read_writes_eq_canon _ _ _ (fun y => ⟨_, List.mem_cons_self .., View.mem_set_unit_zero hz2 inb_S512x64_S512x64_0_0 y⟩),
      View.canon_cons_unit_zero (S := S512x64) hz2]
    sl_unfold_run_names
    simp only [View.readAt_eq_ld, harg1.read_unread, harg2.read_unread, harg3.read_unread, harg4.read_unread, harg5.read_unread,
      harg6.read_unread, View.ld_unit_zero (S := S2000x64) hz2, View.ld_unit_zero (S := S64x64) hz2,
      View.ld_unit_zero (S := S1x64) hz2, View.ld_unit_zero (S := S2000x1) hz2, View.readCov_unit_zero (S := S512x64) _ hz2]
  · iexists _; isplitr
    swap; · iexact H11
    ipureintro
    rw [View.read_writes_eq_canon _ _ _ (fun y => ⟨_, List.mem_cons_self .., View.mem_set_unit_zero hz2 inb_S512x1_S512x1_0_0 y⟩),
      View.canon_cons_unit_zero (S := S512x1) hz2]
    sl_unfold_run_names
    simp only [View.readAt_eq_ld, harg6.read_unread, View.ld_unit_zero (S := S2000x1) hz2,
      View.readCov_unit_zero (S := S512x1) _ hz2]

set_option maxHeartbeats 1000000 in
/-- The body at a tile that is neither the first nor the last: the tile's sum and count are added to the scratch. -/
theorem run2_mid (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x1 .i32) (harg6 : arg6.IsWhole) (arg7 : Memref sig .tc .vmem S64x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x64 .f32) (harg10 : arg10.IsWhole) (arg11 : Memref sig .tc .vmem S512x1 .f32) (harg11 : arg11.IsWhole)
    (hc0 : ¬cond2_0 i) (hc1 : ¬cond2_1 i) (x0 x1 : Vec F S2000x64 .f32) (x2 : Vec F S64x64 .f32) (x3 : Vec F S1x64 .f32) (x4 : Vec F S64x64 .f32) (x5 : Vec F S2000x1 .i32) (x6 : Vec F S64x10 .f32) (x7 : Vec F S1x10 .f32) (x8 : Vec F S512x10 .f32)
    (s : Vec F S512x64 .f32) (n : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k2_pay1 (k2_pay8 x0 x1 x2 x4 x3 x5 s))
            ∗ owns (c : Thread nD τ) arg11 fullShare (k2_pay2 (k2_pay7 x5) n)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11) K := by
  simp only [cc2__pool_kernel_eq_skeleton]; unfold cc2__pool_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10; obtain rfl := harg11.eq_unread hf11
  sl_exec (disch := first | exact hc0 | exact hc1)
  sl_step
  iapply Hk

  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    rw [View.read_writes_eq_canon _ _ _ (fun y => ⟨_, List.mem_singleton_self _, View.mem_set_unit_zero hz2 inb_S512x64_S512x64_0_0 y⟩),
      View.canon_unit_zero (S := S512x64) hz2]
    sl_unfold_run_names
    simp only [View.readAt_eq_ld, harg1.read_unread, harg2.read_unread, harg3.read_unread, harg4.read_unread, harg5.read_unread,
      harg6.read_unread, harg10.read_unread, View.ld_unit_zero (S := S2000x64) hz2, View.ld_unit_zero (S := S64x64) hz2,
      View.ld_unit_zero (S := S1x64) hz2, View.ld_unit_zero (S := S2000x1) hz2, View.ld_unit_zero (S := S512x64) hz2]
  · iexists _; isplitr
    swap; · iexact H11
    ipureintro
    rw [View.read_writes_eq_canon _ _ _ (fun y => ⟨_, List.mem_singleton_self _, View.mem_set_unit_zero hz2 inb_S512x1_S512x1_0_0 y⟩),
      View.canon_unit_zero (S := S512x1) hz2]
    sl_unfold_run_names
    simp only [View.readAt_eq_ld, harg6.read_unread, harg11.read_unread, View.ld_unit_zero (S := S2000x1) hz2,
      View.ld_unit_zero (S := S512x1) hz2]

set_option maxHeartbeats 1000000 in
/-- The body at the last tile: the tile's sum and count are added, then the output block is formed from them. -/
theorem run2_last (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x1 .i32) (harg6 : arg6.IsWhole) (arg7 : Memref sig .tc .vmem S64x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x64 .f32) (harg10 : arg10.IsWhole) (arg11 : Memref sig .tc .vmem S512x1 .f32) (harg11 : arg11.IsWhole)
    (hc0 : ¬cond2_0 i) (hc1 : cond2_1 i) (x0 x1 : Vec F S2000x64 .f32) (x2 : Vec F S64x64 .f32) (x3 : Vec F S1x64 .f32) (x4 : Vec F S64x64 .f32) (x5 : Vec F S2000x1 .i32) (x6 : Vec F S64x10 .f32) (x7 : Vec F S1x10 .f32) (x8 : Vec F S512x10 .f32)
    (s : Vec F S512x64 .f32) (n : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k2_pay3 (k2_pay1 (k2_pay8 x0 x1 x2 x4 x3 x5 s)) (k2_pay2 (k2_pay7 x5) n) x6 x7)
            ∗ owns (c : Thread nD τ) arg10 fullShare (k2_pay1 (k2_pay8 x0 x1 x2 x4 x3 x5 s))
            ∗ owns (c : Thread nD τ) arg11 fullShare (k2_pay2 (k2_pay7 x5) n)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11) K := by
  simp only [cc2__pool_kernel_eq_skeleton]; unfold cc2__pool_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg10.eq_unread hf10; obtain rfl := harg11.eq_unread hf11
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    sl_unfold_run_names
    rw [View.read_writes_eq_canon _ _ _ (fun y => ⟨_, List.mem_singleton_self _, View.mem_set_unit_zero hz2 inb_S512x10_S512x10_0_0 y⟩),
      View.canon_unit_zero (S := S512x10) hz2]
    simp only [View.readAt_eq_ld, harg1.read_unread, harg2.read_unread, harg3.read_unread, harg4.read_unread, harg5.read_unread,
      harg6.read_unread, harg7.read_unread, harg8.read_unread, harg10.read_unread, harg11.read_unread,
      View.ld_unit_zero (S := S2000x64) hz2, View.ld_unit_zero (S := S64x64) hz2,
      View.ld_unit_zero (S := S1x64) hz2, View.ld_unit_zero (S := S2000x1) hz2, View.ld_unit_zero (S := S512x64) hz2,
      View.ld_unit_zero (S := S512x1) hz2, View.ld_unit_zero (S := S64x10) hz2, View.ld_unit_zero (S := S1x10) hz2,
      View.readCov_unit_zero (S := S512x64) _ hz2, View.readCov_unit_zero (S := S512x1) _ hz2]
  isplitl [H10]
  · iexists _; isplitr
    swap; · iexact H10
    ipureintro
    sl_unfold_run_names
    rw [View.read_writes_eq_canon _ _ _ (fun y => ⟨_, List.mem_singleton_self _, View.mem_set_unit_zero hz2 inb_S512x64_S512x64_0_0 y⟩),
      View.canon_unit_zero (S := S512x64) hz2]
    simp only [View.readAt_eq_ld, harg1.read_unread, harg2.read_unread, harg3.read_unread, harg4.read_unread, harg5.read_unread,
      harg6.read_unread, harg7.read_unread, harg8.read_unread, harg10.read_unread, harg11.read_unread,
      View.ld_unit_zero (S := S2000x64) hz2, View.ld_unit_zero (S := S64x64) hz2,
      View.ld_unit_zero (S := S1x64) hz2, View.ld_unit_zero (S := S2000x1) hz2, View.ld_unit_zero (S := S512x64) hz2,
      View.ld_unit_zero (S := S512x1) hz2, View.ld_unit_zero (S := S64x10) hz2, View.ld_unit_zero (S := S1x10) hz2,
      View.readCov_unit_zero (S := S512x64) _ hz2, View.readCov_unit_zero (S := S512x1) _ hz2]
  · iexists _; isplitr
    swap; · iexact H11
    ipureintro
    sl_unfold_run_names
    rw [View.read_writes_eq_canon _ _ _ (fun y => ⟨_, List.mem_singleton_self _, View.mem_set_unit_zero hz2 inb_S512x1_S512x1_0_0 y⟩),
      View.canon_unit_zero (S := S512x1) hz2]
    simp only [View.readAt_eq_ld, harg1.read_unread, harg2.read_unread, harg3.read_unread, harg4.read_unread, harg5.read_unread,
      harg6.read_unread, harg7.read_unread, harg8.read_unread, harg10.read_unread, harg11.read_unread,
      View.ld_unit_zero (S := S2000x64) hz2, View.ld_unit_zero (S := S64x64) hz2,
      View.ld_unit_zero (S := S1x64) hz2, View.ld_unit_zero (S := S2000x1) hz2, View.ld_unit_zero (S := S512x64) hz2,
      View.ld_unit_zero (S := S512x1) hz2, View.ld_unit_zero (S := S64x10) hz2, View.ld_unit_zero (S := S1x10) hz2,
      View.readCov_unit_zero (S := S512x64) _ hz2, View.readCov_unit_zero (S := S512x1) _ hz2]

/-! ## The two conditions over the tiles, and where the output window is idle -/

/-- The first condition holds exactly at the first tile. -/
theorem hcond2_0 : ∀ t : Fin cfg2.N, cond2_0 (grid2.coords t) ↔ t.val = 0 :=
  (by decide +kernel : ∀ t : Fin grid2.N, cond2_0 (grid2.coords t) ↔ t.val = 0)
/-- The second condition holds exactly at the last tile. -/
theorem hcond2_1 : ∀ t : Fin cfg2.N, cond2_1 (grid2.coords t) ↔ t.val = 49 :=
  (by decide +kernel : ∀ t : Fin grid2.N, cond2_1 (grid2.coords t) ↔ t.val = 49)
/-- Away from the last tile the output window is idle and is not written back. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last tile it is live. -/
theorem liveAt2_8 : ∀ t : Fin cfg2.N, cond2_1 (grid2.coords t) → cfg2.idle 8 (grid2.coords t) = false := by decide +kernel

/-! ## Each input's staging buffer holds its block at every tile -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-- An input window's buffer is left at its block. -/
theorem leaves2_in (c : Dev nD) (w : Fin cfg2.W) (hw : ∀ i, cfg2.idle w i = false) (t : Fin cfg2.N) :
    (dat2 V c).leavesExact w t = owns (c : Thread nD τ) ((cfg2.win w).stage (cfg2.slots t w)) fullShare ((dat2 V c).after w t) := by
  unfold Dat.leavesExact; rw [hw]

/-! ## The running sum and count, one tile on -/

theorem sumsAt_succ (c : Dev nD) (t : Fin cfg2.N) :
    sumsAt V c (t.val + 1) = k2_pay1 (k2_pay8 (iblk2 V c 0 t) (iblk2 V c 1 t) (iblk2 V c 2 t) (iblk2 V c 4 t)
      (iblk2 V c 3 t) (iblk2 V c 5 t) (sumsAt V c t.val)) := by
  rw [sumsAt]; exact dif_pos t.isLt

theorem cntsAt_succ (c : Dev nD) (t : Fin cfg2.N) :
    cntsAt V c (t.val + 1) = k2_pay2 (k2_pay7 (iblk2 V c 5 t)) (cntsAt V c t.val) := by
  rw [cntsAt]; exact dif_pos t.isLt

/-! ## The body obligation -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
/-- The body at any tile. The inputs' buffers hold their blocks; the tile is the first, a middle one or the last;
    the scratch buffers hold the running sum and count of the tiles before (anything at the first tile, where they
    are reset) and are left at the running sum and count with this tile added; the output's buffer is handed back as
    found except at the last tile, where it is left at the head applied to the pooled means. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [Phi_eq2, Phi_eq2]; unfold Phi2
  simp only [Fin.val_succ, Fin.coe_castSucc]
  rw [sumsAt_succ V c t, cntsAt_succ V c t]
  rw [leaves2_in V c 0 (fun _ => rfl) t, leaves2_in V c 1 (fun _ => rfl) t, leaves2_in V c 2 (fun _ => rfl) t,
    leaves2_in V c 3 (fun _ => rfl) t, leaves2_in V c 4 (fun _ => rfl) t, leaves2_in V c 5 (fun _ => rfl) t,
    leaves2_in V c 6 (fun _ => rfl) t, leaves2_in V c 7 (fun _ => rfl) t,
    after2_0, after2_1, after2_2, after2_3, after2_4, after2_5, after2_6, after2_7]
  have hN : t.val < 50 := lt_of_lt_of_eq t.isLt N_2
  by_cases h0 : t.val = 0
  · -- the first tile
    have hc0 : cond2_0 (grid2.coords t) := (hcond2_0 t).mpr h0
    have hc1 : ¬cond2_1 (grid2.coords t) := fun h => by have := (hcond2_1 t).mp h; omega
    have hs : sumsAt V c t.val = k2_pay4 := by rw [h0]; rfl
    have hn : cntsAt V c t.val = k2_pay5 := by rw [h0]; rfl
    rw [hs, hn, Dat.leavesExact_idle (dat2 V c) 8 t (idleAt2_8 t hc1) (noFlush2_8 t hc1)]
    iintro ⟨⟨Hrest, Hr, %d0, %d1, HS0, HS1, %hd⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (run2_first c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t e8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    iintro ⟨H0, H1, H2, H3, H4, H5, H6, H7, H8, HS0, HS1⟩
    isplitl [Hrest Hr HS0 HS1]
    · isplitl [Hrest]; · iexact Hrest
      isplitl [Hr]; · iexact Hr
      iexists _, _
      isplitl [HS0]; · iexact HS0
      isplitl [HS1]; · iexact HS1
      ipureintro; exact fun _ => ⟨rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond2_0 (grid2.coords t) := fun h => h0 ((hcond2_0 t).mp h)
    by_cases h1 : t.val = 49
    · -- the last tile
      have hc1 : cond2_1 (grid2.coords t) := (hcond2_1 t).mpr h1
      rw [show (dat2 V c).leavesExact 8 t = owns (c : Thread nD τ) (st2_8 t) fullShare ((dat2 V c).after 8 t) from by
        unfold Dat.leavesExact; rw [liveAt2_8 t hc1], after2_8]
      unfold out2_8
      rw [sumsAt_succ V c t, cntsAt_succ V c t]
      iintro ⟨⟨Hrest, Hr, %d0, %d1, HS0, HS1, %hd⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      obtain ⟨rfl, rfl⟩ := hd h0
      iapply (run2_last c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t e8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [Hrest Hr HS0 HS1]
      · isplitl [Hrest]; · iexact Hrest
        isplitl [Hr]; · iexact Hr
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle tile
      have hc1 : ¬cond2_1 (grid2.coords t) := fun h => h1 ((hcond2_1 t).mp h)
      rw [Dat.leavesExact_idle (dat2 V c) 8 t (idleAt2_8 t hc1) (noFlush2_8 t hc1)]
      iintro ⟨⟨Hrest, Hr, %d0, %d1, HS0, HS1, %hd⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      obtain ⟨rfl, rfl⟩ := hd h0
      iapply (run2_mid c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t e8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [Hrest Hr HS0 HS1]
      · isplitl [Hrest]; · iexact Hrest
        isplitl [Hr]; · iexact Hr
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- Region 2's body obligation. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.K.Base.lean ====
/-
  The three kernel regions' proof data, stated once at any float instance `F` and at a parameter `V` (what
  the core's unscoped buffers hold when the region is entered).

  Regions 0 and 1 are one GraphConv layer each on a row tile of 5000 nodes: the tile of the result is
  `relu((agg · W_rel + b) + h · W_root)` of the tiles of `agg` and `h` and of the whole weights; nothing is
  kept between tiles.

  Region 2 walks fifty row tiles of 2000 nodes. At each it forms the layer-3 rows of the tile (no relu),
  multiplies them by the tile's one-hot membership matrix (row n, column g is 1 when node n lies in graph g) and
  adds the 512×64 product to a running sum kept in scratch, and likewise adds the column sums of the membership
  matrix (the tile's node count per graph) to a running 512×1 count. The first tile starts both from zero.
  After the last tile the output block is `(sum / max(count, 1)) · W_lin + b_lin`. `sumsAt n` and `cntsAt n`
  are the scratch contents after the first `n` tiles.
-/
import proofs.«417198_j24592982737081_2_alg».proof.Proof.Gen.Kernel.Launch
import proofs.«417198_j24592982737081_2_alg».proof.Proof.Gen.Kernel.Skeleton
import proofs.«417198_j24592982737081_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: layer 1 on a tile of 5000 rows -/

/-- Window `w`'s block at tile `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result tile from the tiles of `agg` (x0) and `h` (x1), `W_rel` (x2), the bias row (x3), `W_root` (x4). -/
def out0_5 (x0 x1 : Vec F S5000x64 .f32) (x2 : Vec F S64x64 .f32) (x3 : Vec F S1x64 .f32) (x4 : Vec F S64x64 .f32) :
    Vec F S5000x64 .f32 :=
  k0_pay1 x0 x1 x2 x4 x3

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## Region 1: layer 2 on a tile of 5000 rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 x1 : Vec F S5000x64 .f32) (x2 : Vec F S64x64 .f32) (x3 : Vec F S1x64 .f32) (x4 : Vec F S64x64 .f32) :
    Vec F S5000x64 .f32 :=
  k1_pay1 x0 x1 x2 x4 x3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## Region 2: layer 3, the pooled sums and counts, and the linear head -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running 512×64 sum after the first `n` tiles: zero, then at each tile the sum so far plus the tile's
    one-hot membership matrix (transposed) times the tile's layer-3 rows. -/
def sumsAt (c : Dev nD) : ℕ → Vec F S512x64 .f32
  | 0 => k2_pay4
  | n + 1 =>
    if h : n < cfg2.N then
      k2_pay1 (k2_pay8 (iblk2 V c 0 ⟨n, h⟩) (iblk2 V c 1 ⟨n, h⟩) (iblk2 V c 2 ⟨n, h⟩) (iblk2 V c 4 ⟨n, h⟩)
        (iblk2 V c 3 ⟨n, h⟩) (iblk2 V c 5 ⟨n, h⟩) (sumsAt c n))
    else sumsAt c n

/-- The running 512×1 node count after the first `n` tiles. -/
def cntsAt (c : Dev nD) : ℕ → Vec F S512x1 .f32
  | 0 => k2_pay5
  | n + 1 =>
    if h : n < cfg2.N then k2_pay2 (k2_pay7 (iblk2 V c 5 ⟨n, h⟩)) (cntsAt c n) else cntsAt c n

/-- The output block from the sums and counts and the head's weight and bias row. -/
def out2_8 (s : Vec F S512x64 .f32) (n : Vec F S512x1 .f32) (x6 : Vec F S64x10 .f32) (x7 : Vec F S1x10 .f32) :
    Vec F S512x10 .f32 :=
  k2_pay3 s n x6 x7

/-- The kernel's two scratch buffers. -/
abbrev scr2 : List (Ref sig .tc) := [cc2_scratch0, cc2_scratch1]

/-- Region 2's invariant before tile `t`: every scoped buffer that is neither a staging buffer of this call nor
    its scratch at some contents, the generator register at some state, and the two scratch buffers whole — before
    the first tile at any contents, after `t > 0` tiles at the running sum and count. -/
def Phi2 (c : Dev nD) (t : Fin (cfg2.N + 1)) : sProp 𝕄 :=
  iprop(Pipeline.scopedRestBut (Ix := Unit) (Name := ℕ) (U := UR sig nD τ) (Lvl := ℕ) (Val := Elt F) spec2 c scr2
    ∗ (∃ r, prngReg c r)
    ∗ ∃ (d0 : Vec F S512x64 .f32) (d1 : Vec F S512x1 .f32),
        owns (c : Thread nD τ) (Memref.whole cc2_scratch0) fullShare d0
        ∗ owns (c : Thread nD τ) (Memref.whole cc2_scratch1) fullShare d1
        ∗ ⌜t.val ≠ 0 → d0 = sumsAt V c t.val ∧ d1 = cntsAt V c t.val⌝)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (sumsAt V c (t.val + 1)) (cntsAt V c (t.val + 1)) (iblk2 V c 6 t) (iblk2 V c 7 t)
  Φ t := Phi2 V c t
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (sumsAt V c (t.val + 1)) (cntsAt V c (t.val + 1)) (iblk2 V c 6 t) (iblk2 V c 7 t) := by
  dsimp only [dat2]
theorem Phi_eq2 (c : Dev nD) (t : Fin (cfg2.N + 1)) : (dat2 V c).Φ t = Phi2 V c t := by dsimp only [dat2]

end Cert.Kernel.Hand

end
-- ==== Proof.K.Vals.lean ====
/-
  What the core's unscoped buffers hold at each boundary of @main, as a fold from the launch memory: after a
  stretch of host operations, those operations applied; after a kernel region, the region's arrays at what its
  tiles' write-backs leave (the input arrays as entered, the output array with every tile written) and every
  other buffer as entered.
-/
import proofs.«417198_j24592982737081_2_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev w1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (w1 m) c).arrAt w cfg0.N
theorem W2_arr (c : Dev nD) (w : Fin cfg0.W) :
    W2 m c (Proc.devRef .tc (Pipeline.arrRef spec0 w)) = (dat0 (w1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev w2 : (c : Dev nD) → (b : Ref sig .tc) → Buf (Elt F) ((c : Thread nD τ).loc b) := fun c b => W2 m c b
theorem hF0 (c : Dev nD) (w : Fin cfg0.W) : (dat0 (w1 m) c).arrAt w cfg0.N = w2 m c (Pipeline.arrRef spec0 w) :=
  (W2_arr m c w).symm
theorem hrest0 (c : Dev nD) : ∀ b, b ∉ Finset.univ.image (Pipeline.arrRef spec0) → w2 m c b = w1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev w3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (w3 m) c).arrAt w cfg1.N
theorem W4_arr (c : Dev nD) (w : Fin cfg1.W) :
    W4 m c (Proc.devRef .tc (Pipeline.arrRef spec1 w)) = (dat1 (w3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev w4 : (c : Dev nD) → (b : Ref sig .tc) → Buf (Elt F) ((c : Thread nD τ).loc b) := fun c b => W4 m c b
theorem hF1 (c : Dev nD) (w : Fin cfg1.W) : (dat1 (w3 m) c).arrAt w cfg1.N = w4 m c (Pipeline.arrRef spec1 w) :=
  (W4_arr m c w).symm
theorem hrest1 (c : Dev nD) : ∀ b, b ∉ Finset.univ.image (Pipeline.arrRef spec1) → w4 m c b = w3 m c b :=
  fun b hb => W4_of_ne m c b fun w e => hb (Finset.mem_image.mpr ⟨w, Finset.mem_univ _, e⟩)

/-- After the third host stretch: region 2's entry. -/
abbrev W5 : Dev nD → Valuation τ sig (Elt F) := fun c => StableHlo.after hostOps2 (W4 m c)
abbrev w5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (w5 m) c).arrAt w cfg2.N
theorem W6_arr (c : Dev nD) (w : Fin cfg2.W) :
    W6 m c (Proc.devRef .tc (Pipeline.arrRef spec2 w)) = (dat2 (w5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev w6 : (c : Dev nD) → (b : Ref sig .tc) → Buf (Elt F) ((c : Thread nD τ).loc b) := fun c b => W6 m c b
theorem hF2 (c : Dev nD) (w : Fin cfg2.W) : (dat2 (w5 m) c).arrAt w cfg2.N = w6 m c (Pipeline.arrRef spec2 w) :=
  (W6_arr m c w).symm
theorem hrest2 (c : Dev nD) : ∀ b, b ∉ Finset.univ.image (Pipeline.arrRef spec2) → w6 m c b = w5 m c b :=
  fun b hb => W6_of_ne m c b fun w e => hb (Finset.mem_image.mpr ⟨w, Finset.mem_univ _, e⟩)

end Cert.Kernel.Hand

end
-- ==== Proof.K.Run.lean ====
/-
  The whole run of @main: a stretch of host operations, the first layer's kernel region, a second stretch, the
  second layer's region, a third stretch, and the pooling region, each entered from what the one before it left.

  Between two items a core holds every unscoped buffer whole at the boundary's contents (the fold of Vals.lean),
  its generator register at some state, and owes no other core anything. A host stretch moves the buffers from a
  valuation to the operations applied to it. A kernel region takes its windows' arrays out of the unscoped buffers
  at the entry contents, runs its tiles, and puts the arrays back with every tile's write-back folded in, all other
  buffers as they were. The two layer regions keep nothing between tiles beyond the scoped buffers no window stages
  and the register; the pooling region keeps its two running totals, and its invariant's two ends are taken as
  hypotheses here, as are the three bodies' obligations.

  At the end every unscoped buffer is read off the last valuation; an argument's buffer walks back through the
  fold to the launch memory, since no host operation writes an argument and a region only reads one through an
  input window.
-/
import proofs.«417198_j24592982737081_2_alg».proof.Proof.K.Vals
import proofs.«417198_j24592982737081_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arguments end as launched -/
/-- `main_arg0` holds at the end what it held at launch. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (w1 m) c).arrAt_in 1 rfl _).trans (A_eq0 (w1 m) c 1))
    _ = W0 m c (Proc.devRef .tc main_arg0) := StableHlo.after_of_writes_sub hostOps0 _ hostOps0_writes (by decide)
    _ = m ((c : Thread nD τ).loc main_arg0) := rfl

/-- `main_arg1` holds at the end what it held at launch. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` holds at the end what it held at launch. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` holds at the end what it held at launch. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 2).trans (((dat0 (w1 m) c).arrAt_in 2 rfl _).trans (A_eq0 (w1 m) c 2))
    _ = W0 m c (Proc.devRef .tc main_arg3) := StableHlo.after_of_writes_sub hostOps0 _ hostOps0_writes (by decide)
    _ = m ((c : Thread nD τ).loc main_arg3) := rfl

/-- `main_arg4` holds at the end what it held at launch. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` holds at the end what it held at launch. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 4).trans (((dat0 (w1 m) c).arrAt_in 4 rfl _).trans (A_eq0 (w1 m) c 4))
    _ = W0 m c (Proc.devRef .tc main_arg5) := StableHlo.after_of_writes_sub hostOps0 _ hostOps0_writes (by decide)
    _ = m ((c : Thread nD τ).loc main_arg5) := rfl

/-- `main_arg6` holds at the end what it held at launch. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := (W4_arr m c 2).trans (((dat1 (w3 m) c).arrAt_in 2 rfl _).trans (A_eq1 (w3 m) c 2))
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` holds at the end what it held at launch. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- `main_arg8` holds at the end what it held at launch. -/
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := (W4_arr m c 4).trans (((dat1 (w3 m) c).arrAt_in 4 rfl _).trans (A_eq1 (w3 m) c 4))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-- `main_arg9` holds at the end what it held at launch. -/
theorem W6_main_arg9 (c : Dev nD) : W6 m c (Proc.devRef .tc main_arg9) = m ((c : Thread nD τ).loc main_arg9) :=
  calc W6 m c (Proc.devRef .tc main_arg9)
    _ = W5 m c (Proc.devRef .tc main_arg9) := (W6_arr m c 2).trans (((dat2 (w5 m) c).arrAt_in 2 rfl _).trans (A_eq2 (w5 m) c 2))
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

/-- `main_arg10` holds at the end what it held at launch. -/
theorem W6_main_arg10 (c : Dev nD) : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-- `main_arg11` holds at the end what it held at launch. -/
theorem W6_main_arg11 (c : Dev nD) : W6 m c (Proc.devRef .tc main_arg11) = m ((c : Thread nD τ).loc main_arg11) :=
  calc W6 m c (Proc.devRef .tc main_arg11)
    _ = W5 m c (Proc.devRef .tc main_arg11) := (W6_arr m c 4).trans (((dat2 (w5 m) c).arrAt_in 4 rfl _).trans (A_eq2 (w5 m) c 4))
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

/-- `main_arg12` holds at the end what it held at launch. -/
theorem W6_main_arg12 (c : Dev nD) : W6 m c (Proc.devRef .tc main_arg12) = m ((c : Thread nD τ).loc main_arg12) :=
  calc W6 m c (Proc.devRef .tc main_arg12)
    _ = W5 m c (Proc.devRef .tc main_arg12) := (W6_arr m c 6).trans (((dat2 (w5 m) c).arrAt_in 6 rfl _).trans (A_eq2 (w5 m) c 6))
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-- `main_arg13` holds at the end what it held at launch. -/
theorem W6_main_arg13 (c : Dev nD) : W6 m c (Proc.devRef .tc main_arg13) = m ((c : Thread nD τ).loc main_arg13) :=
  calc W6 m c (Proc.devRef .tc main_arg13)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

/-! ## The proof data of the three pipelines and the thread state between items -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (w1 m) c
  | ⟨1, _⟩ => fun c => dat1 (w3 m) c
  | ⟨2, _⟩ => fun c => dat2 (w5 m) c

/-- No core owes another anything, so no pair carries a level. -/
abbrev L0 : GSem nD τ sig → Finset Unit := fun _ => ∅
abbrev lv0 : GSem nD τ sig → Unit → ℕ := fun _ _ => 0

/-- A core owing nothing, whatever pairs its waits recorded. -/
abbrev owesNone (c : Dev nD) : sProp 𝕄 := iprop(∃ W, owes (c : Thread nD τ) (0 : CellTallies nD τ sig Unit) W)
/-- The core's generator register at some state. -/
abbrev regSome (c : Dev nD) : sProp 𝕄 := iprop(∃ r, prngReg c r)
/-- What a core holds beside its unscoped buffers at every boundary. -/
abbrev Rst (c : Dev nD) : sProp 𝕄 := iprop(regSome (F := F) c ∗ owesNone (F := F) c)
/-- The thread state at a boundary whose contents are `W`. -/
abbrev stAt (W : Dev nD → Valuation τ sig (Elt F)) (c : Dev nD) : sProp 𝕄 :=
  iprop(StableHlo.held (c : Thread nD τ) (Pipeline.ucRefs τ sig) (W c) ∗ Rst (F := F) c)
/-- The last thread state, the dues apart. -/
abbrev Tend (c : Dev nD) : sProp 𝕄 :=
  iprop(StableHlo.held (c : Thread nD τ) (Pipeline.ucRefs τ sig) (W6 m c) ∗ regSome (F := F) c)

/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A stretch of host operations from the contents `W`: it leaves the unscoped buffers at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rst (F := F))

/-! ## Dues: a core that owes nothing meets, and is left by, proof data that owe nothing -/

theorem dues_in {cfg : Cfg sig Λ₀} {c : Dev nD} (d : Dat τ (Elt F) Unit ℕ (UR sig nD τ) ℕ cfg c) (t : Fin (cfg.N + 1))
    (ho : d.owed t = 0) (hr : d.recorded t = Set.univ) : owesNone (F := F) c ⊢ d.owesAt () t := by
  show _ ⊢ Pipeline.owesWithin c (d.owed t) (d.bound () t)
  rw [ho]
  iintro ⟨%W, HO⟩
  iexists W
  isplitr
  · ipureintro; exact fun x _ => Or.inl (hr ▸ Set.mem_univ x)
  iexact HO

theorem dues_out {cfg : Cfg sig Λ₀} {c : Dev nD} (d : Dat τ (Elt F) Unit ℕ (UR sig nD τ) ℕ cfg c) (t : Fin (cfg.N + 1))
    (ho : d.owed t = 0) : d.owesAt () t ⊢ owesNone (F := F) c := by
  show Pipeline.owesWithin c (d.owed t) (d.bound () t) ⊢ _
  rw [ho]
  iintro ⟨%W, -, HO⟩
  iexists W
  iexact HO

set_option backward.isDefEq.respectTransparency.types false in
/-- Region 0: entered with every unscoped buffer at `W1`, left with them at `W2`. The register and the
    scoped buffers no window stages go into the invariant and come back; nothing is owed; the kernel has no semaphore
    of its own. -/
def reg0 (hb0 : ∀ c, BodyObligation (dat0 (F := F) (w1 m) c) (defs₀ (F := F)) Variants.none () Set.univ) :
    Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L0 lv0 0 fun _ _ => rfl
  pre := stAt (F := F) (W1 m)
  post := stAt (F := F) (W2 m)
  X := regSome (F := F)
  Y := regSome (F := F)
  Z c := Pipeline.unscopedRest (Ix := Unit) (Name := ℕ) (U := UR sig nD τ) (Lvl := ℕ) spec0 c (w1 m c)
  hentry c := by
    rw [Pipeline.ownSems0_none]
    have harrs := Pipeline.arrays_of_unscopedBufs (p := 0) (pcfgs (F := F)) adm (pdats m) launch0.win launch0.arr_whole c
      ((pdats m 0 c).share_full fun _ => rfl) (w1 m c) fun _ => rfl
    rw [Pipeline.unscopedBufs_held] at harrs
    have hdue := dues_in (pdats m 0 c) 0 rfl rfl
    iintro ⟨⟨Hbufs, Hreg, Hdue⟩, -, -⟩
    ihave Hsp := harrs $$ Hbufs
    icases Hsp with ⟨Harr, Hrest⟩
    ihave Hd := hdue $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 0 c).Φ 0 = Pipeline.ΦA spec0 c from rfl]
    unfold Pipeline.ΦA
    iintro ⟨Hreg, -, Hsc⟩
    isplitl [Hsc]; · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]; · iexact Hreg
    isplitr; · iempintro
    iexact Hsc
  hexit c := by
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (w1 m c) (w2 m c) ((pdats m 0 c).arrAt · cfg0.N) (hF0 m c) (hrest0 m c)
    rw [Pipeline.unscopedBufs_held] at hback
    have hdue := dues_out (pdats m 0 c) (Fin.last _) rfl
    iintro ⟨Harr, Hdue, Hreg, Hrest⟩
    ihave Hd := hdue $$ Hdue
    imodintro
    isplitl [Harr Hrest]
    · iapply hback; isplitl [Harr] <;> iassumption
    isplitl [Hreg]; · iexact Hreg
    iexact Hd

set_option backward.isDefEq.respectTransparency.types false in
/-- Region 1: entered with every unscoped buffer at `W3`, left with them at `W4`. The register and the
    scoped buffers no window stages go into the invariant and come back; nothing is owed; the kernel has no semaphore
    of its own. -/
def reg1 (hb1 : ∀ c, BodyObligation (dat1 (F := F) (w3 m) c) (defs₀ (F := F)) Variants.none () Set.univ) :
    Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L0 lv0 1 fun _ _ => rfl
  pre := stAt (F := F) (W3 m)
  post := stAt (F := F) (W4 m)
  X := regSome (F := F)
  Y := regSome (F := F)
  Z c := Pipeline.unscopedRest (Ix := Unit) (Name := ℕ) (U := UR sig nD τ) (Lvl := ℕ) spec1 c (w3 m c)
  hentry c := by
    rw [Pipeline.ownSems0_none]
    have harrs := Pipeline.arrays_of_unscopedBufs (p := 1) (pcfgs (F := F)) adm (pdats m) launch1.win launch1.arr_whole c
      ((pdats m 1 c).share_full fun _ => rfl) (w3 m c) fun _ => rfl
    rw [Pipeline.unscopedBufs_held] at harrs
    have hdue := dues_in (pdats m 1 c) 0 rfl rfl
    iintro ⟨⟨Hbufs, Hreg, Hdue⟩, -, -⟩
    ihave Hsp := harrs $$ Hbufs
    icases Hsp with ⟨Harr, Hrest⟩
    ihave Hd := hdue $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (w3 m c) (w4 m c) ((pdats m 1 c).arrAt · cfg1.N) (hF1 m c) (hrest1 m c)
    rw [Pipeline.unscopedBufs_held] at hback
    have hdue := dues_out (pdats m 1 c) (Fin.last _) rfl
    iintro ⟨Harr, Hdue, Hreg, Hrest⟩
    ihave Hd := hdue $$ Hdue
    imodintro
    isplitl [Harr Hrest]
    · iapply hback; isplitl [Harr] <;> iassumption
    isplitl [Hreg]; · iexact Hreg
    iexact Hd

set_option backward.isDefEq.respectTransparency.types false in
/-- Region 2: entered with every unscoped buffer at `W5`, left with them at `W6`, the end of @main. Its invariant
    is the pooling region's own (the two running totals beside the other scoped buffers and the register); its two
    ends are the hypotheses, stated over the same two conjuncts the region hands in and takes back. -/
def reg2 (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) :
    Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L0 lv0 2 fun _ _ => rfl
  pre := stAt (F := F) (W5 m)
  post c := iprop(Tend m c ∗ owesNone (F := F) c)
  X := regSome (F := F)
  Y := regSome (F := F)
  Z c := Pipeline.unscopedRest (Ix := Unit) (Name := ℕ) (U := UR sig nD τ) (Lvl := ℕ) spec2 c (w5 m c)
  hentry c := by
    rw [Pipeline.ownSems0_none]
    have harrs := Pipeline.arrays_of_unscopedBufs (p := 2) (pcfgs (F := F)) adm (pdats m) launch2.win launch2.arr_whole c
      ((pdats m 2 c).share_full fun _ => rfl) (w5 m c) fun _ => rfl
    rw [Pipeline.unscopedBufs_held] at harrs
    have hdue := dues_in (pdats m 2 c) 0 rfl rfl
    iintro ⟨⟨Hbufs, Hreg, Hdue⟩, -, -⟩
    ihave Hsp := harrs $$ Hbufs
    icases Hsp with ⟨Harr, Hrest⟩
    ihave Hd := hdue $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 2 c).Φ 0 = Phi2 (w5 m) c 0 from rfl]
    iintro ⟨Hreg, -, Hsc⟩
    iapply hin c
    isplitl [Hreg]; · iexact Hreg
    iexact Hsc
  hout c := by
    rw [Pipeline.ownSems0_none, show (pdats m 2 c).Φ (Fin.last _) = Phi2 (w5 m) c (Fin.last cfg2.N) from rfl]
    refine (hout c).trans ?_
    iintro ⟨Hreg, Hsc⟩
    isplitl [Hreg]; · iexact Hreg
    isplitr; · iempintro
    iexact Hsc
  hexit c := by
    have hback := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (w5 m c) (w6 m c) ((pdats m 2 c).arrAt · cfg2.N) (hF2 m c) (hrest2 m c)
    rw [Pipeline.unscopedBufs_held] at hback
    have hdue := dues_out (pdats m 2 c) (Fin.last _) rfl
    iintro ⟨Harr, Hdue, Hreg, Hrest⟩
    ihave Hd := hdue $$ Hdue
    imodintro
    isplitl [Harr Hrest Hreg]
    · isplitl [Harr Hrest]
      · iapply hback; isplitl [Harr] <;> iassumption
      iexact Hreg
    iexact Hd

/-! ## @main as its six items, and the launch -/

/-- @main's items in order, each host stretch from its boundary's contents. -/
abbrev runSegs (hb0 : ∀ c, BodyObligation (dat0 (F := F) (w1 m) c) (defs₀ (F := F)) Variants.none () Set.univ) (hb1 : ∀ c, BodyObligation (dat1 (F := F) (w3 m) c) (defs₀ (F := F)) Variants.none () Set.univ) (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) :
    List (Pipeline.Seg (pcfgs (F := F)) adm (pdats m) () defs₀ Variants.none L0 lv0) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2 hin hout) ]

/-- @main is the run of those items. -/
theorem main_run (hb0 : ∀ c, BodyObligation (dat0 (F := F) (w1 m) c) (defs₀ (F := F)) Variants.none () Set.univ) (hb1 : ∀ c, BodyObligation (dat1 (F := F) (w3 m) c) (defs₀ (F := F)) Variants.none () Set.univ) (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) (c : Dev nD) :
    main (F := F) c = Pipeline.Seg.run (runSegs m hb0 hb1 hb2 hin hout) :=
  main_segs adm (pdats m) () Variants.none L0 lv0 _ _ _ (reg0 m hb0) (reg1 m hb1) (reg2 m hb2 hin hout) rfl rfl rfl c

set_option backward.isDefEq.respectTransparency.types false in
/-- From any memory with every counter at zero, every weakly fair execution of @main terminates, and at the end every
    unscoped buffer of every core holds what the fold's last valuation says. -/
theorem run_all (ρ : Dev nD → PrngReg)
    (hb0 : ∀ c, BodyObligation (dat0 (F := F) (w1 m) c) (defs₀ (F := F)) Variants.none () Set.univ)
    (hb1 : ∀ c, BodyObligation (dat1 (F := F) (w3 m) c) (defs₀ (F := F)) Variants.none () Set.univ)
    (hb2 : ∀ c, BodyObligation (dat2 (F := F) (w5 m) c) (defs₀ (F := F)) Variants.none () Set.univ)
    (hin : ∀ c, iprop((∃ r, prngReg c r) ∗ Pipeline.scopedRest (Ix := Unit) (Name := ℕ) (U := UR sig nD τ) (Lvl := ℕ) (Val := Elt F) spec2 c) ⊢ (Phi2 (w5 m) c 0 : sProp 𝕄))
    (hout : ∀ c, (Phi2 (w5 m) c (Fin.last cfg2.N) : sProp 𝕄) ⊢ iprop((∃ r, prngReg c r) ∗ Pipeline.scopedRest (Ix := Unit) (Name := ℕ) (U := UR sig nD τ) (Lvl := ℕ) (Val := Elt F) spec2 c)) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  Pipeline.θ_run_regions_kit (pcfgs (F := F)) adm (pdats m) () cellOf_inj emb₁ defs₀ Variants.none L0 lv0 m ρ main
    (runSegs m hb0 hb1 hb2 hin hout)
    (fun c Q => by rw [main_run m hb0 hb1 hb2 hin hout c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stAt (F := F) (W0 m)) (Tₙ := Tend m)
    (hch := ⟨fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem ((c : Thread nD τ).1, b) = W6 m c b)
    (hfin := fun c s' => by
      iintro ⟨⟨Hbufs, -⟩, HSI⟩
      unfold StableHlo.held
      imodintro
      iapply (pointsTo_read_all (Pipeline.ucRefs τ sig) (fun b => ((c : Thread nD τ).1, b)) (W6 m c) s')
      isplitl [Hbufs] <;> iassumption)
    (hQ := fun s h c => h c)

end Cert.Kernel.Hand

end
-- ==== Proof.K.R0.lean ====
/-
  Region 0's body obligation: one GraphConv layer on a row tile.

  At every tile the five input windows' staging buffers hold their blocks of the arrays the region finds — the
  two row tiles are fetched at every tile, the two weights and the bias row at the first tile only, and an
  unfetched buffer still holds the block fetched before, because its block index does not move. The body reads
  the five buffers whole, reads the output buffer (the value is not used), and overwrites the output buffer
  whole with `relu((x0 · x2 + x3) + x1 · x4)`; the inputs are left as they were.
-/
import proofs.«417198_j24592982737081_2_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The input windows' staging buffers hold their blocks -/

/-- Window 0 (the tile of `agg`): fetched at every tile. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (the tile of `h`): fetched at every tile. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (`W_rel`): one block for every tile, fetched at the first; later the buffer keeps it. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Window 3 (the bias row): one block for every tile. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Window 4 (`W_root`): one block for every tile. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's triple -/

set_option maxHeartbeats 1000000 in
/-- The body on whole staging buffers, the five inputs' at contents `x0 … x4` and the output's at anything, runs to
    the inputs' buffers as they were and the output's at `out0_5 x0 x1 x2 x3 x4`: five whole loads, one more of the
    output buffer whose value is dropped, and one whole store of the payload over the loaded values. -/
theorem sound_kernel0 (c : Dev nD) (E : Set ℕ) (i : cfg0.grid.Coords)
    (a0 : Memref sig .tc .vmem S5000x64 .f32) (ha0 : a0.IsWhole) (a1 : Memref sig .tc .vmem S5000x64 .f32) (ha1 : a1.IsWhole)
    (a2 : Memref sig .tc .vmem S64x64 .f32) (ha2 : a2.IsWhole) (a3 : Memref sig .tc .vmem S1x64 .f32) (ha3 : a3.IsWhole)
    (a4 : Memref sig .tc .vmem S64x64 .f32) (ha4 : a4.IsWhole) (a5 : Memref sig .tc .vmem S5000x64 .f32) (ha5 : a5.IsWhole)
    (x0 x1 : Vec F S5000x64 .f32) (x2 : Vec F S64x64 .f32) (x3 : Vec F S1x64 .f32) (x4 : Vec F S64x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)) -∗ K ⟨⟩))
      ⊢ wp frame (wpE (defs₀ (F := F)) Variants.none c none) E
          (cc0__graphconv_kernel i a0 ha0 a1 ha1 a2 ha2 a3 ha3 a4 ha4 a5 ha5) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon]
  · rw [View.canon_unit_zero hz]
    simp only [View.readAt_eq_ld, View.ld_unit_zero (S := S5000x64) hz, View.ld_unit_zero (S := S64x64) hz,
      View.ld_unit_zero (S := S1x64) hz]
    unfold out0_5
    rfl
  · intro y
    refine ⟨_, List.mem_singleton_self _, ?_⟩
    exact View.mem_set_unit_zero hz inb_S5000x64_S5000x64_0_0 y

/-! ## The body obligation -/

/-- What the body is called with at tile `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the invariant and the core's debt at the next tile, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at tile `t`. The five inputs' buffers hold their blocks (`before0_0 … before0_4`), the output's
    holds something, so the triple applies with `x0 … x4` the blocks; what it leaves is what the proof data
    says the body leaves. The invariant and the core's debt do not change from one tile to the next and the body
    does not touch them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [after0_0, after0_1, after0_2, after0_3, after0_4, after0_5,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, H5⟩
  iapply (sound_kernel0 c Set.univ _ _ _ _ _ _ _ _ _ _ _ _ _
    (iblk0 V c 0 t) (iblk0 V c 1 t) (iblk0 V c 2 t) (iblk0 V c 3 t) (iblk0 V c 4 t) _)
  iframe H0 H1 H2 H3 H4
  isplitl [H5]
  · icases H5 with ⟨%d5, H5⟩
    iexists _; iexact H5
  iintro ⟨H0, H1, H2, H3, H4, H5⟩
  iframe

/-- The library's body obligation, at every tile: its two products over the six windows written out. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1's body obligation: one GraphConv layer on a row tile.

  At every tile the five input windows' staging buffers hold their blocks of the arrays the region finds — the
  two row tiles are fetched at every tile, the two weights and the bias row at the first tile only, and an
  unfetched buffer still holds the block fetched before, because its block index does not move. The body reads
  the five buffers whole, reads the output buffer (the value is not used), and overwrites the output buffer
  whole with `relu((x0 · x2 + x3) + x1 · x4)`; the inputs are left as they were.
-/
import proofs.«417198_j24592982737081_2_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The input windows' staging buffers hold their blocks -/

/-- Window 0 (the tile of `agg`): fetched at every tile. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Window 1 (the tile of `h`): fetched at every tile. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Window 2 (`W_rel`): one block for every tile, fetched at the first; later the buffer keeps it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Window 3 (the bias row): one block for every tile. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Window 4 (`W_root`): one block for every tile. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's triple -/

set_option maxHeartbeats 1000000 in
/-- The body on whole staging buffers, the five inputs' at contents `x0 … x4` and the output's at anything, runs to
    the inputs' buffers as they were and the output's at `out1_5 x0 x1 x2 x3 x4`: five whole loads, one more of the
    output buffer whose value is dropped, and one whole store of the payload over the loaded values. -/
theorem sound_kernel1 (c : Dev nD) (E : Set ℕ) (i : cfg1.grid.Coords)
    (a0 : Memref sig .tc .vmem S5000x64 .f32) (ha0 : a0.IsWhole) (a1 : Memref sig .tc .vmem S5000x64 .f32) (ha1 : a1.IsWhole)
    (a2 : Memref sig .tc .vmem S64x64 .f32) (ha2 : a2.IsWhole) (a3 : Memref sig .tc .vmem S1x64 .f32) (ha3 : a3.IsWhole)
    (a4 : Memref sig .tc .vmem S64x64 .f32) (ha4 : a4.IsWhole) (a5 : Memref sig .tc .vmem S5000x64 .f32) (ha5 : a5.IsWhole)
    (x0 x1 : Vec F S5000x64 .f32) (x2 : Vec F S64x64 .f32) (x3 : Vec F S1x64 .f32) (x4 : Vec F S64x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out1_5 x0 x1 x2 x3 x4)) -∗ K ⟨⟩))
      ⊢ wp frame (wpE (defs₀ (F := F)) Variants.none c none) E
          (cc1__graphconv_kernel i a0 ha0 a1 ha1 a2 ha2 a3 ha3 a4 ha4 a5 ha5) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → ℕ) = fun _ => 0 := by funext a; fin_cases a <;> rfl
  rw [View.read_writes_eq_canon]
  · rw [View.canon_unit_zero hz]
    simp only [View.readAt_eq_ld, View.ld_unit_zero (S := S5000x64) hz, View.ld_unit_zero (S := S64x64) hz,
      View.ld_unit_zero (S := S1x64) hz]
    unfold out1_5
    rfl
  · intro y
    refine ⟨_, List.mem_singleton_self _, ?_⟩
    exact View.mem_set_unit_zero hz inb_S5000x64_S5000x64_0_0 y

/-! ## The body obligation -/

/-- What the body is called with at tile `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the invariant and the core's debt at the next tile, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at tile `t`. The five inputs' buffers hold their blocks (`before1_0 … before1_4`), the output's
    holds something, so the triple applies with `x0 … x4` the blocks; what it leaves is what the proof data
    says the body leaves. The invariant and the core's debt do not change from one tile to the next and the body
    does not touch them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [after1_0, after1_1, after1_2, after1_3, after1_4, after1_5,
    show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, H5⟩
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]
  · icases H5 with ⟨%d5, H5⟩
    iexists _; iexact H5
  iintro ⟨H0, H1, H2, H3, H4, H5⟩
  iframe

/-- The library's body obligation, at every tile: its two products over the six windows written out. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2's body obligation and the two ends of its invariant.

  The body has two branches on the tile number. At the first tile it stores the zero sum and the zero count into the
  two scratch buffers. At every tile it then loads the six per-tile and constant operands whole, reads the running sum,
  stores the sum plus this tile's contribution, reads the running count, and stores the count plus this tile's column
  sums. At the last tile it reads both scratch buffers and the head's weight and bias and stores the output block.
  So there are three courses of the body — first tile, a middle tile, last tile — and one statement for each, over any
  whole buffers; the obligation is the case split over the tile, the scratch contents before the tile taken from the
  invariant (`sumsAt t`, `cntsAt t`; anything at the first tile) and left at `sumsAt (t+1)`, `cntsAt (t+1)`.
  The output window is idle away from the last tile and is handed back as found; at the last tile it is left at
  `out2_8` of the final sum and count.

  The invariant's ends: before the first tile the two scratch buffers are taken out of the scoped rest at whatever
  they hold; after the last tile they are put back, their contents forgotten.
-/
import proofs.«417198_j24592982737081_2_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's two ends -/

/-- The scoped rest split at the two scratch buffers. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c scr2) :=
  Pipeline.scopedRest_split_of_list spec2 c scr2 (by decide) (by decide)

/-- Before the first tile: the two scratch buffers, at whatever they hold, come out of the scoped rest; the invariant's
    fact about their contents is vacuous there. -/
theorem hin2 (c : Dev nD) :
    iprop((∃ r, prngReg c r) ∗ Pipeline.scopedRest (Ix := Unit) (Name := ℕ) (U := UR sig nD τ) (Lvl := ℕ) (Val := Elt F) spec2 c)
      ⊢ (Phi2 V c 0 : sProp 𝕄) := by
  rw [scopedRest2_split]
  unfold Phi2
  iintro ⟨Hr, ⟨⟨%f0, H0⟩, ⟨%f1, H1⟩⟩, Hrest⟩
  isplitl [Hrest]
  · iexact Hrest
  isplitl [Hr]
  · iexact Hr
  iexists f0, f1
  rw [owns_whole, owns_whole]
  isplitl [H0]
  · iexact H0
  isplitl [H1]
  · iexact H1
  ipureintro
  intro h; exact absurd rfl h

/-- After the last tile: the two scratch buffers go back into the scoped rest, their contents forgotten. -/
theorem hout2 (c : Dev nD) :
    (Phi2 V c (Fin.last cfg2.N) : sProp 𝕄)
      ⊢ iprop((∃ r, prngReg c r) ∗ Pipeline.scopedRest (Ix := Unit) (Name := ℕ) (U := UR sig nD τ) (Lvl := ℕ) (Val := Elt F) spec2 c) := by
  rw [scopedRest2_split]
  unfold Phi2
  simp only [owns_whole]
  iintro ⟨Hrest, Hr, %d0, %d1, H0, H1, -⟩
  isplitl [Hr]
  · iexact Hr
  isplitr [Hrest]
  · isplitl [H0]
    · iexists d0; iexact H0
    · iexists d1; iexact H1
  · iexact Hrest

/-! ## The three courses of the body -/

/-- Zero offsets, however spelt. -/
theorem hz2 : (![0, 0] : Fin 2 → Nat) = fun _ => 0 := funext fun a => by fin_cases a <;> rfl

/-- The first branch's condition: the tile is the first. -/
abbrev cond2_0 (i : grid2.Coords) : Prop :=
  (Scalar.cmpi .ne (Scalar.extui (Scalar.cmpi .eq (BitVec.ofNat 32 (i 0).val) 0#32)) 0#32) = 1#1
/-- The second branch's condition: the tile is the last. -/
abbrev cond2_1 (i : grid2.Coords) : Prop := k2_cond2 i = 1#1

set_option maxHeartbeats 1000000 in
/-- The body at the first tile: both scratch buffers are reset, then the tile's sum and count are added. -/
theorem run2_first (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x1 .i32) (harg6 : arg6.IsWhole) (arg7 : Memref sig .tc .vmem S64x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x64 .f32) (harg10 : arg10.IsWhole) (arg11 : Memref sig .tc .vmem S512x1 .f32) (harg11 : arg11.IsWhole)
    (hc0 : cond2_0 i) (hc1 : ¬cond2_1 i) (x0 x1 : Vec F S2000x64 .f32) (x2 : Vec F S64x64 .f32) (x3 : Vec F S1x64 .f32) (x4 : Vec F S64x64 .f32) (x5 : Vec F S2000x1 .i32) (x6 : Vec F S64x10 .f32) (x7 : Vec F S1x10 .f32) (x8 : Vec F S512x10 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k2_pay1 (k2_pay8 x0 x1 x2 x4 x3 x5 k2_pay4))
            ∗ owns (c : Thread nD τ) arg11 fullShare (k2_pay2 (k2_pay7 x5) k2_pay5)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11) K := by
  simp only [cc2__pool_kernel_eq_skeleton]; unfold cc2__pool_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    rw [View.read_writes_eq_canon _ _ _ (fun y => ⟨_, List.mem_cons_self .., View.mem_set_unit_zero hz2 inb_S512x64_S512x64_0_0 y⟩),
      View.canon_cons_unit_zero (S := S512x64) hz2]
    sl_unfold_run_names
    simp only [View.readAt_eq_ld, harg1.read_unread, harg2.read_unread, harg3.read_unread, harg4.read_unread, harg5.read_unread,
      harg6.read_unread, View.ld_unit_zero (S := S2000x64) hz2, View.ld_unit_zero (S := S64x64) hz2,
      View.ld_unit_zero (S := S1x64) hz2, View.ld_unit_zero (S := S2000x1) hz2, View.readCov_unit_zero (S := S512x64) _ hz2]
  · iexists _; isplitr
    swap; · iexact H11
    ipureintro
    rw [View.read_writes_eq_canon _ _ _ (fun y => ⟨_, List.mem_cons_self .., View.mem_set_unit_zero hz2 inb_S512x1_S512x1_0_0 y⟩),
      View.canon_cons_unit_zero (S := S512x1) hz2]
    sl_unfold_run_names
    simp only [View.readAt_eq_ld, harg6.read_unread, View.ld_unit_zero (S := S2000x1) hz2,
      View.readCov_unit_zero (S := S512x1) _ hz2]

set_option maxHeartbeats 1000000 in
/-- The body at a tile that is neither the first nor the last: the tile's sum and count are added to the scratch. -/
theorem run2_mid (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x1 .i32) (harg6 : arg6.IsWhole) (arg7 : Memref sig .tc .vmem S64x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x64 .f32) (harg10 : arg10.IsWhole) (arg11 : Memref sig .tc .vmem S512x1 .f32) (harg11 : arg11.IsWhole)
    (hc0 : ¬cond2_0 i) (hc1 : ¬cond2_1 i) (x0 x1 : Vec F S2000x64 .f32) (x2 : Vec F S64x64 .f32) (x3 : Vec F S1x64 .f32) (x4 : Vec F S64x64 .f32) (x5 : Vec F S2000x1 .i32) (x6 : Vec F S64x10 .f32) (x7 : Vec F S1x10 .f32) (x8 : Vec F S512x10 .f32)
    (s : Vec F S512x64 .f32) (n : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k2_pay1 (k2_pay8 x0 x1 x2 x4 x3 x5 s))
            ∗ owns (c : Thread nD τ) arg11 fullShare (k2_pay2 (k2_pay7 x5) n)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11) K := by
  simp only [cc2__pool_kernel_eq_skeleton]; unfold cc2__pool_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10; obtain rfl := harg11.eq_unread hf11
  sl_exec (disch := first | exact hc0 | exact hc1)
  sl_step
  iapply Hk

  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    rw [View.read_writes_eq_canon _ _ _ (fun y => ⟨_, List.mem_singleton_self _, View.mem_set_unit_zero hz2 inb_S512x64_S512x64_0_0 y⟩),
      View.canon_unit_zero (S := S512x64) hz2]
    sl_unfold_run_names
    simp only [View.readAt_eq_ld, harg1.read_unread, harg2.read_unread, harg3.read_unread, harg4.read_unread, harg5.read_unread,
      harg6.read_unread, harg10.read_unread, View.ld_unit_zero (S := S2000x64) hz2, View.ld_unit_zero (S := S64x64) hz2,
      View.ld_unit_zero (S := S1x64) hz2, View.ld_unit_zero (S := S2000x1) hz2, View.ld_unit_zero (S := S512x64) hz2]
  · iexists _; isplitr
    swap; · iexact H11
    ipureintro
    rw [View.read_writes_eq_canon _ _ _ (fun y => ⟨_, List.mem_singleton_self _, View.mem_set_unit_zero hz2 inb_S512x1_S512x1_0_0 y⟩),
      View.canon_unit_zero (S := S512x1) hz2]
    sl_unfold_run_names
    simp only [View.readAt_eq_ld, harg6.read_unread, harg11.read_unread, View.ld_unit_zero (S := S2000x1) hz2,
      View.ld_unit_zero (S := S512x1) hz2]

set_option maxHeartbeats 1000000 in
/-- The body at the last tile: the tile's sum and count are added, then the output block is formed from them. -/
theorem run2_last (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x1 .i32) (harg6 : arg6.IsWhole) (arg7 : Memref sig .tc .vmem S64x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x64 .f32) (harg10 : arg10.IsWhole) (arg11 : Memref sig .tc .vmem S512x1 .f32) (harg11 : arg11.IsWhole)
    (hc0 : ¬cond2_0 i) (hc1 : cond2_1 i) (x0 x1 : Vec F S2000x64 .f32) (x2 : Vec F S64x64 .f32) (x3 : Vec F S1x64 .f32) (x4 : Vec F S64x64 .f32) (x5 : Vec F S2000x1 .i32) (x6 : Vec F S64x10 .f32) (x7 : Vec F S1x10 .f32) (x8 : Vec F S512x10 .f32)
    (s : Vec F S512x64 .f32) (n : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k2_pay3 (k2_pay1 (k2_pay8 x0 x1 x2 x4 x3 x5 s)) (k2_pay2 (k2_pay7 x5) n) x6 x7)
            ∗ owns (c : Thread nD τ) arg10 fullShare (k2_pay1 (k2_pay8 x0 x1 x2 x4 x3 x5 s))
            ∗ owns (c : Thread nD τ) arg11 fullShare (k2_pay2 (k2_pay7 x5) n)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11) K := by
  simp only [cc2__pool_kernel_eq_skeleton]; unfold cc2__pool_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg10.eq_unread hf10; obtain rfl := harg11.eq_unread hf11
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    sl_unfold_run_names
    rw [View.read_writes_eq_canon _ _ _ (fun y => ⟨_, List.mem_singleton_self _, View.mem_set_unit_zero hz2 inb_S512x10_S512x10_0_0 y⟩),
      View.canon_unit_zero (S := S512x10) hz2]
    simp only [View.readAt_eq_ld, harg1.read_unread, harg2.read_unread, harg3.read_unread, harg4.read_unread, harg5.read_unread,
      harg6.read_unread, harg7.read_unread, harg8.read_unread, harg10.read_unread, harg11.read_unread,
      View.ld_unit_zero (S := S2000x64) hz2, View.ld_unit_zero (S := S64x64) hz2,
      View.ld_unit_zero (S := S1x64) hz2, View.ld_unit_zero (S := S2000x1) hz2, View.ld_unit_zero (S := S512x64) hz2,
      View.ld_unit_zero (S := S512x1) hz2, View.ld_unit_zero (S := S64x10) hz2, View.ld_unit_zero (S := S1x10) hz2,
      View.readCov_unit_zero (S := S512x64) _ hz2, View.readCov_unit_zero (S := S512x1) _ hz2]
  isplitl [H10]
  · iexists _; isplitr
    swap; · iexact H10
    ipureintro
    sl_unfold_run_names
    rw [View.read_writes_eq_canon _ _ _ (fun y => ⟨_, List.mem_singleton_self _, View.mem_set_unit_zero hz2 inb_S512x64_S512x64_0_0 y⟩),
      View.canon_unit_zero (S := S512x64) hz2]
    simp only [View.readAt_eq_ld, harg1.read_unread, harg2.read_unread, harg3.read_unread, harg4.read_unread, harg5.read_unread,
      harg6.read_unread, harg7.read_unread, harg8.read_unread, harg10.read_unread, harg11.read_unread,
      View.ld_unit_zero (S := S2000x64) hz2, View.ld_unit_zero (S := S64x64) hz2,
      View.ld_unit_zero (S := S1x64) hz2, View.ld_unit_zero (S := S2000x1) hz2, View.ld_unit_zero (S := S512x64) hz2,
      View.ld_unit_zero (S := S512x1) hz2, View.ld_unit_zero (S := S64x10) hz2, View.ld_unit_zero (S := S1x10) hz2,
      View.readCov_unit_zero (S := S512x64) _ hz2, View.readCov_unit_zero (S := S512x1) _ hz2]
  · iexists _; isplitr
    swap; · iexact H11
    ipureintro
    sl_unfold_run_names
    rw [View.read_writes_eq_canon _ _ _ (fun y => ⟨_, List.mem_singleton_self _, View.mem_set_unit_zero hz2 inb_S512x1_S512x1_0_0 y⟩),
      View.canon_unit_zero (S := S512x1) hz2]
    simp only [View.readAt_eq_ld, harg1.read_unread, harg2.read_unread, harg3.read_unread, harg4.read_unread, harg5.read_unread,
      harg6.read_unread, harg7.read_unread, harg8.read_unread, harg10.read_unread, harg11.read_unread,
      View.ld_unit_zero (S := S2000x64) hz2, View.ld_unit_zero (S := S64x64) hz2,
      View.ld_unit_zero (S := S1x64) hz2, View.ld_unit_zero (S := S2000x1) hz2, View.ld_unit_zero (S := S512x64) hz2,
      View.ld_unit_zero (S := S512x1) hz2, View.ld_unit_zero (S := S64x10) hz2, View.ld_unit_zero (S := S1x10) hz2,
      View.readCov_unit_zero (S := S512x64) _ hz2, View.readCov_unit_zero (S := S512x1) _ hz2]

/-! ## The two conditions over the tiles, and where the output window is idle -/

/-- The first condition holds exactly at the first tile. -/
theorem hcond2_0 : ∀ t : Fin cfg2.N, cond2_0 (grid2.coords t) ↔ t.val = 0 :=
  (by decide +kernel : ∀ t : Fin grid2.N, cond2_0 (grid2.coords t) ↔ t.val = 0)
/-- The second condition holds exactly at the last tile. -/
theorem hcond2_1 : ∀ t : Fin cfg2.N, cond2_1 (grid2.coords t) ↔ t.val = 49 :=
  (by decide +kernel : ∀ t : Fin grid2.N, cond2_1 (grid2.coords t) ↔ t.val = 49)
/-- Away from the last tile the output window is idle and is not written back. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last tile it is live. -/
theorem liveAt2_8 : ∀ t : Fin cfg2.N, cond2_1 (grid2.coords t) → cfg2.idle 8 (grid2.coords t) = false := by decide +kernel

/-! ## Each input's staging buffer holds its block at every tile -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-- An input window's buffer is left at its block. -/
theorem leaves2_in (c : Dev nD) (w : Fin cfg2.W) (hw : ∀ i, cfg2.idle w i = false) (t : Fin cfg2.N) :
    (dat2 V c).leavesExact w t = owns (c : Thread nD τ) ((cfg2.win w).stage (cfg2.slots t w)) fullShare ((dat2 V c).after w t) := by
  unfold Dat.leavesExact; rw [hw]

/-! ## The running sum and count, one tile on -/

theorem sumsAt_succ (c : Dev nD) (t : Fin cfg2.N) :
    sumsAt V c (t.val + 1) = k2_pay1 (k2_pay8 (iblk2 V c 0 t) (iblk2 V c 1 t) (iblk2 V c 2 t) (iblk2 V c 4 t)
      (iblk2 V c 3 t) (iblk2 V c 5 t) (sumsAt V c t.val)) := by
  rw [sumsAt]; exact dif_pos t.isLt

theorem cntsAt_succ (c : Dev nD) (t : Fin cfg2.N) :
    cntsAt V c (t.val + 1) = k2_pay2 (k2_pay7 (iblk2 V c 5 t)) (cntsAt V c t.val) := by
  rw [cntsAt]; exact dif_pos t.isLt

/-! ## The body obligation -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
/-- The body at any tile. The inputs' buffers hold their blocks; the tile is the first, a middle one or the last;
    the scratch buffers hold the running sum and count of the tiles before (anything at the first tile, where they
    are reset) and are left at the running sum and count with this tile added; the output's buffer is handed back as
    found except at the last tile, where it is left at the head applied to the pooled means. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [Phi_eq2, Phi_eq2]; unfold Phi2
  simp only [Fin.val_succ, Fin.coe_castSucc]
  rw [sumsAt_succ V c t, cntsAt_succ V c t]
  rw [leaves2_in V c 0 (fun _ => rfl) t, leaves2_in V c 1 (fun _ => rfl) t, leaves2_in V c 2 (fun _ => rfl) t,
    leaves2_in V c 3 (fun _ => rfl) t, leaves2_in V c 4 (fun _ => rfl) t, leaves2_in V c 5 (fun _ => rfl) t,
    leaves2_in V c 6 (fun _ => rfl) t, leaves2_in V c 7 (fun _ => rfl) t,
    after2_0, after2_1, after2_2, after2_3, after2_4, after2_5, after2_6, after2_7]
  have hN : t.val < 50 := lt_of_lt_of_eq t.isLt N_2
  by_cases h0 : t.val = 0
  · -- the first tile
    have hc0 : cond2_0 (grid2.coords t) := (hcond2_0 t).mpr h0
    have hc1 : ¬cond2_1 (grid2.coords t) := fun h => by have := (hcond2_1 t).mp h; omega
    have hs : sumsAt V c t.val = k2_pay4 := by rw [h0]; rfl
    have hn : cntsAt V c t.val = k2_pay5 := by rw [h0]; rfl
    rw [hs, hn, Dat.leavesExact_idle (dat2 V c) 8 t (idleAt2_8 t hc1) (noFlush2_8 t hc1)]
    iintro ⟨⟨Hrest, Hr, %d0, %d1, HS0, HS1, %hd⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (run2_first c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t e8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    iintro ⟨H0, H1, H2, H3, H4, H5, H6, H7, H8, HS0, HS1⟩
    isplitl [Hrest Hr HS0 HS1]
    · isplitl [Hrest]; · iexact Hrest
      isplitl [Hr]; · iexact Hr
      iexists _, _
      isplitl [HS0]; · iexact HS0
      isplitl [HS1]; · iexact HS1
      ipureintro; exact fun _ => ⟨rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond2_0 (grid2.coords t) := fun h => h0 ((hcond2_0 t).mp h)
    by_cases h1 : t.val = 49
    · -- the last tile
      have hc1 : cond2_1 (grid2.coords t) := (hcond2_1 t).mpr h1
      rw [show (dat2 V c).leavesExact 8 t = owns (c : Thread nD τ) (st2_8 t) fullShare ((dat2 V c).after 8 t) from by
        unfold Dat.leavesExact; rw [liveAt2_8 t hc1], after2_8]
      unfold out2_8
      rw [sumsAt_succ V c t, cntsAt_succ V c t]
      iintro ⟨⟨Hrest, Hr, %d0, %d1, HS0, HS1, %hd⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      obtain ⟨rfl, rfl⟩ := hd h0
      iapply (run2_last c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t e8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [Hrest Hr HS0 HS1]
      · isplitl [Hrest]; · iexact Hrest
        isplitl [Hr]; · iexact Hr
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle tile
      have hc1 : ¬cond2_1 (grid2.coords t) := fun h => h1 ((hcond2_1 t).mp h)
      rw [Dat.leavesExact_idle (dat2 V c) 8 t (idleAt2_8 t hc1) (noFlush2_8 t hc1)]
      iintro ⟨⟨Hrest, Hr, %d0, %d1, HS0, HS1, %hd⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      obtain ⟨rfl, rfl⟩ := hd h0
      iapply (run2_mid c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) ((dat2 V c).before 8 t e8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [Hrest Hr HS0 HS1]
      · isplitl [Hrest]; · iexact Hrest
        isplitl [Hr]; · iexact Hr
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- Region 2's body obligation. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.Frames.lean ====
/-
  The three frame claims.

  Each kernel program's run (the six items of @main, one after the other) ends with every unscoped buffer at the
  last valuation of the fold, and an argument's buffer read off that valuation is the launch memory's: no host
  operation writes an argument and a kernel region only reads one. The same text serves the word-level program and
  its idealization, each at its own float instance. The reference has no kernel: its frame is its run with the
  result dropped.
-/
import proofs.«417198_j24592982737081_2_alg».proof.Defs
import proofs.«417198_j24592982737081_2_alg».proof.Proof.KI.Run
import proofs.«417198_j24592982737081_2_alg».proof.Proof.KI.R0
import proofs.«417198_j24592982737081_2_alg».proof.Proof.KI.R1
import proofs.«417198_j24592982737081_2_alg».proof.Proof.KI.R2
import proofs.«417198_j24592982737081_2_alg».proof.Proof.K.Run
import proofs.«417198_j24592982737081_2_alg».proof.Proof.K.R0
import proofs.«417198_j24592982737081_2_alg».proof.Proof.K.R1
import proofs.«417198_j24592982737081_2_alg».proof.Proof.K.R2
import proofs.«417198_j24592982737081_2_alg».proof.Proof.Gen.ReferenceIdeal.Run
import proofs.«417198_j24592982737081_2_alg».proof.Proof.Gen.Pre_finite_inputs

noncomputable section

namespace Cert.Proof.Frames

open Idealize.ShloMosaic Idealize.ShloMosaic.TcCoe Idealize.SL.Sem

/-- The idealized kernel program's run, every unscoped buffer read at the end. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem ((c : Thread Cert.KernelIdeal.nD Cert.KernelIdeal.τ).1, b) = Cert.KernelIdeal.Hand.W6 m c b) :=
  Cert.KernelIdeal.Hand.run_all (F := Ideal) m ρ
    (fun c => Cert.KernelIdeal.Hand.body_obligation0 (Cert.KernelIdeal.Hand.w1 m) c)
    (fun c => Cert.KernelIdeal.Hand.body_obligation1 (Cert.KernelIdeal.Hand.w3 m) c)
    (fun c => Cert.KernelIdeal.Hand.body_obligation2 (Cert.KernelIdeal.Hand.w5 m) c)
    (fun c => Cert.KernelIdeal.Hand.hin2 (Cert.KernelIdeal.Hand.w5 m) c)
    (fun c => Cert.KernelIdeal.Hand.hout2 (Cert.KernelIdeal.Hand.w5 m) c)

/-- The word-level kernel program's run. -/
theorem run_k (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD, ∀ b ∈ Pipeline.ucRefs Cert.Kernel.τ Cert.Kernel.sig,
        r.2.mem ((c : Thread Cert.Kernel.nD Cert.Kernel.τ).1, b) = Cert.Kernel.Hand.W6 m c b) :=
  Cert.Kernel.Hand.run_all (F := Bits) m ρ
    (fun c => Cert.Kernel.Hand.body_obligation0 (Cert.Kernel.Hand.w1 m) c)
    (fun c => Cert.Kernel.Hand.body_obligation1 (Cert.Kernel.Hand.w3 m) c)
    (fun c => Cert.Kernel.Hand.body_obligation2 (Cert.Kernel.Hand.w5 m) c)
    (fun c => Cert.Kernel.Hand.hin2 (Cert.Kernel.Hand.w5 m) c)
    (fun c => Cert.Kernel.Hand.hout2 (Cert.Kernel.Hand.w5 m) c)

theorem frame_k : Cert.frame_Kernel := by
  intro m ρ _
  refine (θ_run Cert.Kernel.defs _ _).mono ?_ (run_k m ρ)
  intro r h c
  exact ⟨(h c _ (Cert.Kernel.Hand.mem_uc Cert.Kernel.main_arg0 (by decide))).trans (Cert.Kernel.Hand.W6_main_arg0 m c),
      (h c _ (Cert.Kernel.Hand.mem_uc Cert.Kernel.main_arg1 (by decide))).trans (Cert.Kernel.Hand.W6_main_arg1 m c),
      (h c _ (Cert.Kernel.Hand.mem_uc Cert.Kernel.main_arg2 (by decide))).trans (Cert.Kernel.Hand.W6_main_arg2 m c),
      (h c _ (Cert.Kernel.Hand.mem_uc Cert.Kernel.main_arg3 (by decide))).trans (Cert.Kernel.Hand.W6_main_arg3 m c),
      (h c _ (Cert.Kernel.Hand.mem_uc Cert.Kernel.main_arg4 (by decide))).trans (Cert.Kernel.Hand.W6_main_arg4 m c),
      (h c _ (Cert.Kernel.Hand.mem_uc Cert.Kernel.main_arg5 (by decide))).trans (Cert.Kernel.Hand.W6_main_arg5 m c),
      (h c _ (Cert.Kernel.Hand.mem_uc Cert.Kernel.main_arg6 (by decide))).trans (Cert.Kernel.Hand.W6_main_arg6 m c),
      (h c _ (Cert.Kernel.Hand.mem_uc Cert.Kernel.main_arg7 (by decide))).trans (Cert.Kernel.Hand.W6_main_arg7 m c),
      (h c _ (Cert.Kernel.Hand.mem_uc Cert.Kernel.main_arg8 (by decide))).trans (Cert.Kernel.Hand.W6_main_arg8 m c),
      (h c _ (Cert.Kernel.Hand.mem_uc Cert.Kernel.main_arg9 (by decide))).trans (Cert.Kernel.Hand.W6_main_arg9 m c),
      (h c _ (Cert.Kernel.Hand.mem_uc Cert.Kernel.main_arg10 (by decide))).trans (Cert.Kernel.Hand.W6_main_arg10 m c),
      (h c _ (Cert.Kernel.Hand.mem_uc Cert.Kernel.main_arg11 (by decide))).trans (Cert.Kernel.Hand.W6_main_arg11 m c),
      (h c _ (Cert.Kernel.Hand.mem_uc Cert.Kernel.main_arg12 (by decide))).trans (Cert.Kernel.Hand.W6_main_arg12 m c),
      (h c _ (Cert.Kernel.Hand.mem_uc Cert.Kernel.main_arg13 (by decide))).trans (Cert.Kernel.Hand.W6_main_arg13 m c)⟩

theorem frame_ki : Cert.frame_KernelIdeal := by
  intro m ρ _
  refine (θ_run Cert.KernelIdeal.defs _ _).mono ?_ (run_ki m ρ)
  intro r h c
  exact ⟨(h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c),
      (h c _ (Cert.KernelIdeal.Hand.mem_uc Cert.KernelIdeal.main_arg10 (by decide))).trans (Cert.KernelIdeal.Hand.W6_main_arg10 m c),
      (h c _ (Cert.KernelIdeal.Hand.mem_uc Cert.KernelIdeal.main_arg11 (by decide))).trans (Cert.KernelIdeal.Hand.W6_main_arg11 m c),
      (h c _ (Cert.KernelIdeal.Hand.mem_uc Cert.KernelIdeal.main_arg12 (by decide))).trans (Cert.KernelIdeal.Hand.W6_main_arg12 m c),
      (h c _ (Cert.KernelIdeal.Hand.mem_uc Cert.KernelIdeal.main_arg13 (by decide))).trans (Cert.KernelIdeal.Hand.W6_main_arg13 m c)⟩

theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.KI.Spec.lean ====
/-
  The mathematics both programs compute, index by index over the extended reals.

  One GraphConv layer at node p, feature q, from the aggregated neighbour features `a`, the node features `h`,
  the two 64×64 weights and the bias:  (Σ_k a[p,k]·W_rel[k,q] + b[q]) + Σ_k h[p,k]·W_root[k,q],  clipped below at 0
  when the layer has its relu.

  Mean pooling over the 512 graphs and the linear head: graph g's feature sum is the sum of the rows of the nodes
  whose graph id is g, its count the number of such nodes; the pooled feature is sum / max(count, 1); the result at
  (g, j) is Σ_k pooled[g,k]·W_lin[k,j] + b_lin[j]. A node whose id is not one of 0..511 belongs to no graph.
-/
import Idealize.ShloMosaic.PureOps.Ideal
import Idealize.ShloMosaic.Lib.ValueIdx

noncomputable section

namespace Cert.Spec

open Idealize.ShloMosaic Idealize.ShloMosaic.ValueIdx

/-- The shapes, spelt as both programs spell them. -/
abbrev SNodes : Shape := ⟨2, ![100000, 64]⟩
abbrev SW : Shape := ⟨2, ![64, 64]⟩
abbrev SIds : Shape := ⟨1, ![100000]⟩
abbrev SHead : Shape := ⟨2, ![64, 10]⟩
abbrev SOut : Shape := ⟨2, ![512, 10]⟩

/-- One layer at node `p`, feature `q`. -/
def layerAt (act : Bool) (a h : SNodes.Idx → EReal) (wr : SW.Idx → EReal) (b : Fin 64 → EReal) (wo : SW.Idx → EReal)
    (p : Fin 100000) (q : Fin 64) : EReal :=
  if act then
    max (((∑ k : Fin 64, a (ix2 p k) * wr (ix2 k q)) + b q) + ∑ k : Fin 64, h (ix2 p k) * wo (ix2 k q)) 0
  else
    ((∑ k : Fin 64, a (ix2 p k) * wr (ix2 k q)) + b q) + ∑ k : Fin 64, h (ix2 p k) * wo (ix2 k q)

/-- The layer as an array of node features. -/
def layerFn (act : Bool) (a h : SNodes.Idx → EReal) (wr : SW.Idx → EReal) (b : Fin 64 → EReal) (wo : SW.Idx → EReal) :
    SNodes.Idx → EReal :=
  fun i => layerAt act a h wr b wo (i 0) (i 1)

theorem layerFn_ix2 (act : Bool) (a h : SNodes.Idx → EReal) (wr : SW.Idx → EReal) (b : Fin 64 → EReal) (wo : SW.Idx → EReal)
    (p : Fin 100000) (q : Fin 64) : layerFn act a h wr b wo (ix2 p q) = layerAt act a h wr b wo p q := rfl

/-- Graph `g`'s sum of feature `k` over its nodes. -/
def poolSum (h : SNodes.Idx → EReal) (ids : SIds.Idx → BitVec 32) (g : Fin 512) (k : Fin 64) : EReal :=
  ∑ n : Fin 100000, if ids (ix1 n) = BitVec.ofNat 32 g.val then h (ix2 n k) else 0

/-- Graph `g`'s number of nodes. -/
def poolCnt (ids : SIds.Idx → BitVec 32) (g : Fin 512) : EReal :=
  ∑ n : Fin 100000, if ids (ix1 n) = BitVec.ofNat 32 g.val then (1 : EReal) else 0

/-- The result at graph `g`, class `j`. -/
def headAt (h : SNodes.Idx → EReal) (ids : SIds.Idx → BitVec 32) (wl : SHead.Idx → EReal) (bl : Fin 10 → EReal)
    (g : Fin 512) (j : Fin 10) : EReal :=
  (∑ k : Fin 64, Ideal.div (poolSum h ids g k) (max (poolCnt ids g) 1) * wl (ix2 k j)) + bl j

/-- The whole result. -/
def headFn (h : SNodes.Idx → EReal) (ids : SIds.Idx → BitVec 32) (wl : SHead.Idx → EReal) (bl : Fin 10 → EReal) :
    SOut.Idx → EReal :=
  fun i => headAt h ids wl bl (i 0) (i 1)

theorem headFn_ix2 (h : SNodes.Idx → EReal) (ids : SIds.Idx → BitVec 32) (wl : SHead.Idx → EReal) (bl : Fin 10 → EReal)
    (g : Fin 512) (j : Fin 10) : headFn h ids wl bl (ix2 g j) = headAt h ids wl bl g j := rfl

end Cert.Spec

end
-- ==== Proof.KI.KVal0.lean ====
/-
  What the first GraphConv region leaves in its result array, as one function of the arrays it was entered with,
  over the extended reals.

  The region walks twenty row tiles of 5000 nodes. At a tile it forms, for each of the tile's rows r and each of
  the 64 features q,
      max ((Σ_k agg[r,k]·W_rel[k,q] + b[q]) + Σ_k h[r,k]·W_root[k,q], 0)
  from the tile's rows of the aggregated neighbour features and of the node features and from the whole weights and
  bias row, and writes the tile back. A change of float format is the identity on the extended reals and each
  product starts from the zero array, so the tile's entry is exactly that formula (`out0_5_apply`).

  Row r of tile t is row 5000·t + r of the arrays, and every tile sees the whole weights and bias
  (`iblk0_agg` … `iblk0_wroot`); so what tile t writes back is block t of the layer of the whole arrays
  (`out0_5_flushed`). Node p's row lies in tile p / 5000, the twenty tiles cover the array (`out0_5_cover`), and the
  array ends holding the layer at every node (`arr0_eq`).
-/
import proofs.«417198_j24592982737081_2_alg».proof.Proof.KI.Base
import proofs.«417198_j24592982737081_2_alg».proof.Proof.KI.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The tile's product: one entry of `tile · W` as a sum over the 64 features -/

theorem out0_5_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem out0_5_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem out0_5_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem out0_5_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile times a 64×64 weight, started from zero, at row `r` and feature `q`. -/
theorem out0_5_matmul (x : FVec Ideal S5000x64 .bf16) (w : FVec Ideal S64x64 .bf16) (r : Fin 5000) (q : Fin 64) :
    matmul dot_S5000x64_S64x64_S5000x64_1_0_0_1_n_n none x w (constant (F := Ideal) S5000x64 .f32 0x00000000#32) (ix2 r q)
      = ∑ k : Fin 64, x (ix2 r k) * w (ix2 k q) := by
  show FloatOps.matmul dot_S5000x64_S64x64_S5000x64_1_0_0_1_n_n none x w (constant (F := Ideal) S5000x64 .f32 0x00000000#32) (ix2 r q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact out0_5_lhs_0 _ _
    | ⟨1, _⟩ => exact (out0_5_lhs_1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (out0_5_rhs_0 _ _).trans hk
    | ⟨1, _⟩ => exact out0_5_rhs_1 _ _)
  rw [el, er]

/-- The bias row spread over the tile's rows, at row `r` and feature `q`. -/
theorem out0_5_bias (b : FVec Ideal S1x64 .f32) (r : Fin 5000) (q : Fin 64) :
    broadcastTo S5000x64 b broadcasts_S1x64_S5000x64 (ix2 r q) = b (ix2 0 q) := by
  refine broadcastTo_apply b _ (ix2 r q) (ix2 0 q) fun a => ?_
  match a with
  | ⟨0, _⟩ => rfl
  | ⟨1, _⟩ => rfl

/-- THE TILE OF THE RESULT at row `r`, feature `q`: the layer's formula over the tile's rows. -/
theorem out0_5_apply (x0 x1 : Vec Ideal S5000x64 .f32) (x2 : Vec Ideal S64x64 .f32) (x3 : Vec Ideal S1x64 .f32)
    (x4 : Vec Ideal S64x64 .f32) (r : Fin 5000) (q : Fin 64) :
    out0_5 x0 x1 x2 x3 x4 (ix2 r q)
      = max (((∑ k : Fin 64, x0 (ix2 r k) * x2 (ix2 k q)) + x3 (ix2 0 q)) + ∑ k : Fin 64, x1 (ix2 r k) * x4 (ix2 k q)) 0 := by
  unfold out0_5 k0_pay1
  simp only [shapeCast_self]
  rw [maximumf_apply, addf_apply, addf_apply, broadcast_apply, out0_5_matmul, out0_5_matmul, out0_5_bias]
  simp only [truncf_apply]
  rw [show (Scalar.ofBits (F := Ideal) .f32 0x00000000#32 : EReal) = 0 from Ideal.ofBits_zero_f32]

/-! ## The windows' blocks as parts of the arrays -/

variable (V : (c : Dev nD) → (b : Ref sig .tc) → Buf (Elt Ideal) ((c : Thread nD τ).loc b))

/-- The printed index maps over the twenty tiles: the row windows (aggregate, features, result) sit at block row `t`,
    the weights and the bias row at their one block. -/
theorem out0_5_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of tile `t` of the aggregate is row `5000 t + r` of the array. -/
theorem iblk0_agg (c : Dev nD) (t : Fin cfg0.N) (r : Fin 5000) (k : Fin 64) (p : Fin 100000) (hp : p.val = t.val * 5000 + r.val) :
    (iblk0 V c 0 t : Vec Ideal S5000x64 .f32) (ix2 r k) = (V c main_v16 : S100000x64.Idx → EReal) (ix2 p k) := by
  obtain ⟨e0, e1, -⟩ := out0_5_idx t
  unfold iblk0
  rw [View.read_apply]
  show (V c main_v16 : S100000x64.Idx → EReal) _ = _
  refine congrArg (V c main_v16 : S100000x64.Idx → EReal) (funext fun a => Fin.ext ?_)
  match a with
  | ⟨0, _⟩ => show win0_0.index t (0 : Fin 2) * 5000 + 1 * r.val = p.val; rw [e0, hp]; omega
  | ⟨1, _⟩ => show win0_0.index t (1 : Fin 2) * 64 + 1 * k.val = k.val; rw [e1]; omega

/-- Row `r` of tile `t` of the node features is row `5000 t + r` of the array. -/
theorem iblk0_feat (c : Dev nD) (t : Fin cfg0.N) (r : Fin 5000) (k : Fin 64) (p : Fin 100000) (hp : p.val = t.val * 5000 + r.val) :
    (iblk0 V c 1 t : Vec Ideal S5000x64 .f32) (ix2 r k) = (V c main_arg0 : S100000x64.Idx → EReal) (ix2 p k) := by
  obtain ⟨-, -, e0, e1, -⟩ := out0_5_idx t
  unfold iblk0
  rw [View.read_apply]
  show (V c main_arg0 : S100000x64.Idx → EReal) _ = _
  refine congrArg (V c main_arg0 : S100000x64.Idx → EReal) (funext fun a => Fin.ext ?_)
  match a with
  | ⟨0, _⟩ => show win0_1.index t (0 : Fin 2) * 5000 + 1 * r.val = p.val; rw [e0, hp]; omega
  | ⟨1, _⟩ => show win0_1.index t (1 : Fin 2) * 64 + 1 * k.val = k.val; rw [e1]; omega

/-- Every tile sees the whole neighbour weight. -/
theorem iblk0_wrel (c : Dev nD) (t : Fin cfg0.N) (k q : Fin 64) :
    (iblk0 V c 2 t : Vec Ideal S64x64 .f32) (ix2 k q) = (V c main_arg3 : S64x64.Idx → EReal) (ix2 k q) := by
  obtain ⟨-, -, -, -, e0, e1, -⟩ := out0_5_idx t
  unfold iblk0
  rw [View.read_apply]
  show (V c main_arg3 : S64x64.Idx → EReal) _ = _
  refine congrArg (V c main_arg3 : S64x64.Idx → EReal) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Every tile sees the whole bias row. -/
theorem iblk0_bias (c : Dev nD) (t : Fin cfg0.N) (q : Fin 64) :
    (iblk0 V c 3 t : Vec Ideal S1x64 .f32) (ix2 0 q) = (V c main_v17 : S1x64.Idx → EReal) (ix2 0 q) := by
  obtain ⟨-, -, -, -, -, -, e0, e1, -⟩ := out0_5_idx t
  unfold iblk0
  rw [View.read_apply]
  show (V c main_v17 : S1x64.Idx → EReal) _ = _
  refine congrArg (V c main_v17 : S1x64.Idx → EReal) (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 64 + 1 * q.val = q.val; rw [e1]; omega

/-- Every tile sees the whole root weight. -/
theorem iblk0_wroot (c : Dev nD) (t : Fin cfg0.N) (k q : Fin 64) :
    (iblk0 V c 4 t : Vec Ideal S64x64 .f32) (ix2 k q) = (V c main_arg5 : S64x64.Idx → EReal) (ix2 k q) := by
  obtain ⟨-, -, -, -, -, -, -, -, e0, e1, -⟩ := out0_5_idx t
  unfold iblk0
  rw [View.read_apply]
  show (V c main_arg5 : S64x64.Idx → EReal) _ = _
  refine congrArg (V c main_arg5 : S64x64.Idx → EReal) (funext fun a => Fin.ext ?_)
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-! ## One tile of the result is the layer on the tile's rows -/

/-- If the five blocks are what the arrays hold at node `p`'s row and in the weights, the tile's entry at row `r` is the
    layer at node `p`. -/
theorem out0_5_layer (x0 x1 : Vec Ideal S5000x64 .f32) (x2 : Vec Ideal S64x64 .f32) (x3 : Vec Ideal S1x64 .f32)
    (x4 : Vec Ideal S64x64 .f32) (a h : S100000x64.Idx → EReal) (wr : S64x64.Idx → EReal) (b : S1x64.Idx → EReal)
    (wo : S64x64.Idx → EReal) (r : Fin 5000) (q : Fin 64) (p : Fin 100000)
    (h0 : ∀ k : Fin 64, x0 (ix2 r k) = a (ix2 p k)) (h1 : ∀ k : Fin 64, x1 (ix2 r k) = h (ix2 p k))
    (h2 : ∀ k : Fin 64, x2 (ix2 k q) = wr (ix2 k q)) (h3 : x3 (ix2 0 q) = b (ix2 0 q))
    (h4 : ∀ k : Fin 64, x4 (ix2 k q) = wo (ix2 k q)) :
    out0_5 x0 x1 x2 x3 x4 (ix2 r q) = Cert.Spec.layerAt true a h wr (fun q => b (ix2 0 q)) wo p q := by
  rw [out0_5_apply]
  unfold Cert.Spec.layerAt
  rw [if_pos rfl]
  simp only [h0, h1, h2, h3, h4]

/-- The result window is written back at every tile. -/
theorem out0_5_flush : ∀ t : Fin cfg0.N, (cfg0.win 5).flush t = true :=
  (by decide +kernel : ∀ t : Fin grid0.N, win0_5.flush t = true)

/-- WHAT TILE `t` WRITES BACK is block `t` of the layer of the arrays the region was entered with. -/
theorem out0_5_flushed (c : Dev nD) (t : Fin cfg0.N) :
    (dat0 (F := Ideal) V c).flushed 5 t = ((cfg0.win 5).blk t).view.read (Elt Ideal)
      (Cert.Spec.layerFn true (V c main_v16) (V c main_arg0) (V c main_arg3)
        (fun q => (V c main_v17 : S1x64.Idx → EReal) (ix2 0 q)) (V c main_arg5)) := by
  show (cfg0.win 5).cut (grid0.coords t) ((dat0 (F := Ideal) V c).after 5 t) = _
  rw [after0_5]
  obtain ⟨-, -, -, -, -, -, -, -, -, -, e0, e1⟩ := out0_5_idx t
  funext j
  obtain ⟨r, q, rfl⟩ : ∃ (r : Fin 5000) (q : Fin 64), j = ix2 r q := ⟨j 0, j 1, eq_ix2 j⟩
  have hr : r.val < 5000 := r.isLt
  have ht : t.val < 20 := t.isLt
  rw [View.read_apply]
  have hemb : ((cfg0.win 5).blk t).view.emb (ix2 r q) = ix2 (⟨t.val * 5000 + r.val, by omega⟩ : Fin 100000) q :=
    funext fun a => Fin.ext (by
      match a with
      | ⟨0, _⟩ => show win0_5.index t (0 : Fin 2) * 5000 + 1 * r.val = t.val * 5000 + r.val; rw [e0]; omega
      | ⟨1, _⟩ => show win0_5.index t (1 : Fin 2) * 64 + 1 * q.val = q.val; rw [e1]; omega)
  rw [hemb, Cert.Spec.layerFn_ix2]
  exact out0_5_layer _ _ _ _ _ _ _ _ _ _ r q _
    (fun k => iblk0_agg V c t r k _ rfl) (fun k => iblk0_feat V c t r k _ rfl)
    (fun k => iblk0_wrel V c t k q) (iblk0_bias V c t q) (fun k => iblk0_wroot V c t k q)

/-! ## The twenty tiles cover the array -/

/-- An index of the array is in tile `t`'s block iff each coordinate is in the block's range on its axis. -/
theorem out0_5_mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  have e : ((cfg0.win 5).blk t).view.set = (win0_5.rect t).set := View.set_slice_whole win0_5.arr.view.ref (win0_5.rect t)
  rw [e, Rect.mem_set_unit]
  exact Iff.rfl

/-- Node `p`'s row lies in tile `p / 5000`. -/
theorem out0_5_cover (i : S100000x64.Idx) :
    ∃ t : Fin cfg0.N, (cfg0.win 5).flush t = true ∧ i ∈ ((cfg0.win 5).blk t).view.set := by
  have h0 : (i 0).val < 100000 := idx2_lt0 i
  have h1 : (i 1).val < 64 := idx2_lt1 i
  have hlt : (i 0).val / 5000 < cfg0.N := by show _ < 20; omega
  obtain ⟨-, -, -, -, -, -, -, -, -, -, e0, e1⟩ := out0_5_idx ⟨(i 0).val / 5000, hlt⟩
  refine ⟨⟨(i 0).val / 5000, hlt⟩, out0_5_flush _, ?_⟩
  rw [out0_5_mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega

/-! ## The array the region leaves -/

/-- THE RESULT ARRAY after the twenty tiles is the layer (with its clip at zero) of the arrays the region was entered with. -/
theorem arr0_eq (c : Dev nD) :
    ((dat0 (F := Ideal) V c).arrAt 5 cfg0.N : S100000x64.Idx → EReal)
      = Cert.Spec.layerFn true (V c main_v16) (V c main_arg0) (V c main_arg3)
          (fun q => (V c main_v17 : S1x64.Idx → EReal) (ix2 0 q)) (V c main_arg5) :=
  (dat0 (F := Ideal) V c).arrAt_eq_of_cover 5 _ (fun t _ => out0_5_flushed V c t) out0_5_cover

end Cert.KernelIdeal.Hand

end
-- ==== Proof.KI.KVal1.lean ====
/-
  What the second GraphConv region leaves in its result array, as one function of the arrays it was entered with,
  over the extended reals.

  The region walks twenty row tiles of 5000 nodes. At a tile it forms, for each of the tile's rows r and each of
  the 64 features q,
      max ((Σ_k agg[r,k]·W_rel[k,q] + b[q]) + Σ_k h[r,k]·W_root[k,q], 0)
  from the tile's rows of the aggregated neighbour features and of the node features and from the whole weights and
  bias row, and writes the tile back. A change of float format is the identity on the extended reals and each
  product starts from the zero array, so the tile's entry is exactly that formula (`out1_5_apply`).

  Row r of tile t is row 5000·t + r of the arrays, and every tile sees the whole weights and bias
  (`iblk1_agg` … `iblk1_wroot`); so what tile t writes back is block t of the layer of the whole arrays
  (`out1_5_flushed`). Node p's row lies in tile p / 5000, the twenty tiles cover the array (`out1_5_cover`), and the
  array ends holding the layer at every node (`arr1_eq`).
-/
import proofs.«417198_j24592982737081_2_alg».proof.Proof.KI.Base
import proofs.«417198_j24592982737081_2_alg».proof.Proof.KI.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The tile's product: one entry of `tile · W` as a sum over the 64 features -/

theorem out1_5_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem out1_5_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem out1_5_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem out1_5_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile times a 64×64 weight, started from zero, at row `r` and feature `q`. -/
theorem out1_5_matmul (x : FVec Ideal S5000x64 .bf16) (w : FVec Ideal S64x64 .bf16) (r : Fin 5000) (q : Fin 64) :
    matmul dot_S5000x64_S64x64_S5000x64_1_0_0_1_n_n none x w (constant (F := Ideal) S5000x64 .f32 0x00000000#32) (ix2 r q)
      = ∑ k : Fin 64, x (ix2 r k) * w (ix2 k q) := by
  show FloatOps.matmul dot_S5000x64_S64x64_S5000x64_1_0_0_1_n_n none x w (constant (F := Ideal) S5000x64 .f32 0x00000000#32) (ix2 r q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact out1_5_lhs_0 _ _
    | ⟨1, _⟩ => exact (out1_5_lhs_1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (out1_5_rhs_0 _ _).trans hk
    | ⟨1, _⟩ => exact out1_5_rhs_1 _ _)
  rw [el, er]

/-- The bias row spread over the tile's rows, at row `r` and feature `q`. -/
theorem out1_5_bias (b : FVec Ideal S1x64 .f32) (r : Fin 5000) (q : Fin 64) :
    broadcastTo S5000x64 b broadcasts_S1x64_S5000x64 (ix2 r q) = b (ix2 0 q) := by
  refine broadcastTo_apply b _ (ix2 r q) (ix2 0 q) fun a => ?_
  match a with
  | ⟨0, _⟩ => rfl
  | ⟨1, _⟩ => rfl

/-- THE TILE OF THE RESULT at row `r`, feature `q`: the layer's formula over the tile's rows. -/
theorem out1_5_apply (x0 x1 : Vec Ideal S5000x64 .f32) (x2 : Vec Ideal S64x64 .f32) (x3 : Vec Ideal S1x64 .f32)
    (x4 : Vec Ideal S64x64 .f32) (r : Fin 5000) (q : Fin 64) :
    out1_5 x0 x1 x2 x3 x4 (ix2 r q)
      = max (((∑ k : Fin 64, x0 (ix2 r k) * x2 (ix2 k q)) + x3 (ix2 0 q)) + ∑ k : Fin 64, x1 (ix2 r k) * x4 (ix2 k q)) 0 := by
  unfold out1_5 k1_pay1
  simp only [shapeCast_self]
  rw [maximumf_apply, addf_apply, addf_apply, broadcast_apply, out1_5_matmul, out1_5_matmul, out1_5_bias]
  simp only [truncf_apply]
  rw [show (Scalar.ofBits (F := Ideal) .f32 0x00000000#32 : EReal) = 0 from Ideal.ofBits_zero_f32]

/-! ## The windows' blocks as parts of the arrays -/

variable (V : (c : Dev nD) → (b : Ref sig .tc) → Buf (Elt Ideal) ((c : Thread nD τ).loc b))

/-- The printed index maps over the twenty tiles: the row windows (aggregate, features, result) sit at block row `t`,
    the weights and the bias row at their one block. -/
theorem out1_5_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of tile `t` of the aggregate is row `5000 t + r` of the array. -/
theorem iblk1_agg (c : Dev nD) (t : Fin cfg1.N) (r : Fin 5000) (k : Fin 64) (p : Fin 100000) (hp : p.val = t.val * 5000 + r.val) :
    (iblk1 V c 0 t : Vec Ideal S5000x64 .f32) (ix2 r k) = (V c main_v30 : S100000x64.Idx → EReal) (ix2 p k) := by
  obtain ⟨e0, e1, -⟩ := out1_5_idx t
  unfold iblk1
  rw [View.read_apply]
  show (V c main_v30 : S100000x64.Idx → EReal) _ = _
  refine congrArg (V c main_v30 : S100000x64.Idx → EReal) (funext fun a => Fin.ext ?_)
  match a with
  | ⟨0, _⟩ => show win1_0.index t (0 : Fin 2) * 5000 + 1 * r.val = p.val; rw [e0, hp]; omega
  | ⟨1, _⟩ => show win1_0.index t (1 : Fin 2) * 64 + 1 * k.val = k.val; rw [e1]; omega

/-- Row `r` of tile `t` of the node features is row `5000 t + r` of the array. -/
theorem iblk1_feat (c : Dev nD) (t : Fin cfg1.N) (r : Fin 5000) (k : Fin 64) (p : Fin 100000) (hp : p.val = t.val * 5000 + r.val) :
    (iblk1 V c 1 t : Vec Ideal S5000x64 .f32) (ix2 r k) = (V c main_v18 : S100000x64.Idx → EReal) (ix2 p k) := by
  obtain ⟨-, -, e0, e1, -⟩ := out1_5_idx t
  unfold iblk1
  rw [View.read_apply]
  show (V c main_v18 : S100000x64.Idx → EReal) _ = _
  refine congrArg (V c main_v18 : S100000x64.Idx → EReal) (funext fun a => Fin.ext ?_)
  match a with
  | ⟨0, _⟩ => show win1_1.index t (0 : Fin 2) * 5000 + 1 * r.val = p.val; rw [e0, hp]; omega
  | ⟨1, _⟩ => show win1_1.index t (1 : Fin 2) * 64 + 1 * k.val = k.val; rw [e1]; omega

/-- Every tile sees the whole neighbour weight. -/
theorem iblk1_wrel (c : Dev nD) (t : Fin cfg1.N) (k q : Fin 64) :
    (iblk1 V c 2 t : Vec Ideal S64x64 .f32) (ix2 k q) = (V c main_arg6 : S64x64.Idx → EReal) (ix2 k q) := by
  obtain ⟨-, -, -, -, e0, e1, -⟩ := out1_5_idx t
  unfold iblk1
  rw [View.read_apply]
  show (V c main_arg6 : S64x64.Idx → EReal) _ = _
  refine congrArg (V c main_arg6 : S64x64.Idx → EReal) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Every tile sees the whole bias row. -/
theorem iblk1_bias (c : Dev nD) (t : Fin cfg1.N) (q : Fin 64) :
    (iblk1 V c 3 t : Vec Ideal S1x64 .f32) (ix2 0 q) = (V c main_v31 : S1x64.Idx → EReal) (ix2 0 q) := by
  obtain ⟨-, -, -, -, -, -, e0, e1, -⟩ := out1_5_idx t
  unfold iblk1
  rw [View.read_apply]
  show (V c main_v31 : S1x64.Idx → EReal) _ = _
  refine congrArg (V c main_v31 : S1x64.Idx → EReal) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 64 + 1 * q.val = q.val; rw [e1]; omega

/-- Every tile sees the whole root weight. -/
theorem iblk1_wroot (c : Dev nD) (t : Fin cfg1.N) (k q : Fin 64) :
    (iblk1 V c 4 t : Vec Ideal S64x64 .f32) (ix2 k q) = (V c main_arg8 : S64x64.Idx → EReal) (ix2 k q) := by
  obtain ⟨-, -, -, -, -, -, -, -, e0, e1, -⟩ := out1_5_idx t
  unfold iblk1
  rw [View.read_apply]
  show (V c main_arg8 : S64x64.Idx → EReal) _ = _
  refine congrArg (V c main_arg8 : S64x64.Idx → EReal) (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-! ## One tile of the result is the layer on the tile's rows -/

/-- If the five blocks are what the arrays hold at node `p`'s row and in the weights, the tile's entry at row `r` is the
    layer at node `p`. -/
theorem out1_5_layer (x0 x1 : Vec Ideal S5000x64 .f32) (x2 : Vec Ideal S64x64 .f32) (x3 : Vec Ideal S1x64 .f32)
    (x4 : Vec Ideal S64x64 .f32) (a h : S100000x64.Idx → EReal) (wr : S64x64.Idx → EReal) (b : S1x64.Idx → EReal)
    (wo : S64x64.Idx → EReal) (r : Fin 5000) (q : Fin 64) (p : Fin 100000)
    (h0 : ∀ k : Fin 64, x0 (ix2 r k) = a (ix2 p k)) (h1 : ∀ k : Fin 64, x1 (ix2 r k) = h (ix2 p k))
    (h2 : ∀ k : Fin 64, x2 (ix2 k q) = wr (ix2 k q)) (h3 : x3 (ix2 0 q) = b (ix2 0 q))
    (h4 : ∀ k : Fin 64, x4 (ix2 k q) = wo (ix2 k q)) :
    out1_5 x0 x1 x2 x3 x4 (ix2 r q) = Cert.Spec.layerAt true a h wr (fun q => b (ix2 0 q)) wo p q := by
  rw [out1_5_apply]
  unfold Cert.Spec.layerAt
  rw [if_pos rfl]
  simp only [h0, h1, h2, h3, h4]

/-- The result window is written back at every tile. -/
theorem out1_5_flush : ∀ t : Fin cfg1.N, (cfg1.win 5).flush t = true :=
  (by decide +kernel : ∀ t : Fin grid1.N, win1_5.flush t = true)

/-- WHAT TILE `t` WRITES BACK is block `t` of the layer of the arrays the region was entered with. -/
theorem out1_5_flushed (c : Dev nD) (t : Fin cfg1.N) :
    (dat1 (F := Ideal) V c).flushed 5 t = ((cfg1.win 5).blk t).view.read (Elt Ideal)
      (Cert.Spec.layerFn true (V c main_v30) (V c main_v18) (V c main_arg6)
        (fun q => (V c main_v31 : S1x64.Idx → EReal) (ix2 0 q)) (V c main_arg8)) := by
  show (cfg1.win 5).cut (grid1.coords t) ((dat1 (F := Ideal) V c).after 5 t) = _
  rw [after1_5]
  obtain ⟨-, -, -, -, -, -, -, -, -, -, e0, e1⟩ := out1_5_idx t
  funext j
  obtain ⟨r, q, rfl⟩ : ∃ (r : Fin 5000) (q : Fin 64), j = ix2 r q := ⟨j 0, j 1, eq_ix2 j⟩
  have hr : r.val < 5000 := r.isLt
  have ht : t.val < 20 := t.isLt
  rw [View.read_apply]
  have hemb : ((cfg1.win 5).blk t).view.emb (ix2 r q) = ix2 (⟨t.val * 5000 + r.val, by omega⟩ : Fin 100000) q :=
    funext fun a => Fin.ext (by
      match a with
      | ⟨0, _⟩ => show win1_5.index t (0 : Fin 2) * 5000 + 1 * r.val = t.val * 5000 + r.val; rw [e0]; omega
      | ⟨1, _⟩ => show win1_5.index t (1 : Fin 2) * 64 + 1 * q.val = q.val; rw [e1]; omega)
  rw [hemb, Cert.Spec.layerFn_ix2]
  exact out1_5_layer _ _ _ _ _ _ _ _ _ _ r q _
    (fun k => iblk1_agg V c t r k _ rfl) (fun k => iblk1_feat V c t r k _ rfl)
    (fun k => iblk1_wrel V c t k q) (iblk1_bias V c t q) (fun k => iblk1_wroot V c t k q)

/-! ## The twenty tiles cover the array -/

/-- An index of the array is in tile `t`'s block iff each coordinate is in the block's range on its axis. -/
theorem out1_5_mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  have e : ((cfg1.win 5).blk t).view.set = (win1_5.rect t).set := View.set_slice_whole win1_5.arr.view.ref (win1_5.rect t)
  rw [e, Rect.mem_set_unit]
  exact Iff.rfl

/-- Node `p`'s row lies in tile `p / 5000`. -/
theorem out1_5_cover (i : S100000x64.Idx) :
    ∃ t : Fin cfg1.N, (cfg1.win 5).flush t = true ∧ i ∈ ((cfg1.win 5).blk t).view.set := by
  have h0 : (i 0).val < 100000 := idx2_lt0 i
  have h1 : (i 1).val < 64 := idx2_lt1 i
  have hlt : (i 0).val / 5000 < cfg1.N := by show _ < 20; omega
  obtain ⟨-, -, -, -, -, -, -, -, -, -, e0, e1⟩ := out1_5_idx ⟨(i 0).val / 5000, hlt⟩
  refine ⟨⟨(i 0).val / 5000, hlt⟩, out1_5_flush _, ?_⟩
  rw [out1_5_mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]; omega

/-! ## The array the region leaves -/

/-- THE RESULT ARRAY after the twenty tiles is the layer (with its clip at zero) of the arrays the region was entered with. -/
theorem arr1_eq (c : Dev nD) :
    ((dat1 (F := Ideal) V c).arrAt 5 cfg1.N : S100000x64.Idx → EReal)
      = Cert.Spec.layerFn true (V c main_v30) (V c main_v18) (V c main_arg6)
          (fun q => (V c main_v31 : S1x64.Idx → EReal) (ix2 0 q)) (V c main_arg8) :=
  (dat1 (F := Ideal) V c).arrAt_eq_of_cover 5 _ (fun t _ => out1_5_flushed V c t) out1_5_cover

end Cert.KernelIdeal.Hand

end
-- ==== Proof.KI.PoolLaw.lean ====
/-
  Sums over the first tiles of rows.

  The rows 0, …, 99999 are cut into fifty tiles of 2000 consecutive rows: tile `n` holds the rows
  `n · 2000 + r` for `r < 2000`. For a family `f` over the rows with values in an additive commutative monoid,
  the sum of `f` over the rows below `n · 2000` (the first `n` tiles) is zero at `n = 0`, grows by the sum of `f`
  over tile `n` when `n` goes up by one, and is the sum over all rows at `n = 50`. Only the commutativity and
  associativity of `+` and the neutrality of `0` are used.
-/
import Mathlib.Algebra.BigOperators.Fin

namespace Cert.Spec

open scoped BigOperators

/-- Row `r` of tile `n`: the row `n · 2000 + r`. Distinct offsets give distinct rows. -/
def tileRow (n : ℕ) (hn : n < 50) : Fin 2000 ↪ Fin 100000 where
  toFun r := ⟨n * 2000 + r.val, by omega⟩
  inj' r s h := by
    have h' : n * 2000 + r.val = n * 2000 + s.val := congrArg Fin.val h
    exact Fin.ext (by omega)

theorem tileRow_val (n : ℕ) (hn : n < 50) (r : Fin 2000) : (tileRow n hn r).val = n * 2000 + r.val := rfl

/-- The rows of tile `n` are exactly the rows from `n · 2000` up to, not including, `(n + 1) · 2000`. -/
theorem mem_tile_iff (n : ℕ) (hn : n < 50) (p : Fin 100000) :
    p ∈ Finset.univ.map (tileRow n hn) ↔ n * 2000 ≤ p.val ∧ p.val < (n + 1) * 2000 := by
  constructor
  · intro hp
    obtain ⟨r, -, hr⟩ := Finset.mem_map.mp hp
    have hv : n * 2000 + r.val = p.val := by rw [← tileRow_val n hn r, hr]
    have hr' := r.isLt
    omega
  · rintro ⟨h1, h2⟩
    refine Finset.mem_map.mpr ⟨⟨p.val - n * 2000, by omega⟩, Finset.mem_univ _, Fin.ext ?_⟩
    rw [tileRow_val]
    show n * 2000 + (p.val - n * 2000) = p.val
    omega

/-- The sum over the rows of tile `n`, written over all rows with the others set to zero, is the sum over the
    tile's 2000 offsets. -/
theorem tile_sum_one {M : Type*} [AddCommMonoid M] (f : Fin 100000 → M) (n : ℕ) (hn : n < 50) :
    (∑ p : Fin 100000, if n * 2000 ≤ p.val ∧ p.val < (n + 1) * 2000 then f p else 0)
      = ∑ r : Fin 2000, f ⟨n * 2000 + r.val, by omega⟩ := by
  rw [← Finset.sum_filter]
  have hset : Finset.univ.filter (fun p : Fin 100000 => n * 2000 ≤ p.val ∧ p.val < (n + 1) * 2000)
      = Finset.univ.map (tileRow n hn) := by
    ext p
    rw [Finset.mem_filter, mem_tile_iff]
    exact ⟨fun h => h.2, fun h => ⟨Finset.mem_univ _, h⟩⟩
  rw [hset, Finset.sum_map]
  rfl

/-- No row lies below row 0: the sum over no tiles is zero. -/
theorem tile_sum_zero {M : Type*} [AddCommMonoid M] (f : Fin 100000 → M) :
    (∑ p : Fin 100000, if p.val < 0 * 2000 then f p else 0) = 0 := by
  apply Finset.sum_eq_zero
  intro p _
  exact if_neg (by omega)

/-- A row is below `(n + 1) · 2000` when it is below `n · 2000` or in tile `n`, and never both; so the sum over
    the first `n + 1` tiles is the sum over the first `n` plus the sum over tile `n`. -/
theorem tile_sum_succ {M : Type*} [AddCommMonoid M] (f : Fin 100000 → M) (n : ℕ) (hn : n < 50) :
    (∑ p : Fin 100000, if p.val < (n + 1) * 2000 then f p else 0)
      = (∑ p : Fin 100000, if p.val < n * 2000 then f p else 0) + ∑ r : Fin 2000, f ⟨n * 2000 + r.val, by omega⟩ := by
  have hsplit : ∀ p : Fin 100000, (if p.val < (n + 1) * 2000 then f p else 0)
      = (if p.val < n * 2000 then f p else 0)
        + (if n * 2000 ≤ p.val ∧ p.val < (n + 1) * 2000 then f p else 0) := by
    intro p
    by_cases h1 : p.val < n * 2000
    · rw [if_pos h1, if_pos (by omega), if_neg (by omega), add_zero]
    · by_cases h2 : p.val < (n + 1) * 2000
      · rw [if_neg h1, if_pos h2, if_pos ⟨by omega, h2⟩, zero_add]
      · rw [if_neg h1, if_neg h2, if_neg (fun h => h2 h.2), add_zero]
  rw [Finset.sum_congr rfl (fun p _ => hsplit p), Finset.sum_add_distrib, tile_sum_one f n hn]

/-- Every row is below `50 · 2000 = 100000`: the sum over all fifty tiles is the sum over all rows. -/
theorem tile_sum_full {M : Type*} [AddCommMonoid M] (f : Fin 100000 → M) :
    (∑ p : Fin 100000, if p.val < 50 * 2000 then f p else 0) = ∑ p, f p := by
  apply Finset.sum_congr rfl
  intro p _
  have hp := p.isLt
  exact if_pos (by omega)

end Cert.Spec
-- ==== Proof.KI.KVal2.lean ====
/-
  What region 2 leaves in its output array, at the extended reals.

  The region walks fifty row tiles of 2000 nodes. At a tile it forms the tile's layer-3 rows
  `(Σ_k agg[r,k]·W_rel[k,q] + b[q]) + Σ_k h[r,k]·W_root[k,q]`, the tile's membership matrix (row `r`, column `g` is 1
  when node `r`'s graph id is `g`, else 0), and adds the membership matrix transposed times the rows to a running
  512×64 sum, and the membership matrix's column sums to a running 512×1 count. Since `1 · x = x` and `0 · x = 0`
  for every extended real, a tile adds to the sum at `(g, q)` exactly the features `q` of its nodes of graph `g`,
  and to the count at `g` the number of such nodes; so after `n` tiles the sum and the count are the pooled sum
  and count over the first `n · 2000` nodes (induction on `n`, using only that `+` is commutative and associative),
  and after all fifty they are the pooled sum and count over every node. The output block is the whole 512×10
  array and is written back once, after the last tile, at `(sum / max(count, 1)) · W_lin + b_lin`.

  In order: the four matrix products read at an index; the payloads read at an index; a window's block at a tile
  read as the array at the tile's rows; the induction; the one write-back; the region's value.
-/
import proofs.«417198_j24592982737081_2_alg».proof.Proof.KI.Base
import proofs.«417198_j24592982737081_2_alg».proof.Proof.KI.Spec
import proofs.«417198_j24592982737081_2_alg».proof.Proof.KI.PoolLaw
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! The product S2000x64 · S64x64: rows of the left against columns of the right. -/
theorem lhs_mmRows_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_mmRows_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_mmRows_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_mmRows_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl
theorem mmRows_apply {φ₁ φ₂ : FTy} (a : FVec Ideal S2000x64 φ₁) (b : FVec Ideal S64x64 φ₂) (r : Fin 2000) (q : Fin 64) :
    matmul dot_S2000x64_S64x64_S2000x64_1_0_0_1_n_n none a b (constant S2000x64 .f32 0x00000000#32) (ix2 r q)
      = ∑ k : Fin 64, a (ix2 r k) * b (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r q) ((contrEquiv1 dot_S2000x64_S64x64_S2000x64_1_0_0_1_n_n 64 rfl rfl).symm k) = ix2 r k := funext fun x => Fin.ext (by
    match x with
    | ⟨0, _⟩ => exact lhs_mmRows_0 _ _
    | ⟨1, _⟩ => exact (lhs_mmRows_1 _ _).trans hk)
  have er : dot_S2000x64_S64x64_S2000x64_1_0_0_1_n_n.rhsIdx (ix2 r q) ((contrEquiv1 dot_S2000x64_S64x64_S2000x64_1_0_0_1_n_n 64 rfl rfl).symm k) = ix2 k q := funext fun x => Fin.ext (by
    match x with
    | ⟨0, _⟩ => exact (rhs_mmRows_0 _ _).trans hk
    | ⟨1, _⟩ => exact rhs_mmRows_1 _ _)
  rw [el, er]

/-! The product S512x64 · S64x10: rows of the left against columns of the right. -/
theorem lhs_mmHead_0 (i : S512x10.Idx) (q : dot_S512x64_S64x10_S512x10_1_0_0_1_n_n.contr.Idx) :
    (dot_S512x64_S64x10_S512x10_1_0_0_1_n_n.lhsIdx i q 0).val = (i 0).val := by
  unfold DotDims.lhsIdx
  rw [dif_neg (show ¬(0 : Fin S512x64.rank) ∈ dot_S512x64_S64x10_S512x10_1_0_0_1_n_n.lhsBatch by decide), dif_pos (show (0 : Fin S512x64.rank) ∈ dot_S512x64_S64x10_S512x10_1_0_0_1_n_n.lhsNonContracting by decide)]
  rfl
theorem lhs_mmHead_1 (i : S512x10.Idx) (q : dot_S512x64_S64x10_S512x10_1_0_0_1_n_n.contr.Idx) :
    (dot_S512x64_S64x10_S512x10_1_0_0_1_n_n.lhsIdx i q 1).val = (q ⟨0, by decide⟩).val :=
  dot_S512x64_S64x10_S512x10_1_0_0_1_n_n.lhsIdx_val_of_single rfl i q
theorem rhs_mmHead_0 (i : S512x10.Idx) (q : dot_S512x64_S64x10_S512x10_1_0_0_1_n_n.contr.Idx) :
    (dot_S512x64_S64x10_S512x10_1_0_0_1_n_n.rhsIdx i q 0).val = (q ⟨0, by decide⟩).val :=
  dot_S512x64_S64x10_S512x10_1_0_0_1_n_n.rhsIdx_val_of_single rfl i q
theorem rhs_mmHead_1 (i : S512x10.Idx) (q : dot_S512x64_S64x10_S512x10_1_0_0_1_n_n.contr.Idx) :
    (dot_S512x64_S64x10_S512x10_1_0_0_1_n_n.rhsIdx i q 1).val = (i 1).val := by
  unfold DotDims.rhsIdx
  rw [dif_neg (show ¬(1 : Fin S64x10.rank) ∈ dot_S512x64_S64x10_S512x10_1_0_0_1_n_n.rhsBatch by decide), dif_pos (show (1 : Fin S64x10.rank) ∈ dot_S512x64_S64x10_S512x10_1_0_0_1_n_n.rhsNonContracting by decide)]
  rfl
theorem mmHead_apply {φ₁ φ₂ : FTy} (a : FVec Ideal S512x64 φ₁) (b : FVec Ideal S64x10 φ₂) (r : Fin 512) (q : Fin 10) :
    matmul dot_S512x64_S64x10_S512x10_1_0_0_1_n_n none a b (constant S512x10 .f32 0x00000000#32) (ix2 r q)
      = ∑ k : Fin 64, a (ix2 r k) * b (ix2 k q) := by
  simp only [matmul]
  rw [Ideal.matmul_constant_zero_apply, ← Equiv.sum_comp (contrEquiv1 dot_S512x64_S64x10_S512x10_1_0_0_1_n_n 64 rfl rfl).symm]
  refine Finset.sum_congr rfl fun k _ => ?_
  have hk := contrEquiv1_symm_val dot_S512x64_S64x10_S512x10_1_0_0_1_n_n 64 rfl rfl k
  have el : dot_S512x64_S64x10_S512x10_1_0_0_1_n_n.lhsIdx (ix2 r q) ((contrEquiv1 dot_S512x64_S64x10_S512x10_1_0_0_1_n_n 64 rfl rfl).symm k) = ix2 r k := funext fun x => Fin.ext (by
    match x with
    | ⟨0, _⟩ => exact lhs_mmHead_0 _ _
    | ⟨1, _⟩ => exact (lhs_mmHead_1 _ _).trans hk)
  have er : dot_S512x64_S64x10_S512x10_1_0_0_1_n_n.rhsIdx (ix2 r q) ((contrEquiv1 dot_S512x64_S64x10_S512x10_1_0_0_1_n_n 64 rfl rfl).symm k) = ix2 k q := funext fun x => Fin.ext (by
    match x with
    | ⟨0, _⟩ => exact (rhs_mmHead_0 _ _).trans hk
    | ⟨1, _⟩ => exact rhs_mmHead_1 _ _)
  rw [el, er]

/-! The product S2000x512ᵀ · S2000x64: both operands contracted along their rows. -/
theorem lhs_mmPool_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem lhs_mmPool_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide), dif_pos (show (1 : Fin S2000x512.rank) ∈ dot_S2000x512_S2000x64_S512x64_0_0_1_1_n_n.lhsNonContracting by decide)]
  rfl
theorem rhs_mmPool_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem rhs_mmPool_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide), dif_pos (show (1 : Fin S2000x64.rank) ∈ dot_S2000x512_S2000x64_S512x64_0_0_1_1_n_n.rhsNonContracting by decide)]
  rfl
theorem mmPool_apply {φ₁ φ₂ : FTy} (a : FVec Ideal S2000x512 φ₁) (b : FVec Ideal S2000x64 φ₂) (g : Fin 512) (q : Fin 64) :
    matmul dot_S2000x512_S2000x64_S512x64_0_0_1_1_n_n none a b (constant S512x64 .f32 0x00000000#32) (ix2 g q)
      = ∑ r : Fin 2000, a (ix2 r g) * b (ix2 r q) := by
  simp only [matmul]
  rw [Ideal.matmul_constant_zero_apply, ← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g q) ((contrEquiv1 dot_S2000x512_S2000x64_S512x64_0_0_1_1_n_n 2000 rfl rfl).symm k) = ix2 k g := funext fun x => Fin.ext (by
    match x with
    | ⟨0, _⟩ => exact (lhs_mmPool_0 _ _).trans hk
    | ⟨1, _⟩ => exact lhs_mmPool_1 _ _)
  have er : dot_S2000x512_S2000x64_S512x64_0_0_1_1_n_n.rhsIdx (ix2 g q) ((contrEquiv1 dot_S2000x512_S2000x64_S512x64_0_0_1_1_n_n 2000 rfl rfl).symm k) = ix2 k q := funext fun x => Fin.ext (by
    match x with
    | ⟨0, _⟩ => exact (rhs_mmPool_0 _ _).trans hk
    | ⟨1, _⟩ => exact rhs_mmPool_1 _ _)
  rw [el, er]

/-! The product S2000x512ᵀ · S2000x1: both operands contracted along their rows. -/
theorem lhs_mmCount_0 (i : S512x1.Idx) (q : dot_S2000x512_S2000x1_S512x1_0_0_1_1_n_n.contr.Idx) :
    (dot_S2000x512_S2000x1_S512x1_0_0_1_1_n_n.lhsIdx i q 0).val = (q ⟨0, by decide⟩).val :=
  dot_S2000x512_S2000x1_S512x1_0_0_1_1_n_n.lhsIdx_val_of_single rfl i q
theorem lhs_mmCount_1 (i : S512x1.Idx) (q : dot_S2000x512_S2000x1_S512x1_0_0_1_1_n_n.contr.Idx) :
    (dot_S2000x512_S2000x1_S512x1_0_0_1_1_n_n.lhsIdx i q 1).val = (i 0).val := by
  unfold DotDims.lhsIdx
  rw [dif_neg (show ¬(1 : Fin S2000x512.rank) ∈ dot_S2000x512_S2000x1_S512x1_0_0_1_1_n_n.lhsBatch by decide), dif_pos (show (1 : Fin S2000x512.rank) ∈ dot_S2000x512_S2000x1_S512x1_0_0_1_1_n_n.lhsNonContracting by decide)]
  rfl
theorem rhs_mmCount_0 (i : S512x1.Idx) (q : dot_S2000x512_S2000x1_S512x1_0_0_1_1_n_n.contr.Idx) :
    (dot_S2000x512_S2000x1_S512x1_0_0_1_1_n_n.rhsIdx i q 0).val = (q ⟨0, by decide⟩).val :=
  dot_S2000x512_S2000x1_S512x1_0_0_1_1_n_n.rhsIdx_val_of_single rfl i q
theorem rhs_mmCount_1 (i : S512x1.Idx) (q : dot_S2000x512_S2000x1_S512x1_0_0_1_1_n_n.contr.Idx) :
    (dot_S2000x512_S2000x1_S512x1_0_0_1_1_n_n.rhsIdx i q 1).val = (i 1).val := by
  unfold DotDims.rhsIdx
  rw [dif_neg (show ¬(1 : Fin S2000x1.rank) ∈ dot_S2000x512_S2000x1_S512x1_0_0_1_1_n_n.rhsBatch by decide), dif_pos (show (1 : Fin S2000x1.rank) ∈ dot_S2000x512_S2000x1_S512x1_0_0_1_1_n_n.rhsNonContracting by decide)]
  rfl
theorem mmCount_apply {φ₁ φ₂ : FTy} (a : FVec Ideal S2000x512 φ₁) (b : FVec Ideal S2000x1 φ₂) (g : Fin 512) (q : Fin 1) :
    matmul dot_S2000x512_S2000x1_S512x1_0_0_1_1_n_n none a b (constant S512x1 .f32 0x00000000#32) (ix2 g q)
      = ∑ r : Fin 2000, a (ix2 r g) * b (ix2 r q) := by
  simp only [matmul]
  rw [Ideal.matmul_constant_zero_apply, ← Equiv.sum_comp (contrEquiv1 dot_S2000x512_S2000x1_S512x1_0_0_1_1_n_n 2000 rfl rfl).symm]
  refine Finset.sum_congr rfl fun k _ => ?_
  have hk := contrEquiv1_symm_val dot_S2000x512_S2000x1_S512x1_0_0_1_1_n_n 2000 rfl rfl k
  have el : dot_S2000x512_S2000x1_S512x1_0_0_1_1_n_n.lhsIdx (ix2 g q) ((contrEquiv1 dot_S2000x512_S2000x1_S512x1_0_0_1_1_n_n 2000 rfl rfl).symm k) = ix2 k g := funext fun x => Fin.ext (by
    match x with
    | ⟨0, _⟩ => exact (lhs_mmCount_0 _ _).trans hk
    | ⟨1, _⟩ => exact lhs_mmCount_1 _ _)
  have er : dot_S2000x512_S2000x1_S512x1_0_0_1_1_n_n.rhsIdx (ix2 g q) ((contrEquiv1 dot_S2000x512_S2000x1_S512x1_0_0_1_1_n_n 2000 rfl rfl).symm k) = ix2 k q := funext fun x => Fin.ext (by
    match x with
    | ⟨0, _⟩ => exact (rhs_mmCount_0 _ _).trans hk
    | ⟨1, _⟩ => exact rhs_mmCount_1 _ _)
  rw [el, er]

/-! ## A column broadcast over many columns -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The literals -/

theorem one_f32 : Ideal.ofBits .f32 0x3F800000#32 = 1 := by simp [Ideal.ofBits, Ideal.ieee, -EReal.coe_mul]; norm_num
theorem one_bf16 : Ideal.ofBits .bf16 0x3F80#16 = 1 := by simp [Ideal.ofBits, Ideal.ieee, -EReal.coe_mul]; norm_num

/-! ## The membership matrix -/

/-- Row `r`, column `g` of the tile's membership matrix is 1 when node `r`'s graph id is `g`, else 0. -/
theorem onehot_apply (v21 : Vec Ideal S2000x1 .i32) (r : Fin 2000) (g : Fin 512) :
    k2_pay6 (F := Ideal) v21 (ix2 r g) = if v21 (ix2 r 0) = BitVec.ofNat 32 g.val then (1 : EReal) else 0 := by
  unfold k2_pay6
  simp only [shapeCast_self]
  rw [truncf_apply, sitofp_apply, extui_apply]
  show FloatOps.sitofp .f32 ((IntOp.cmpi .eq (broadcastTo S2000x512 v21 broadcasts_S2000x1_S2000x512 (ix2 r g))
      (broadcastTo S2000x512 (iota .tc S1x512 32 [1] iota_S1x512_d1_w32) broadcasts_S1x512_S2000x512 (ix2 r g))).setWidth 32) = _
  rw [broadcastTo_a1_ab_apply, broadcastTo_1b_ab_apply, iota_single_apply]
  show ((((IntOp.cmpi .eq (v21 (ix2 r 0)) (BitVec.ofNat 32 g.val)).setWidth 32).toInt : ℝ) : EReal) = _
  by_cases h : v21 (ix2 r 0) = BitVec.ofNat 32 g.val
  · rw [if_pos h, h]
    have e : IntOp.cmpi .eq (BitVec.ofNat 32 g.val) (BitVec.ofNat 32 g.val) = 1#1 := by simp [IntOp.cmpi]
    rw [e]
    have e2 : ((1#1 : BitVec 1).setWidth 32).toInt = 1 := by decide
    rw [e2]; norm_num
  · rw [if_neg h]
    have e : IntOp.cmpi .eq (v21 (ix2 r 0)) (BitVec.ofNat 32 g.val) = 0#1 := by
      have hb : (v21 (ix2 r 0) == BitVec.ofNat 32 g.val) = false := beq_eq_false_iff_ne.mpr h
      simp only [IntOp.cmpi, hb]; rfl
    rw [e]
    have e2 : ((0#1 : BitVec 1).setWidth 32).toInt = 0 := by decide
    rw [e2]; norm_num

/-! ## The tile's layer-3 rows, and the two pooled products -/

/-- Row `r`, feature `q` of the tile's layer-3 rows: the aggregated row against `W_rel`, plus the bias, plus
    the row itself against `W_root`. -/
def h3 (x0 x1 : Vec Ideal S2000x64 .f32) (x2 x4 : Vec Ideal S64x64 .f32) (x3 : Vec Ideal S1x64 .f32) (r : Fin 2000) (q : Fin 64) : EReal :=
  ((∑ k : Fin 64, x0 (ix2 r k) * x2 (ix2 k q)) + x3 (ix2 0 q)) + ∑ k : Fin 64, x1 (ix2 r k) * x4 (ix2 k q)

/-- The running sum after a tile: the sum before it plus, over the tile's rows of graph `g`, the layer-3 rows. -/
theorem pay8_apply (x0 x1 : Vec Ideal S2000x64 .f32) (x2 x4 : Vec Ideal S64x64 .f32) (x3 : Vec Ideal S1x64 .f32)
    (v21 : Vec Ideal S2000x1 .i32) (v33 : Vec Ideal S512x64 .f32) (g : Fin 512) (q : Fin 64) :
    k2_pay8 (F := Ideal) x0 x1 x2 x4 x3 v21 v33 (ix2 g q)
      = v33 (ix2 g q) + ∑ r : Fin 2000, (if v21 (ix2 r 0) = BitVec.ofNat 32 g.val then (1 : EReal) else 0) * h3 x0 x1 x2 x4 x3 r q := by
  unfold k2_pay8
  simp only [shapeCast_self]
  rw [addf_apply, mmPool_apply]
  refine congrArg (v33 (ix2 g q) + ·) (Finset.sum_congr rfl fun r _ => ?_)
  rw [onehot_apply, truncf_apply, addf_apply, addf_apply, mmRows_apply, mmRows_apply, broadcastTo_1b_ab_apply]
  rfl

/-- The tile's node count of graph `g`. -/
theorem pay7_apply (v21 : Vec Ideal S2000x1 .i32) (g : Fin 512) :
    k2_pay7 (F := Ideal) v21 (ix2 g 0) = ∑ r : Fin 2000, (if v21 (ix2 r 0) = BitVec.ofNat 32 g.val then (1 : EReal) else 0) := by
  unfold k2_pay7
  rw [mmCount_apply]
  refine Finset.sum_congr rfl fun r _ => ?_
  rw [onehot_apply, broadcast_apply]
  show _ * Ideal.ofBits .bf16 0x3F80#16 = _
  rw [one_bf16, mul_one]

theorem pay4_apply (g : Fin 512) (q : Fin 64) : k2_pay4 (F := Ideal) (ix2 g q) = 0 := by
  unfold k2_pay4
  simp only [shapeCast_self]
  rw [broadcast_apply]
  exact Ideal.ofBits_zero_f32

theorem pay5_apply (g : Fin 512) : k2_pay5 (F := Ideal) (ix2 g 0) = 0 := by
  unfold k2_pay5
  simp only [shapeCast_self]
  rw [broadcast_apply]
  exact Ideal.ofBits_zero_f32

theorem pay1_eq (v : Vec Ideal S512x64 .f32) : k2_pay1 (F := Ideal) v = v := by
  unfold k2_pay1; exact shapeCast_self _ _

theorem pay2_apply (v32 v38 : Vec Ideal S512x1 .f32) (i : S512x1.Idx) : k2_pay2 (F := Ideal) v32 v38 i = v38 i + v32 i := by
  unfold k2_pay2
  simp only [shapeCast_self]
  rfl

/-- The head: the pooled mean against `W_lin`, plus the bias. -/
theorem pay3_apply (s : Vec Ideal S512x64 .f32) (n : Vec Ideal S512x1 .f32) (x6 : Vec Ideal S64x10 .f32) (x7 : Vec Ideal S1x10 .f32)
    (g : Fin 512) (j : Fin 10) :
    k2_pay3 (F := Ideal) s n x6 x7 (ix2 g j)
      = (∑ k : Fin 64, Ideal.div (s (ix2 g k)) (max (n (ix2 g 0)) 1) * x6 (ix2 k j)) + x7 (ix2 0 j) := by
  unfold k2_pay3
  simp only [shapeCast_self]
  rw [addf_apply, mmHead_apply, broadcastTo_1b_ab_apply]
  refine congrArg (· + x7 (ix2 0 j)) (Finset.sum_congr rfl fun k _ => ?_)
  rw [truncf_apply, truncf_apply, divf_apply, broadcastTo_a1_ab_apply, maximumf_apply, broadcast_apply]
  show Ideal.div (s (ix2 g k)) (max (n (ix2 g 0)) (Ideal.ofBits .f32 0x3F800000#32)) * _ = _
  rw [one_f32]

section Blocks

/-! ## Block reads: a window's block at a tile is the array at the tile's rows -/

variable {F : FTy → Type} [FloatOps F]
variable (V : (c : Dev nD) → (b : Ref sig .tc) → Buf (Elt F) ((c : Thread nD τ).loc b))

theorem N2 : cfg2.N = 50 := N_2

/-- The printed index maps, decided once over the fifty tiles: the row-tiled windows sit at block `t` of their rows,
    every other window at block 0. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem row_lt (t : Fin cfg2.N) (r : Fin 2000) : t.val * 2000 + r.val < 100000 := by
  have h : t.val < 50 := lt_of_lt_of_eq t.isLt N2
  have := r.isLt; omega

theorem iblk2_0_apply (c : Dev nD) (t : Fin cfg2.N) (r : Fin 2000) (k : Fin 64) :
    (iblk2 V c 0 t : Vec F S2000x64 .f32) (ix2 r k)
      = (V c main_v44 : S100000x64.Idx → Elt F .f32) (ix2 ⟨t.val * 2000 + r.val, row_lt t r⟩ k) := by
  obtain ⟨e0, e1, -⟩ := idx2_facts t
  show (V c main_v44 : S100000x64.Idx → Elt F .f32) (((cfg2.win 0).blk t).view.emb (ix2 r k)) = _
  refine congrArg _ (funext fun a => Fin.ext ?_)
  match a with
  | ⟨0, _⟩ => show win2_0.index t (0 : Fin 2) * 2000 + 1 * r.val = t.val * 2000 + r.val; rw [e0]; omega
  | ⟨1, _⟩ => show win2_0.index t (1 : Fin 2) * 64 + 1 * k.val = k.val; rw [e1]; omega

theorem iblk2_1_apply (c : Dev nD) (t : Fin cfg2.N) (r : Fin 2000) (k : Fin 64) :
    (iblk2 V c 1 t : Vec F S2000x64 .f32) (ix2 r k)
      = (V c main_v32 : S100000x64.Idx → Elt F .f32) (ix2 ⟨t.val * 2000 + r.val, row_lt t r⟩ k) := by
  obtain ⟨-, -, e0, e1, -⟩ := idx2_facts t
  show (V c main_v32 : S100000x64.Idx → Elt F .f32) (((cfg2.win 1).blk t).view.emb (ix2 r k)) = _
  refine congrArg _ (funext fun a => Fin.ext ?_)
  match a with
  | ⟨0, _⟩ => show win2_1.index t (0 : Fin 2) * 2000 + 1 * r.val = t.val * 2000 + r.val; rw [e0]; omega
  | ⟨1, _⟩ => show win2_1.index t (1 : Fin 2) * 64 + 1 * k.val = k.val; rw [e1]; omega

theorem iblk2_2_eq (c : Dev nD) (t : Fin cfg2.N) :
    (iblk2 V c 2 t : Vec F S64x64 .f32) = (V c main_arg9 : S64x64.Idx → Elt F .f32) := by
  obtain ⟨-, -, -, -, e0, e1, -⟩ := idx2_facts t
  funext y
  show (V c main_arg9 : S64x64.Idx → Elt F .f32) (((cfg2.win 2).blk t).view.emb y) = _
  refine congrArg _ (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem iblk2_3_eq (c : Dev nD) (t : Fin cfg2.N) :
    (iblk2 V c 3 t : Vec F S1x64 .f32) = (V c main_v45 : S1x64.Idx → Elt F .f32) := by
  obtain ⟨-, -, -, -, -, -, e0, e1, -⟩ := idx2_facts t
  funext y
  show (V c main_v45 : S1x64.Idx → Elt F .f32) (((cfg2.win 3).blk t).view.emb y) = _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

theorem iblk2_4_eq (c : Dev nD) (t : Fin cfg2.N) :
    (iblk2 V c 4 t : Vec F S64x64 .f32) = (V c main_arg11 : S64x64.Idx → Elt F .f32) := by
  obtain ⟨-, -, -, -, -, -, -, -, e0, e1, -⟩ := idx2_facts t
  funext y
  show (V c main_arg11 : S64x64.Idx → Elt F .f32) (((cfg2.win 4).blk t).view.emb y) = _
  refine congrArg _ (funext fun a => Fin.ext ?_)
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem iblk2_5_apply (c : Dev nD) (t : Fin cfg2.N) (r : Fin 2000) :
    (iblk2 V c 5 t : Vec F S2000x1 .i32) (ix2 r 0)
      = (V c main_v4 : S100000x1.Idx → Elt F .i32) (ix2 ⟨t.val * 2000 + r.val, row_lt t r⟩ 0) := by
  obtain ⟨-, -, -, -, -, -, -, -, -, -, e0, e1, -⟩ := idx2_facts t
  show (V c main_v4 : S100000x1.Idx → Elt F .i32) (((cfg2.win 5).blk t).view.emb (ix2 r 0)) = _
  refine congrArg _ (funext fun a => Fin.ext ?_)
  match a with
  | ⟨0, _⟩ => show win2_5.index t (0 : Fin 2) * 2000 + 1 * r.val = t.val * 2000 + r.val; rw [e0]; omega
  | ⟨1, _⟩ => show win2_5.index t (1 : Fin 2) * 1 + 1 * 0 = 0; rw [e1]

theorem iblk2_6_eq (c : Dev nD) (t : Fin cfg2.N) :
    (iblk2 V c 6 t : Vec F S64x10 .f32) = (V c main_arg12 : S64x10.Idx → Elt F .f32) := by
  obtain ⟨-, -, -, -, -, -, -, -, -, -, -, -, e0, e1, -⟩ := idx2_facts t
  funext y
  show (V c main_arg12 : S64x10.Idx → Elt F .f32) (((cfg2.win 6).blk t).view.emb y) = _
  refine congrArg _ (funext fun a => Fin.ext ?_)
  match a with
  | ⟨0, _⟩ => show win2_6.index t (0 : Fin 2) * 64 + 1 * (y 0).val = (y 0).val; rw [e0]; omega
  | ⟨1, _⟩ => show win2_6.index t (1 : Fin 2) * 10 + 1 * (y 1).val = (y 1).val; rw [e1]; omega

theorem iblk2_7_eq (c : Dev nD) (t : Fin cfg2.N) :
    (iblk2 V c 7 t : Vec F S1x10 .f32) = (V c main_v46 : S1x10.Idx → Elt F .f32) := by
  obtain ⟨-, -, -, -, -, -, -, -, -, -, -, -, -, -, e0, e1, -⟩ := idx2_facts t
  funext y
  show (V c main_v46 : S1x10.Idx → Elt F .f32) (((cfg2.win 7).blk t).view.emb y) = _
  refine congrArg _ (funext fun a => Fin.ext ?_)
  match a with
  | ⟨0, _⟩ => show win2_7.index t (0 : Fin 2) * 1 + 1 * (y 0).val = (y 0).val; rw [e0]; omega
  | ⟨1, _⟩ => show win2_7.index t (1 : Fin 2) * 10 + 1 * (y 1).val = (y 1).val; rw [e1]; omega

end Blocks

/-! ## The running sums and counts are the pooled sums and counts over the rows read so far -/

section Pool
variable (W : (c : Dev nD) → (b : Ref sig .tc) → Buf (Elt Ideal) ((c : Thread nD τ).loc b)) (c : Dev nD)

/-- Layer 3's node features, from the arrays the region finds. -/
def feat3 : Cert.Spec.SNodes.Idx → EReal :=
  Cert.Spec.layerFn false (W c main_v44) (W c main_v32) (W c main_arg9) (fun q => (W c main_v45 : S1x64.Idx → EReal) (ix2 0 q))
    (W c main_arg11)

/-- The nodes' graph ids. -/
def gid : Cert.Spec.SIds.Idx → BitVec 32 := fun i => (W c main_v4 : S100000x1.Idx → BitVec 32) (ix2 (i 0) 0)

/-- A tile's layer-3 row is the layer at the tile's node. -/
theorem h3_blk (t : Fin cfg2.N) (r : Fin 2000) (q : Fin 64) :
    h3 (iblk2 W c 0 t) (iblk2 W c 1 t) (iblk2 W c 2 t) (iblk2 W c 4 t) (iblk2 W c 3 t) r q
      = feat3 W c (ix2 ⟨t.val * 2000 + r.val, row_lt t r⟩ q) := by
  unfold h3 feat3
  rw [Cert.Spec.layerFn_ix2]
  unfold Cert.Spec.layerAt
  simp only [iblk2_0_apply, iblk2_1_apply, iblk2_2_eq, iblk2_3_eq, iblk2_4_eq]
  rfl

/-- One node's term of graph `g`'s sum. -/
theorem term_eq (t : Fin cfg2.N) (r : Fin 2000) (g : Fin 512) (x : EReal) :
    (if (iblk2 W c 5 t : Vec Ideal S2000x1 .i32) (ix2 r 0) = BitVec.ofNat 32 g.val then (1 : EReal) else 0) * x
      = if gid W c (ix1 ⟨t.val * 2000 + r.val, row_lt t r⟩) = BitVec.ofNat 32 g.val then x else 0 := by
  rw [iblk2_5_apply]
  show (if (W c main_v4 : S100000x1.Idx → BitVec 32) (ix2 ⟨t.val * 2000 + r.val, row_lt t r⟩ 0) = BitVec.ofNat 32 g.val then (1 : EReal) else 0) * x
    = if (W c main_v4 : S100000x1.Idx → BitVec 32) (ix2 ⟨t.val * 2000 + r.val, row_lt t r⟩ 0) = BitVec.ofNat 32 g.val then x else 0
  split
  · exact one_mul x
  · exact zero_mul x

/-- After `n` tiles the running sum at graph `g`, feature `q` is the sum of the layer-3 features `q` of the nodes
    of graph `g` among the first `n · 2000` nodes. -/
theorem sumsAt_eq : ∀ n, n ≤ 50 → ∀ (g : Fin 512) (q : Fin 64),
    (sumsAt W c n : Vec Ideal S512x64 .f32) (ix2 g q)
      = ∑ p : Fin 100000, if p.val < n * 2000 then
          (if gid W c (ix1 p) = BitVec.ofNat 32 g.val then feat3 W c (ix2 p q) else 0) else 0
  | 0, _, g, q => by
    rw [Cert.Spec.tile_sum_zero]
    exact pay4_apply g q
  | n + 1, hn, g, q => by
    have h : n < cfg2.N := by rw [N2]; omega
    rw [Cert.Spec.tile_sum_succ _ n (by omega), ← sumsAt_eq n (by omega) g q]
    rw [sumsAt, dif_pos h, pay1_eq,
      pay8_apply (iblk2 W c 0 ⟨n, h⟩) (iblk2 W c 1 ⟨n, h⟩) (iblk2 W c 2 ⟨n, h⟩) (iblk2 W c 4 ⟨n, h⟩) (iblk2 W c 3 ⟨n, h⟩)
        (iblk2 W c 5 ⟨n, h⟩) (sumsAt W c n) g q]
    refine congrArg (_ + ·) (Finset.sum_congr rfl fun r _ => ?_)
    rw [h3_blk W c ⟨n, h⟩ r q]
    exact term_eq W c ⟨n, h⟩ r g _

/-- After `n` tiles the running count at graph `g` is the number of nodes of graph `g` among the first `n · 2000`. -/
theorem cntsAt_eq : ∀ n, n ≤ 50 → ∀ (g : Fin 512),
    (cntsAt W c n : Vec Ideal S512x1 .f32) (ix2 g 0)
      = ∑ p : Fin 100000, if p.val < n * 2000 then
          (if gid W c (ix1 p) = BitVec.ofNat 32 g.val then (1 : EReal) else 0) else 0
  | 0, _, g => by
    rw [Cert.Spec.tile_sum_zero]
    exact pay5_apply g
  | n + 1, hn, g => by
    have h : n < cfg2.N := by rw [N2]; omega
    rw [Cert.Spec.tile_sum_succ _ n (by omega), ← cntsAt_eq n (by omega) g]
    rw [cntsAt, dif_pos h, pay2_apply, pay7_apply (iblk2 W c 5 ⟨n, h⟩) g]
    refine congrArg (_ + ·) (Finset.sum_congr rfl fun r _ => ?_)
    have := term_eq W c ⟨n, h⟩ r g 1
    rw [mul_one] at this
    exact this

end Pool

/-! ## The result array: the one write-back, at the last tile -/

section Out
variable {F : FTy → Type} [FloatOps F]

theorem t49_lt : 49 < cfg2.N := by rw [N2]; decide

/-- The last tile. -/
abbrev t49 : Fin cfg2.N := ⟨49, t49_lt⟩

/-- Window 8's block, at every tile, is the whole 512×10 array. -/
theorem read_blk2_8 (t : Fin cfg2.N) (G : S512x10.Idx → Elt F .f32) :
    (((cfg2.win 8).blk t).view.read (Elt F) G : S512x10.Idx → Elt F .f32) = G := by
  obtain ⟨-, -, -, -, -, -, -, -, -, -, -, -, -, -, -, -, e0, e1⟩ := idx2_facts t
  funext y
  show G (((cfg2.win 8).blk t).view.emb y) = G y
  refine congrArg _ (funext fun a => Fin.ext ?_)
  match a with
  | ⟨0, _⟩ => show win2_8.index t (0 : Fin 2) * 512 + 1 * (y 0).val = (y 0).val; rw [e0]; omega
  | ⟨1, _⟩ => show win2_8.index t (1 : Fin 2) * 10 + 1 * (y 1).val = (y 1).val; rw [e1]; omega

/-- Every index of the result array lies in the last tile's block. -/
theorem cover2_8 (i : S512x10.Idx) : i ∈ ((cfg2.win 8).blk t49).view.set := by
  obtain ⟨-, -, -, -, -, -, -, -, -, -, -, -, -, -, -, -, e0, e1⟩ := idx2_facts t49
  show i ∈ ((View.whole main_v47).slice (win2_8.rect t49)).set
  rw [View.set_slice_whole, Rect.mem_set_unit]
  intro a
  have h0 : (i 0 : Nat) < 512 := (i 0).isLt
  have h1 : (i 1 : Nat) < 10 := (i 1).isLt
  match a with
  | ⟨0, _⟩ =>
    show win2_8.index t49 0 * win2_8.size 0 ≤ (i 0 : Nat) ∧ (i 0 : Nat) < win2_8.index t49 0 * win2_8.size 0 + win2_8.xsize (grid2.coords t49) 0
    rw [e0, show win2_8.xsize (grid2.coords t49) 0 = 512 from by decide +kernel]; omega
  | ⟨1, _⟩ =>
    show win2_8.index t49 1 * win2_8.size 1 ≤ (i 1 : Nat) ∧ (i 1 : Nat) < win2_8.index t49 1 * win2_8.size 1 + win2_8.xsize (grid2.coords t49) 1
    rw [e1, show win2_8.xsize (grid2.coords t49) 1 = 10 from by decide +kernel]; omega

variable (V : (c : Dev nD) → (b : Ref sig .tc) → Buf (Elt F) ((c : Thread nD τ).loc b)) (c : Dev nD)

/-- What the last tile leaves in the output block. -/
def res2 : S512x10.Idx → Elt F .f32 :=
  out2_8 (sumsAt V c 50) (cntsAt V c 50) (iblk2 V c 6 t49) (iblk2 V c 7 t49)

/-- The one write-back writes it. -/
theorem flushed2_8_eq (t : Fin cfg2.N) (hf : (cfg2.win 8).flush t = true) :
    (dat2 V c).flushed 8 t = ((cfg2.win 8).blk t).view.read (Elt F) (res2 V c) := by
  have h49 : t.val = 49 := by
    have h1 := (flush2_8 t).mp hf
    have h2 : t.val < 50 := lt_of_lt_of_eq t.isLt N2
    omega
  obtain rfl : t = t49 := Fin.ext h49
  rw [read_blk2_8]
  show (cfg2.win 8).cut (grid2.coords t49) ((dat2 V c).after 8 t49) = _
  rw [after2_8]
  rfl

/-- So the result array ends holding it. -/
theorem arr2_res : ((dat2 V c).arrAt 8 cfg2.N : S512x10.Idx → Elt F .f32) = res2 V c :=
  (dat2 V c).arrAt_eq_of_cover 8 (res2 V c) (flushed2_8_eq V c) fun i =>
    ⟨t49, (flush2_8 t49).mpr rfl, cover2_8 i⟩

end Out

/-! ## The region's value -/

theorem arr2_eq (V : (c : Dev nD) → (b : Ref sig .tc) → Buf (Elt Ideal) ((c : Thread nD τ).loc b)) (c : Dev nD) :
    ((dat2 (F := Ideal) V c).arrAt 8 cfg2.N : S512x10.Idx → EReal)
      = Cert.Spec.headFn
          (Cert.Spec.layerFn false (V c main_v44) (V c main_v32) (V c main_arg9) (fun q => (V c main_v45 : S1x64.Idx → EReal) (ix2 0 q)) (V c main_arg11))
          (fun i => (V c main_v4 : S100000x1.Idx → BitVec 32) (ix2 (i 0) 0))
          (V c main_arg12) (fun j => (V c main_v46 : S1x10.Idx → EReal) (ix2 0 j)) := by
  rw [arr2_res]
  funext i
  obtain ⟨g, j, rfl⟩ : ∃ (g : Fin 512) (j : Fin 10), i = ix2 g j := ⟨i 0, i 1, eq_ix2 i⟩
  rw [Cert.Spec.headFn_ix2]
  unfold Cert.Spec.headAt res2 out2_8
  rw [pay3_apply (sumsAt V c 50) (cntsAt V c 50) (iblk2 V c 6 t49) (iblk2 V c 7 t49) g j, iblk2_6_eq, iblk2_7_eq,
    cntsAt_eq V c 50 le_rfl g, Cert.Spec.tile_sum_full]
  simp only [sumsAt_eq V c 50 le_rfl g, Cert.Spec.tile_sum_full]
  rfl

end Cert.KernelIdeal.Hand

end
-- ==== Proof.KI.KHost.lean ====
/-
  What the three stretches of host operations put in the buffers the kernel regions read.

  Before each region the host builds the region's neighbour aggregation: from the node features `h` and the
  edge list it takes row 0 (the sources) and row 1 (the targets) of the edge list, shifts a negative source id
  by the node count, narrows `h`, gathers its rows along the sources, widens them again and sums them into a
  zero array along the targets. Over the extended reals narrowing and widening change nothing, so this is the
  reference's aggregation of `h`, carried as one function of `h` and the edge list and never opened. The
  first stretch applies it to the input features, the second to region 0's result, the third to region 1's.
  The edge rows are written once, by the first stretch, and found again by the later two.

  Each stretch also reshapes its layer's bias vector to a row (the third the head's bias too), and the first
  reshapes the graph ids to a column, which nothing touches until region 2 reads it. A reshaped vector reads,
  at its one free coordinate, the vector there.

  Every other buffer a region reads is an argument no stretch writes, or the previous region's result, which
  the next stretch leaves alone.
-/
import proofs.«417198_j24592982737081_2_alg».proof.Proof.KI.Vals
import proofs.«417198_j24592982737081_2_alg».proof.Proof.Gen.KernelIdeal.Regions
import proofs.«417198_j24592982737081_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Idealize.ShloMosaic.StableHlo

variable {F : FTy → Type} [FloatOps F]

/-- Row 0 of the edge list as a vector: the source node of each edge. -/
def edgeSrc (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list as a vector: the target node of each edge. -/
def edgeDst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The source ids wrapped: a negative id is shifted by the node count. -/
def wrapSrc (src : (⟨S1600000, .i32⟩ : BufTy).Contents (Elt F)) : (⟨S1600000x1, .i32⟩ : BufTy).Contents (Elt F) :=
  broadcastInDim S1600000x1 ![0] bcast_S1600000_S1600000x1_0
    (select
      (cmpi .slt src (broadcastInDim S1600000 ![] bcast_S_S1600000 (constantI S_ 32 0#32 : (⟨S_, .i32⟩ : BufTy).Contents (Elt F))) : (⟨S1600000, .i1⟩ : BufTy).Contents (Elt F))
      (addi src (broadcastInDim S1600000 ![] bcast_S_S1600000 (constantI S_ 32 100000#32 : (⟨S_, .i32⟩ : BufTy).Contents (Elt F))) : (⟨S1600000, .i32⟩ : BufTy).Contents (Elt F))
      src : (⟨S1600000, .i32⟩ : BufTy).Contents (Elt F))

/-- The neighbour aggregation as the kernel program spells it, from the node features and the two edge rows:
    the features narrowed, gathered along the wrapped sources, widened again, and summed into a zero array along
    the targets. -/
def aggK (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32 : (⟨S_, .f32⟩ : BufTy).Contents (Elt F)) : (⟨S100000x64, .f32⟩ : BufTy).Contents (Elt F))
    (broadcastInDim S1600000x1 ![0] bcast_S1600000_S1600000x1_0 dst : (⟨S1600000x1, .i32⟩ : BufTy).Contents (Elt F))
    (extf .f32
      (Host.gather gather_S100000x64_S1600000x1_S1600000x64_1_0_n_n_0_1_164
        (truncf .bf16 h bitsLt_bf16_f32 : (⟨S100000x64, .bf16⟩ : BufTy).Contents (Elt F))
        (wrapSrc src) : (⟨S1600000x64, .bf16⟩ : BufTy).Contents (Elt F))
      bitsLt_bf16_f32 : (⟨S1600000x64, .f32⟩ : BufTy).Contents (Elt F))

variable (m : (ℓ : Loc nD τ sig) → Buf (Elt F) ℓ)

/-! ## Buffers carried across a stretch or a region -/

/-- A buffer the first stretch does not write holds at region 0's entry what it held at launch. -/
theorem W1_keep (c : Dev nD) (r : Ref sig .tc) (h : r ∉ hostOps0_W) : w1 m c r = m ((c : Thread nD τ).loc r) :=
  (StableHlo.after_of_writes_sub hostOps0 _ hostOps0_writes h).trans rfl

/-- A buffer that is none of region 0's arrays leaves the region as it entered. -/
theorem W2_keep (c : Dev nD) (r : Ref sig .tc) (h : ∀ w, Pipeline.arrRef spec0 w ≠ r) : w2 m c r = w1 m c r :=
  W2_of_ne m c r h

/-- A buffer the second stretch does not write holds at region 1's entry what region 0 left. -/
theorem W3_keep (c : Dev nD) (r : Ref sig .tc) (h : r ∉ hostOps1_W) : w3 m c r = w2 m c r :=
  StableHlo.after_of_writes_sub hostOps1 _ hostOps1_writes h

/-- A buffer that is none of region 1's arrays leaves the region as it entered. -/
theorem W4_keep (c : Dev nD) (r : Ref sig .tc) (h : ∀ w, Pipeline.arrRef spec1 w ≠ r) : w4 m c r = w3 m c r :=
  W4_of_ne m c r h

/-- A buffer the third stretch does not write holds at region 2's entry what region 1 left. -/
theorem W5_keep (c : Dev nD) (r : Ref sig .tc) (h : r ∉ hostOps2_W) : w5 m c r = w4 m c r :=
  StableHlo.after_of_writes_sub hostOps2 _ hostOps2_writes h

/-- Up to region 1's entry: neither written by the first two stretches nor an array of region 0. -/
theorem W3_launch (c : Dev nD) (r : Ref sig .tc) (h0 : r ∉ hostOps0_W) (a0 : ∀ w, Pipeline.arrRef spec0 w ≠ r)
    (h1 : r ∉ hostOps1_W) : w3 m c r = m ((c : Thread nD τ).loc r) :=
  (W3_keep m c r h1).trans ((W2_keep m c r a0).trans (W1_keep m c r h0))

/-- Up to region 2's entry: written by no stretch, an array of neither earlier region. -/
theorem W5_launch (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) :
    w5 m c r = m ((c : Thread nD τ).loc r) :=
  (W5_keep m c r h2).trans ((W4_keep m c r a1).trans (W3_launch m c r h0 a0 h1))

theorem w1_arg0 (c : Dev nD) : w1 m c main_arg0 = m ((c : Thread nD τ).loc main_arg0) := W1_keep m c main_arg0 (by decide)
theorem w1_arg3 (c : Dev nD) : w1 m c main_arg3 = m ((c : Thread nD τ).loc main_arg3) := W1_keep m c main_arg3 (by decide)
theorem w1_arg5 (c : Dev nD) : w1 m c main_arg5 = m ((c : Thread nD τ).loc main_arg5) := W1_keep m c main_arg5 (by decide)
theorem w3_v18 (c : Dev nD) : w3 m c main_v18 = w2 m c main_v18 := W3_keep m c main_v18 (by decide)
theorem w3_arg6 (c : Dev nD) : w3 m c main_arg6 = m ((c : Thread nD τ).loc main_arg6) :=
  W3_launch m c main_arg6 (by decide) (by decide) (by decide)
theorem w3_arg8 (c : Dev nD) : w3 m c main_arg8 = m ((c : Thread nD τ).loc main_arg8) :=
  W3_launch m c main_arg8 (by decide) (by decide) (by decide)
theorem w5_v32 (c : Dev nD) : w5 m c main_v32 = w4 m c main_v32 := W5_keep m c main_v32 (by decide)
theorem w5_arg9 (c : Dev nD) : w5 m c main_arg9 = m ((c : Thread nD τ).loc main_arg9) :=
  W5_launch m c main_arg9 (by decide) (by decide) (by decide) (by decide) (by decide)
theorem w5_arg11 (c : Dev nD) : w5 m c main_arg11 = m ((c : Thread nD τ).loc main_arg11) :=
  W5_launch m c main_arg11 (by decide) (by decide) (by decide) (by decide) (by decide)
theorem w5_arg12 (c : Dev nD) : w5 m c main_arg12 = m ((c : Thread nD τ).loc main_arg12) :=
  W5_launch m c main_arg12 (by decide) (by decide) (by decide) (by decide) (by decide)

/-! ## What the first stretch writes -/

theorem w1_v1 (c : Dev nD) : (w1 m c main_v1 : S1600000.Idx → Elt F .i32) = edgeSrc (m ((c : Thread nD τ).loc main_arg1)) := by
  show StableHlo.after hostOps0 _ (Proc.devRef .tc main_v1) = _
  after_results_simp
  rfl

theorem w1_v3 (c : Dev nD) : (w1 m c main_v3 : S1600000.Idx → Elt F .i32) = edgeDst (m ((c : Thread nD τ).loc main_arg1)) := by
  show StableHlo.after hostOps0 _ (Proc.devRef .tc main_v3) = _
  after_results_simp
  rfl

/-- The graph ids as a column. -/
theorem w1_v4 (c : Dev nD) :
    (w1 m c main_v4 : S100000x1.Idx → Elt F .i32)
      = shapeCast S100000x1 (m ((c : Thread nD τ).loc main_arg2) : S100000.Idx → Elt F .i32) shapeCasts_S100000_S100000x1 := by
  show StableHlo.after hostOps0 _ (Proc.devRef .tc main_v4) = _
  after_results_simp
  rfl

/-- Layer 1's aggregation of the input features. -/
theorem w1_v16 (c : Dev nD) :
    (w1 m c main_v16 : S100000x64.Idx → Elt F .f32)
      = aggK (m ((c : Thread nD τ).loc main_arg0)) (edgeSrc (m ((c : Thread nD τ).loc main_arg1)))
          (edgeDst (m ((c : Thread nD τ).loc main_arg1))) := by
  show StableHlo.after hostOps0 _ (Proc.devRef .tc main_v16) = _
  after_results_simp
  rfl

/-- Layer 1's bias as a row. -/
theorem w1_v17 (c : Dev nD) :
    (w1 m c main_v17 : S1x64.Idx → Elt F .f32)
      = shapeCast S1x64 (m ((c : Thread nD τ).loc main_arg4) : S64.Idx → Elt F .f32) shapeCasts_S64_S1x64 := by
  show StableHlo.after hostOps0 _ (Proc.devRef .tc main_v17) = _
  after_results_simp
  rfl

/-! ## What the second stretch writes -/

/-- The edge rows are still there when the second stretch reads them. -/
theorem w2_v1 (c : Dev nD) : (w2 m c main_v1 : S1600000.Idx → Elt F .i32) = edgeSrc (m ((c : Thread nD τ).loc main_arg1)) :=
  (W2_keep m c main_v1 (by decide)).trans (w1_v1 m c)
theorem w2_v3 (c : Dev nD) : (w2 m c main_v3 : S1600000.Idx → Elt F .i32) = edgeDst (m ((c : Thread nD τ).loc main_arg1)) :=
  (W2_keep m c main_v3 (by decide)).trans (w1_v3 m c)

/-- Layer 2's aggregation of layer 1's features. -/
theorem w3_v30 (c : Dev nD) :
    (w3 m c main_v30 : S100000x64.Idx → Elt F .f32)
      = aggK (w2 m c main_v18) (edgeSrc (m ((c : Thread nD τ).loc main_arg1))) (edgeDst (m ((c : Thread nD τ).loc main_arg1))) := by
  rw [← w2_v1 m c, ← w2_v3 m c]
  show StableHlo.after hostOps1 _ (Proc.devRef .tc main_v30) = _
  after_results_simp
  rfl

/-- Layer 2's bias as a row. -/
theorem w3_v31 (c : Dev nD) :
    (w3 m c main_v31 : S1x64.Idx → Elt F .f32)
      = shapeCast S1x64 (m ((c : Thread nD τ).loc main_arg7) : S64.Idx → Elt F .f32) shapeCasts_S64_S1x64 := by
  rw [← W1_keep m c main_arg7 (by decide), ← W2_keep m c main_arg7 (by decide)]
  show StableHlo.after hostOps1 _ (Proc.devRef .tc main_v31) = _
  after_results_simp
  rfl

/-! ## What the third stretch writes, and what it finds of the first -/

theorem w4_v1 (c : Dev nD) : (w4 m c main_v1 : S1600000.Idx → Elt F .i32) = edgeSrc (m ((c : Thread nD τ).loc main_arg1)) :=
  (W4_keep m c main_v1 (by decide)).trans ((W3_keep m c main_v1 (by decide)).trans (w2_v1 m c))
theorem w4_v3 (c : Dev nD) : (w4 m c main_v3 : S1600000.Idx → Elt F .i32) = edgeDst (m ((c : Thread nD τ).loc main_arg1)) :=
  (W4_keep m c main_v3 (by decide)).trans ((W3_keep m c main_v3 (by decide)).trans (w2_v3 m c))

/-- Layer 3's aggregation of layer 2's features. -/
theorem w5_v44 (c : Dev nD) :
    (w5 m c main_v44 : S100000x64.Idx → Elt F .f32)
      = aggK (w4 m c main_v32) (edgeSrc (m ((c : Thread nD τ).loc main_arg1))) (edgeDst (m ((c : Thread nD τ).loc main_arg1))) := by
  rw [← w4_v1 m c, ← w4_v3 m c]
  show StableHlo.after hostOps2 _ (Proc.devRef .tc main_v44) = _
  after_results_simp
  rfl

/-- An argument no earlier item touches, as the third stretch finds it. -/
theorem W4_launch (c : Dev nD) (r : Ref sig .tc) (h0 : r ∉ hostOps0_W) (a0 : ∀ w, Pipeline.arrRef spec0 w ≠ r)
    (h1 : r ∉ hostOps1_W) (a1 : ∀ w, Pipeline.arrRef spec1 w ≠ r) : w4 m c r = m ((c : Thread nD τ).loc r) :=
  (W4_keep m c r a1).trans (W3_launch m c r h0 a0 h1)

/-- Layer 3's bias as a row. -/
theorem w5_v45 (c : Dev nD) :
    (w5 m c main_v45 : S1x64.Idx → Elt F .f32)
      = shapeCast S1x64 (m ((c : Thread nD τ).loc main_arg10) : S64.Idx → Elt F .f32) shapeCasts_S64_S1x64 := by
  rw [← W4_launch m c main_arg10 (by decide) (by decide) (by decide) (by decide)]
  show StableHlo.after hostOps2 _ (Proc.devRef .tc main_v45) = _
  after_results_simp
  rfl

/-- The head's bias as a row. -/
theorem w5_v46 (c : Dev nD) :
    (w5 m c main_v46 : S1x10.Idx → Elt F .f32)
      = shapeCast S1x10 (m ((c : Thread nD τ).loc main_arg13) : S10.Idx → Elt F .f32) shapeCasts_S10_S1x10 := by
  rw [← W4_launch m c main_arg13 (by decide) (by decide) (by decide) (by decide)]
  show StableHlo.after hostOps2 _ (Proc.devRef .tc main_v46) = _
  after_results_simp
  rfl

/-- The column of graph ids the first stretch wrote reaches region 2 untouched. -/
theorem w5_v4 (c : Dev nD) :
    (w5 m c main_v4 : S100000x1.Idx → Elt F .i32)
      = shapeCast S100000x1 (m ((c : Thread nD τ).loc main_arg2) : S100000.Idx → Elt F .i32) shapeCasts_S100000_S100000x1 :=
  (W5_keep m c main_v4 (by decide)).trans <| (W4_keep m c main_v4 (by decide)).trans <|
    (W3_keep m c main_v4 (by decide)).trans <| (W2_keep m c main_v4 (by decide)).trans (w1_v4 m c)

/-! ## The reshaped rows and the id column, index by index -/

/-- A vector reshaped to a column reads, at row `i`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem hv17 (c : Dev nD) :
    (fun q : Fin 64 => (w1 m c main_v17 : S1x64.Idx → Elt F .f32) (ix2 0 q))
      = fun q => (m ((c : Thread nD τ).loc main_arg4) : S64.Idx → Elt F .f32) (ix1 q) := by
  funext q; rw [w1_v17 m c]; exact shapeCast_a_1a_apply _ _ 0 q

theorem hv31 (c : Dev nD) :
    (fun q : Fin 64 => (w3 m c main_v31 : S1x64.Idx → Elt F .f32) (ix2 0 q))
      = fun q => (m ((c : Thread nD τ).loc main_arg7) : S64.Idx → Elt F .f32) (ix1 q) := by
  funext q; rw [w3_v31 m c]; exact shapeCast_a_1a_apply _ _ 0 q

theorem hv45 (c : Dev nD) :
    (fun q : Fin 64 => (w5 m c main_v45 : S1x64.Idx → Elt F .f32) (ix2 0 q))
      = fun q => (m ((c : Thread nD τ).loc main_arg10) : S64.Idx → Elt F .f32) (ix1 q) := by
  funext q; rw [w5_v45 m c]; exact shapeCast_a_1a_apply _ _ 0 q

theorem hv46 (c : Dev nD) :
    (fun j : Fin 10 => (w5 m c main_v46 : S1x10.Idx → Elt F .f32) (ix2 0 j))
      = fun j => (m ((c : Thread nD τ).loc main_arg13) : S10.Idx → Elt F .f32) (ix1 j) := by
  funext j; rw [w5_v46 m c]; exact shapeCast_a_1a_apply _ _ 0 j

theorem hv4 (c : Dev nD) :
    (fun i : S100000.Idx => (w5 m c main_v4 : S100000x1.Idx → Elt F .i32) (ix2 (i 0) 0))
      = (m ((c : Thread nD τ).loc main_arg2) : S100000.Idx → Elt F .i32) := by
  funext i; rw [w5_v4 m c]
  exact (shapeCast_a_a1_apply _ _ (i 0) 0).trans (congrArg _ (eq_ix1 i).symm)

/-! ## Over the extended reals: the aggregation is the reference's -/

section AtIdeal

/-- Narrowing and widening are the identity on extended reals, and the two programs' dimension records have the
    same fields: the kernel program's aggregation chain is the reference's, operation for operation. -/
theorem aggK_eq (h : (⟨S100000x64, .f32⟩ : BufTy).Contents (Elt Ideal)) (ei : (⟨S2x1600000, .i32⟩ : BufTy).Contents (Elt Ideal)) :
    aggK (F := Ideal) h (edgeSrc ei) (edgeDst ei) = Cert.ReferenceIdeal.Read.val_main_v13 (F := Ideal) h ei := by
  unfold aggK wrapSrc edgeSrc edgeDst
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0
  rfl

variable (mI : (ℓ : Loc nD τ sig) → Buf (Elt Ideal) ℓ)

theorem hv16 (c : Dev nD) :
    (w1 mI c main_v16 : S100000x64.Idx → EReal)
      = Cert.ReferenceIdeal.Read.val_main_v13 (F := Ideal) (mI ((c : Thread nD τ).loc main_arg0)) (mI ((c : Thread nD τ).loc main_arg1)) :=
  (w1_v16 mI c).trans (aggK_eq _ _)

theorem hv30 (c : Dev nD) :
    (w3 mI c main_v30 : S100000x64.Idx → EReal)
      = Cert.ReferenceIdeal.Read.val_main_v13 (F := Ideal) (w2 mI c main_v18) (mI ((c : Thread nD τ).loc main_arg1)) :=
  (w3_v30 mI c).trans (aggK_eq _ _)

theorem hv44 (c : Dev nD) :
    (w5 mI c main_v44 : S100000x64.Idx → EReal)
      = Cert.ReferenceIdeal.Read.val_main_v13 (F := Ideal) (w4 mI c main_v32) (mI ((c : Thread nD τ).loc main_arg1)) :=
  (w5_v44 mI c).trans (aggK_eq _ _)

end AtIdeal

end Cert.KernelIdeal.Hand

end
-- ==== Proof.KI.KChain.lean ====
/-
  The kernel program's result as a function of its arguments, over the extended reals.

  Region 0 leaves the first layer of the input features in its result array; the next host stretch aggregates that
  array's rows over the edges, and region 1 leaves the second layer of it; the last stretch aggregates again, and
  region 2 leaves the mean-pooled third layer passed through the linear head. The aggregation over the edges is
  the same chain of host operations in both programs and is carried as one function, never opened.
-/
import proofs.«417198_j24592982737081_2_alg».proof.Proof.KI.KVal0
import proofs.«417198_j24592982737081_2_alg».proof.Proof.KI.KVal1
import proofs.«417198_j24592982737081_2_alg».proof.Proof.KI.KVal2
import proofs.«417198_j24592982737081_2_alg».proof.Proof.KI.KHost

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- The first layer of the input features. -/
def feat1 : S100000x64.Idx → EReal :=
  Cert.Spec.layerFn true
    (Cert.ReferenceIdeal.Read.val_main_v13 (F := Ideal) (m ((c : Thread nD τ).loc main_arg0)) (m ((c : Thread nD τ).loc main_arg1)))
    (m ((c : Thread nD τ).loc main_arg0)) (m ((c : Thread nD τ).loc main_arg3))
    (fun q => (m ((c : Thread nD τ).loc main_arg4) : S64.Idx → EReal) (ix1 q)) (m ((c : Thread nD τ).loc main_arg5))

/-- The second layer. -/
def feat2 : S100000x64.Idx → EReal :=
  Cert.Spec.layerFn true
    (Cert.ReferenceIdeal.Read.val_main_v13 (F := Ideal) (feat1 m c) (m ((c : Thread nD τ).loc main_arg1)))
    (feat1 m c) (m ((c : Thread nD τ).loc main_arg6))
    (fun q => (m ((c : Thread nD τ).loc main_arg7) : S64.Idx → EReal) (ix1 q)) (m ((c : Thread nD τ).loc main_arg8))

/-- The pooled third layer through the head. -/
def logits : S512x10.Idx → EReal :=
  Cert.Spec.headFn
    (Cert.Spec.layerFn false
      (Cert.ReferenceIdeal.Read.val_main_v13 (F := Ideal) (feat2 m c) (m ((c : Thread nD τ).loc main_arg1)))
      (feat2 m c) (m ((c : Thread nD τ).loc main_arg9))
      (fun q => (m ((c : Thread nD τ).loc main_arg10) : S64.Idx → EReal) (ix1 q)) (m ((c : Thread nD τ).loc main_arg11)))
    (m ((c : Thread nD τ).loc main_arg2)) (m ((c : Thread nD τ).loc main_arg12))
    (fun j => (m ((c : Thread nD τ).loc main_arg13) : S10.Idx → EReal) (ix1 j))

/-- Region 0's result array is the first layer. -/
theorem feat1_eq : (w2 m c main_v18 : S100000x64.Idx → EReal) = feat1 m c := by
  have e := W2_arr m c 5
  refine (show (w2 m c main_v18 : S100000x64.Idx → EReal) = (dat0 (F := Ideal) (w1 m) c).arrAt 5 cfg0.N from e).trans ?_
  rw [arr0_eq (w1 m) c, hv16 m c, hv17 m c, w1_arg0 m c, w1_arg3 m c, w1_arg5 m c]
  rfl

/-- Region 1's result array is the second layer. -/
theorem feat2_eq : (w4 m c main_v32 : S100000x64.Idx → EReal) = feat2 m c := by
  have e := W4_arr m c 5
  refine (show (w4 m c main_v32 : S100000x64.Idx → EReal) = (dat1 (F := Ideal) (w3 m) c).arrAt 5 cfg1.N from e).trans ?_
  rw [arr1_eq (w3 m) c, hv30 m c, hv31 m c, w3_v18 m c, feat1_eq m c, w3_arg6 m c, w3_arg8 m c]
  rfl

/-- Region 2's result array, the program's result, is the pooled third layer through the head. -/
theorem logits_eq : (W6 m c (Proc.devRef .tc main_v47) : S512x10.Idx → EReal) = logits m c := by
  have e := W6_arr m c 8
  refine (show (W6 m c (Proc.devRef .tc main_v47) : S512x10.Idx → EReal) = (dat2 (F := Ideal) (w5 m) c).arrAt 8 cfg2.N from e).trans ?_
  rw [arr2_eq (w5 m) c, hv44 m c, hv45 m c, hv46 m c, hv4 m c, w5_v32 m c, feat2_eq m c, w5_arg9 m c, w5_arg11 m c, w5_arg12 m c]
  rfl

end Cert.KernelIdeal.Hand

end
-- ==== Proof.KI.Ref.lean ====
/-
  The reference's value, read off its run one operation at a time.

  The reference applies three times a layer (two contractions over the 64 features, a bias, and in the first two a clip
  at zero) to the features aggregated along the edges, then sums the rows of each graph and counts them by two
  scatter-adds, divides, and applies the linear head. The aggregation (a gather of the source rows and a scatter-add
  at the destination rows) is carried as one opaque function of the features and the edge list; each pooling
  scatter-add is unfolded to a conditional sum over the nodes.
-/
import proofs.«417198_j24592982737081_2_alg».proof.Proof.Gen.ReferenceIdeal.Read
import proofs.«417198_j24592982737081_2_alg».proof.Proof.KI.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.Hand

open Cert.ReferenceIdeal Cert.ReferenceIdeal.Gen Idealize.ShloMosaic Idealize.ShloMosaic.ValueIdx

/-- Two rank-2 indices with the same coordinates are equal. -/
theorem idx2_ext {n0 n1 : Nat} (i j : (⟨2, ![n0, n1]⟩ : Shape).Idx) (h0 : i 0 = j 0) (h1 : i 1 = j 1) : i = j := by
  funext a; match a with | ⟨0, _⟩ => exact h0 | ⟨1, _⟩ => exact h1

/-- Two rank-1 indices with the same coordinate are equal. -/
theorem idx1_ext {n0 : Nat} (i j : (⟨1, ![n0]⟩ : Shape).Idx) (h0 : i 0 = j 0) : i = j := by
  funext a; match a with | ⟨0, _⟩ => exact h0

/-! ## The three layers

Each layer's last stage, read at node `p` and feature `q`, is the two contractions, the bias and (in the first two
layers) the clip at zero, over the aggregated neighbour features, which stay one opaque function of the layer's input. -/

/-- The first layer of the reference. -/
theorem layer1_eq (x0 : S100000x64.Idx → EReal) (x1 : (⟨S2x1600000, .i32⟩ : BufTy).Contents (Elt Ideal))
    (x3 : S64x64.Idx → EReal) (x4 : S64.Idx → EReal) (x5 : S64x64.Idx → EReal) :
    Read.val_main_v20 (F := Ideal) x0 x1 x3 x4 x5
      = Cert.Spec.layerFn true (Read.val_main_v13 (F := Ideal) x0 x1) x0 x3 (fun q => x4 (ix1 q)) x5 := by
  funext i
  obtain ⟨p, q, rfl⟩ : ∃ p q, i = ix2 p q := ⟨i 0, i 1, eq_ix2 i⟩
  rw [Cert.Spec.layerFn_ix2]
  unfold Cert.Spec.layerAt
  rw [if_pos rfl]
  rw [Read.val_main_v20_apply, Read.val_main_v19_apply, Read.val_main_v17_apply, Read.val_main_v14_apply,
    Read.val_main_v18_apply, Read.val_main_v16_apply, Read.val_main_v15_apply, Read.val_main_call0_v0_apply,
    Read.val_main_call0_cst_apply]
  have el : ∀ k, Read.lidx_main_v14 (ix2 p q) k = ix2 p k := fun k => idx2_ext _ _ rfl rfl
  have er : ∀ k, Read.ridx_main_v14 (ix2 p q) k = ix2 k q := fun k => idx2_ext _ _ rfl rfl
  have el' : ∀ k, Read.lidx_main_v18 (ix2 p q) k = ix2 p k := fun k => idx2_ext _ _ rfl rfl
  have er' : ∀ k, Read.ridx_main_v18 (ix2 p q) k = ix2 k q := fun k => idx2_ext _ _ rfl rfl
  have eb : Read.idx_main_v15 (Read.idx_main_v16 (ix2 p q)) = ix1 q := idx1_ext _ _ rfl
  simp only [el, er, el', er', eb, Ideal.maximumf_def, Ideal.addf_def, Ideal.ofBits_def, Ideal.ofBits_zero_f32]

/-- The second layer aggregates the first layer's result along the same edges: the index chains are the same terms. -/
theorem agg2_eq (x0 : S100000x64.Idx → EReal) (x1 : (⟨S2x1600000, .i32⟩ : BufTy).Contents (Elt Ideal))
    (x3 : S64x64.Idx → EReal) (x4 : S64.Idx → EReal) (x5 : S64x64.Idx → EReal) :
    Read.val_main_v30 (F := Ideal) x0 x1 x3 x4 x5
      = Read.val_main_v13 (F := Ideal) (Read.val_main_v20 (F := Ideal) x0 x1 x3 x4 x5) x1 := rfl

/-- The second layer of the reference, over the first layer's result `h`. -/
theorem layer2_eq (x0 : S100000x64.Idx → EReal) (x1 : (⟨S2x1600000, .i32⟩ : BufTy).Contents (Elt Ideal))
    (x3 : S64x64.Idx → EReal) (x4 : S64.Idx → EReal) (x5 x6 : S64x64.Idx → EReal) (x7 : S64.Idx → EReal)
    (x8 : S64x64.Idx → EReal) :
    Read.val_main_v37 (F := Ideal) x0 x1 x3 x4 x5 x6 x7 x8
      = Cert.Spec.layerFn true
          (Read.val_main_v13 (F := Ideal) (Read.val_main_v20 (F := Ideal) x0 x1 x3 x4 x5) x1)
          (Read.val_main_v20 (F := Ideal) x0 x1 x3 x4 x5) x6 (fun q => x7 (ix1 q)) x8 := by
  funext i
  obtain ⟨p, q, rfl⟩ : ∃ p q, i = ix2 p q := ⟨i 0, i 1, eq_ix2 i⟩
  rw [Cert.Spec.layerFn_ix2]
  unfold Cert.Spec.layerAt
  rw [if_pos rfl]
  rw [Read.val_main_v37_apply, Read.val_main_v36_apply, Read.val_main_v34_apply, Read.val_main_v31_apply,
    Read.val_main_v35_apply, Read.val_main_v33_apply, Read.val_main_v32_apply, Read.val_main_call1_v0_apply,
    Read.val_main_call1_cst_apply, agg2_eq]
  have el : ∀ k, Read.lidx_main_v31 (ix2 p q) k = ix2 p k := fun k => idx2_ext _ _ rfl rfl
  have er : ∀ k, Read.ridx_main_v31 (ix2 p q) k = ix2 k q := fun k => idx2_ext _ _ rfl rfl
  have el' : ∀ k, Read.lidx_main_v35 (ix2 p q) k = ix2 p k := fun k => idx2_ext _ _ rfl rfl
  have er' : ∀ k, Read.ridx_main_v35 (ix2 p q) k = ix2 k q := fun k => idx2_ext _ _ rfl rfl
  have eb : Read.idx_main_v32 (Read.idx_main_v33 (ix2 p q)) = ix1 q := idx1_ext _ _ rfl
  simp only [el, er, el', er', eb, Ideal.maximumf_def, Ideal.addf_def, Ideal.ofBits_def, Ideal.ofBits_zero_f32]

/-- The third layer aggregates the second layer's result along the same edges. -/
theorem agg3_eq (x0 : S100000x64.Idx → EReal) (x1 : (⟨S2x1600000, .i32⟩ : BufTy).Contents (Elt Ideal))
    (x3 : S64x64.Idx → EReal) (x4 : S64.Idx → EReal) (x5 x6 : S64x64.Idx → EReal) (x7 : S64.Idx → EReal)
    (x8 : S64x64.Idx → EReal) :
    Read.val_main_v47 (F := Ideal) x0 x1 x3 x4 x5 x6 x7 x8
      = Read.val_main_v13 (F := Ideal) (Read.val_main_v37 (F := Ideal) x0 x1 x3 x4 x5 x6 x7 x8) x1 := rfl

/-- The third layer of the reference, which has no clip, over the second layer's result. -/
theorem layer3_eq (x0 : S100000x64.Idx → EReal) (x1 : (⟨S2x1600000, .i32⟩ : BufTy).Contents (Elt Ideal))
    (x3 : S64x64.Idx → EReal) (x4 : S64.Idx → EReal) (x5 x6 : S64x64.Idx → EReal) (x7 : S64.Idx → EReal)
    (x8 x9 : S64x64.Idx → EReal) (x10 : S64.Idx → EReal) (x11 : S64x64.Idx → EReal) :
    Read.val_main_v53 (F := Ideal) x0 x1 x3 x4 x5 x6 x7 x8 x9 x10 x11
      = Cert.Spec.layerFn false
          (Read.val_main_v13 (F := Ideal) (Read.val_main_v37 (F := Ideal) x0 x1 x3 x4 x5 x6 x7 x8) x1)
          (Read.val_main_v37 (F := Ideal) x0 x1 x3 x4 x5 x6 x7 x8) x9 (fun q => x10 (ix1 q)) x11 := by
  funext i
  obtain ⟨p, q, rfl⟩ : ∃ p q, i = ix2 p q := ⟨i 0, i 1, eq_ix2 i⟩
  rw [Cert.Spec.layerFn_ix2]
  unfold Cert.Spec.layerAt
  rw [if_neg (by decide)]
  rw [Read.val_main_v53_apply, Read.val_main_v51_apply, Read.val_main_v48_apply,
    Read.val_main_v52_apply, Read.val_main_v50_apply, Read.val_main_v49_apply, agg3_eq]
  have el : ∀ k, Read.lidx_main_v48 (ix2 p q) k = ix2 p k := fun k => idx2_ext _ _ rfl rfl
  have er : ∀ k, Read.ridx_main_v48 (ix2 p q) k = ix2 k q := fun k => idx2_ext _ _ rfl rfl
  have el' : ∀ k, Read.lidx_main_v52 (ix2 p q) k = ix2 p k := fun k => idx2_ext _ _ rfl rfl
  have er' : ∀ k, Read.ridx_main_v52 (ix2 p q) k = ix2 k q := fun k => idx2_ext _ _ rfl rfl
  have eb : Read.idx_main_v49 (Read.idx_main_v50 (ix2 p q)) = ix1 q := idx1_ext _ _ rfl
  simp only [el, er, el', er', eb, Ideal.addf_def]

/-! ## A scatter-add of rows, as a conditional sum

For the dimension numbers both pooling scatters use (the update's axis 1 a window axis, the operand's axis 0 inserted
and the target of the one-component index vector on the indices' axis 1), update element `(n, k)` lands on
`(signed value of ids[n], k)` when that is inside the operand, and nowhere otherwise. -/

/-- An update lands on `i` exactly when, on every axis, start plus window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · intro hfi a
      rw [← hfi]
      have := (h a).1
      show _ = (((d.start j idx a + (d.window j a : Int)).toNat : Nat) : Int)
      omega
    · intro hall
      funext a
      apply Fin.ext
      show (d.start j idx a + (d.window j a : Int)).toNat = (i a).val
      have := hall a
      omega
  · constructor
    · intro hn; cases hn
    · intro hall
      exfalso
      apply h
      intro a
      have := hall a
      have := (i a).isLt
      constructor <;> omega

section Rows
variable {G K N : Nat} (wf : ScatterDims.WF ⟨2, ![G, K]⟩ ⟨2, ![N, 1]⟩ ⟨2, ![N, K]⟩ [1] [0] [0] 1)

/-- The rows scatter's record. -/
abbrev rowsDims : ScatterDims ⟨2, ![G, K]⟩ ⟨2, ![N, 1]⟩ ⟨2, ![N, K]⟩ := ⟨[1], [0], [0], 1, wf⟩

theorem rows_start0 (j : (⟨2, ![N, K]⟩ : Shape).Idx) (idx : IVec ⟨2, ![N, 1]⟩ 32) :
    (rowsDims wf).start j idx 0 = (idx (ix2 (j 0) 0)).toInt := by
  unfold ScatterDims.start
  rw [dif_pos (show (0 : Fin 2) ∈ [(0 : Fin 2)] by decide)]
  congr 2
  have one : ∀ x y : Fin 1, x = y := fun x y => Subsingleton.elim x y
  exact idx2_ext _ _ (Fin.ext rfl) (one _ _)

theorem rows_start1 (j : (⟨2, ![N, K]⟩ : Shape).Idx) (idx : IVec ⟨2, ![N, 1]⟩ 32) :
    (rowsDims wf).start j idx 1 = 0 := by
  unfold ScatterDims.start
  rw [dif_neg (show (1 : Fin 2) ∉ [(0 : Fin 2)] by decide)]

theorem rows_window0 (j : (⟨2, ![N, K]⟩ : Shape).Idx) : (rowsDims wf).window j 0 = 0 := by
  unfold ScatterDims.window
  rw [dif_neg (show (0 : Fin 2) ∉ (rowsDims wf).sKept from
    (show (0 : Fin 2) ∉ (List.finRange 2).filter (· ∉ [(0 : Fin 2)]) by decide))]

theorem rows_window1 (j : (⟨2, ![N, K]⟩ : Shape).Idx) : (rowsDims wf).window j 1 = (j 1).val := by
  unfold ScatterDims.window
  rw [dif_pos (show (1 : Fin 2) ∈ (rowsDims wf).sKept from
    (show (1 : Fin 2) ∈ (List.finRange 2).filter (· ∉ [(0 : Fin 2)]) by decide))]
  rfl

end Rows

section Rows
variable {G K N : Nat} (wf : ScatterDims.WF ⟨2, ![G, K]⟩ ⟨2, ![N, 1]⟩ ⟨2, ![N, K]⟩ [1] [0] [0] 1)

/-- Update element `(n, k)` lands on `(g, k')` exactly when the signed value of `ids[n]` is `g` and `k = k'`. -/
theorem rows_resultIdx?_iff (idx : IVec ⟨2, ![N, 1]⟩ 32) (n : Fin N) (k : Fin K) (g : Fin G) (k' : Fin K) :
    (rowsDims wf).resultIdx? (ix2 n k) idx = some (ix2 g k') ↔ (idx (ix2 n 0)).toInt = (g.val : Int) ∧ k = k' := by
  rw [resultIdx?_eq_some_iff]
  constructor
  · intro h
    have h0 := h 0
    have h1 := h 1
    rw [rows_start0, rows_window0] at h0
    rw [rows_start1, rows_window1] at h1
    refine ⟨?_, Fin.ext ?_⟩
    · have : (idx (ix2 n 0)).toInt + ((0 : Nat) : Int) = (g.val : Int) := h0
      omega
    · have : (0 : Int) + (k.val : Int) = (k'.val : Int) := h1
      omega
  · rintro ⟨h0, rfl⟩ a
    match a with
    | ⟨0, _⟩ =>
      show (rowsDims wf).start (ix2 n k) idx 0 + (((rowsDims wf).window (ix2 n k) 0 : Nat) : Int) = (g.val : Int)
      rw [rows_start0, rows_window0]
      show (idx (ix2 n 0)).toInt + ((0 : Nat) : Int) = (g.val : Int)
      omega
    | ⟨1, _⟩ =>
      show (rowsDims wf).start (ix2 n k) idx 1 + (((rowsDims wf).window (ix2 n k) 1 : Nat) : Int) = (k.val : Int)
      rw [rows_start1, rows_window1]
      show (0 : Int) + (k.val : Int) = (k.val : Int)
      omega

/-- A word's signed value is `g` exactly when the word is `g`'s, for `g` below 2³¹. -/
theorem toInt_eq_iff (b : BitVec 32) (g : Nat) (hg : g < 2 ^ 31) : b.toInt = (g : Int) ↔ b = BitVec.ofNat 32 g := by
  constructor
  · intro h
    apply BitVec.eq_of_toInt_eq
    rw [h, StableHlo.Predicate.toInt_ofNat_small g hg]
  · rintro rfl
    exact StableHlo.Predicate.toInt_ofNat_small g hg

/-- The scatter-add of rows at `(g, k)`: the operand there plus the rows whose id is `g`, at feature `k`. -/
theorem rows_scatterAdd_apply (hG : G ≤ 2 ^ 31) (x : (⟨2, ![G, K]⟩ : Shape).Idx → EReal) (idx : IVec ⟨2, ![N, 1]⟩ 32)
    (upd : (⟨2, ![N, K]⟩ : Shape).Idx → EReal) (g : Fin G) (k : Fin K) :
    Ideal.hostScatterAdd (rowsDims wf) x idx upd (ix2 g k)
      = x (ix2 g k) + ∑ n : Fin N, if idx (ix2 n 0) = BitVec.ofNat 32 g.val then upd (ix2 n k) else 0 := by
  unfold Ideal.hostScatterAdd
  congr 1
  rw [Finset.sum_filter, sum_idx2]
  refine Finset.sum_congr rfl fun n _ => ?_
  simp only [rows_resultIdx?_iff, toInt_eq_iff _ g.val (by have := g.isLt; omega)]
  by_cases hc : idx (ix2 n 0) = BitVec.ofNat 32 g.val
  · simp only [hc, true_and, if_true]
    rw [Finset.sum_ite_eq' Finset.univ k (fun k' => upd (ix2 n k')), if_pos (Finset.mem_univ k)]
  · simp only [hc, false_and, if_false]
    exact Finset.sum_const_zero

end Rows

/-! ## The pooled sums and counts -/

/-- The f32 literal `1.0` is the extended real `1`. -/
theorem ofBits_one_f32 : Ideal.ofBits .f32 0x3F800000#32 = 1 := by
  simp [Ideal.ofBits, Ideal.ieee]
  rw [← EReal.coe_mul]
  norm_num

/-- The scatter of the third layer's rows by graph id is graph `g`'s feature sum. -/
theorem sums_apply (x0 : S100000x64.Idx → EReal) (x1 : (⟨S2x1600000, .i32⟩ : BufTy).Contents (Elt Ideal))
    (x2 : (⟨S100000, .i32⟩ : BufTy).Contents (Elt Ideal))
    (x3 : S64x64.Idx → EReal) (x4 : S64.Idx → EReal) (x5 x6 : S64x64.Idx → EReal) (x7 : S64.Idx → EReal)
    (x8 x9 : S64x64.Idx → EReal) (x10 : S64.Idx → EReal) (x11 : S64x64.Idx → EReal) (g : Fin 512) (k : Fin 64) :
    Read.val_main_v56 (F := Ideal) x0 x1 x2 x3 x4 x5 x6 x7 x8 x9 x10 x11 (ix2 g k)
      = Cert.Spec.poolSum (Read.val_main_v53 (F := Ideal) x0 x1 x3 x4 x5 x6 x7 x8 x9 x10 x11) x2 g k := by
  unfold Read.val_main_v56
  show Ideal.hostScatterAdd (rowsDims _) (Read.val_main_v54 (F := Ideal)) (Read.val_main_v55 (F := Ideal) x2)
    (Read.val_main_v53 (F := Ideal) x0 x1 x3 x4 x5 x6 x7 x8 x9 x10 x11) (ix2 g k) = _
  rw [rows_scatterAdd_apply _ (by norm_num), Read.val_main_v54_apply, Read.val_main_cst_7_apply, Ideal.ofBits_def,
    Ideal.ofBits_zero_f32, zero_add]
  unfold Cert.Spec.poolSum
  refine Finset.sum_congr rfl fun n _ => ?_
  rw [Read.val_main_v55_apply, show Read.idx_main_v55 (ix2 n 0) = ix1 n from idx1_ext _ _ rfl]

/-- The scatter of ones by graph id is graph `g`'s node count. -/
theorem cnts_apply (x2 : (⟨S100000, .i32⟩ : BufTy).Contents (Elt Ideal)) (g : Fin 512) :
    Read.val_main_v60 (F := Ideal) x2 (ix2 g 0) = Cert.Spec.poolCnt x2 g := by
  unfold Read.val_main_v60
  show Ideal.hostScatterAdd (rowsDims _) (Read.val_main_v58 (F := Ideal)) (Read.val_main_v59 (F := Ideal) x2)
    (Read.val_main_v57 (F := Ideal)) (ix2 g 0) = _
  rw [rows_scatterAdd_apply _ (by norm_num), Read.val_main_v58_apply, Read.val_main_cst_9_apply, Ideal.ofBits_def,
    Ideal.ofBits_zero_f32, zero_add]
  unfold Cert.Spec.poolCnt
  refine Finset.sum_congr rfl fun n _ => ?_
  rw [Read.val_main_v59_apply, show Read.idx_main_v59 (ix2 n 0) = ix1 n from idx1_ext _ _ rfl,
    Read.val_main_v57_apply, Read.val_main_cst_8_apply, Ideal.ofBits_def, ofBits_one_f32]

/-! ## The head -/

/-- The reference's result is the mean pooling and the linear head over the third layer's result. -/
theorem head_eq (x0 : (⟨S100000x64, .f32⟩ : BufTy).Contents (Elt Ideal))
    (x1 : (⟨S2x1600000, .i32⟩ : BufTy).Contents (Elt Ideal)) (x2 : (⟨S100000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64x10, .f32⟩ : BufTy).Contents (Elt Ideal))
    (x13 : (⟨S10, .f32⟩ : BufTy).Contents (Elt Ideal)) :
    Read.val_main_v68 (F := Ideal) x0 x1 x2 x3 x4 x5 x6 x7 x8 x9 x10 x11 x12 x13
      = Cert.Spec.headFn (Read.val_main_v53 (F := Ideal) x0 x1 x3 x4 x5 x6 x7 x8 x9 x10 x11) x2 x12
          (fun j => x13 (ix1 j)) := by
  funext i
  obtain ⟨g, j, rfl⟩ : ∃ g j, i = ix2 g j := ⟨i 0, i 1, eq_ix2 i⟩
  rw [Cert.Spec.headFn_ix2]
  unfold Cert.Spec.headAt
  rw [Read.val_main_v68_apply, Read.val_main_v65_apply, Read.val_main_v67_apply, Read.val_main_v66_apply,
    show Read.idx_main_v66 (Read.idx_main_v67 (ix2 g j)) = ix1 j from idx1_ext _ _ rfl, Ideal.addf_def]
  refine congrArg (fun t => t + x13 (ix1 j)) (Finset.sum_congr rfl fun k _ => ?_)
  rw [show Read.lidx_main_v65 (ix2 g j) k = ix2 g k from idx2_ext _ _ rfl rfl,
    show Read.ridx_main_v65 (ix2 g j) k = ix2 k j from idx2_ext _ _ rfl rfl,
    Read.val_main_v64_apply, Read.val_main_v63_apply, Read.val_main_v62_apply, Read.val_main_v61_apply,
    Read.val_main_cst_10_apply, show Read.idx_main_v63 (ix2 g k) = ix2 g 0 from idx2_ext _ _ rfl rfl,
    sums_apply, cnts_apply, Ideal.hostDivf_def, Ideal.maximumf_def, Ideal.ofBits_def, ofBits_one_f32]

/-! ## The reference's value -/

/-- The aggregation of neighbour features along the edges: one function of the node features and the edge list, the
    same in every layer. -/
abbrev AGG : (⟨S100000x64, .f32⟩ : BufTy).Contents (Elt Ideal) → (⟨S2x1600000, .i32⟩ : BufTy).Contents (Elt Ideal) →
    (⟨S100000x64, .f32⟩ : BufTy).Contents (Elt Ideal) :=
  Read.val_main_v13 (F := Ideal)

/-- The first layer's node features. -/
def hid1 (x0 : (⟨S100000x64, .f32⟩ : BufTy).Contents (Elt Ideal)) (x1 : (⟨S2x1600000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) : Cert.Spec.SNodes.Idx → EReal :=
  Cert.Spec.layerFn true (AGG x0 x1) x0 x3 (fun q => x4 (ix1 q)) x5

/-- The second layer's node features. -/
def hid2 (x0 : (⟨S100000x64, .f32⟩ : BufTy).Contents (Elt Ideal)) (x1 : (⟨S2x1600000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal)) : Cert.Spec.SNodes.Idx → EReal :=
  Cert.Spec.layerFn true (AGG (hid1 x0 x1 x3 x4 x5) x1) (hid1 x0 x1 x3 x4 x5) x6 (fun q => x7 (ix1 q)) x8

/-- The reference computes three layers, each over the aggregation of the one before, then the mean pooling and the
    linear head. -/
theorem ref_eq (x0 : (⟨S100000x64, .f32⟩ : BufTy).Contents (Elt Ideal))
    (x1 : (⟨S2x1600000, .i32⟩ : BufTy).Contents (Elt Ideal)) (x2 : (⟨S100000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64x10, .f32⟩ : BufTy).Contents (Elt Ideal))
    (x13 : (⟨S10, .f32⟩ : BufTy).Contents (Elt Ideal)) :
    (Read.val_main_v68 (F := Ideal) x0 x1 x2 x3 x4 x5 x6 x7 x8 x9 x10 x11 x12 x13 : S512x10.Idx → EReal)
      = Cert.Spec.headFn
          (Cert.Spec.layerFn false (AGG (hid2 x0 x1 x3 x4 x5 x6 x7 x8) x1) (hid2 x0 x1 x3 x4 x5 x6 x7 x8) x9
            (fun q => x10 (ix1 q)) x11)
          x2 x12 (fun j => x13 (ix1 j)) := by
  rw [head_eq, layer3_eq, layer2_eq, layer1_eq]
  rfl

/-- The same with the two hidden layers written out. -/
theorem ref_eq' (x0 : (⟨S100000x64, .f32⟩ : BufTy).Contents (Elt Ideal))
    (x1 : (⟨S2x1600000, .i32⟩ : BufTy).Contents (Elt Ideal)) (x2 : (⟨S100000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64x10, .f32⟩ : BufTy).Contents (Elt Ideal))
    (x13 : (⟨S10, .f32⟩ : BufTy).Contents (Elt Ideal)) :
    (Read.val_main_v68 (F := Ideal) x0 x1 x2 x3 x4 x5 x6 x7 x8 x9 x10 x11 x12 x13 : S512x10.Idx → EReal)
      = Cert.Spec.headFn
          (Cert.Spec.layerFn false
            (Read.val_main_v13 (F := Ideal)
              (Cert.Spec.layerFn true
                (Read.val_main_v13 (F := Ideal)
                  (Cert.Spec.layerFn true (Read.val_main_v13 (F := Ideal) x0 x1) x0 x3 (fun q => x4 (ix1 q)) x5) x1)
                (Cert.Spec.layerFn true (Read.val_main_v13 (F := Ideal) x0 x1) x0 x3 (fun q => x4 (ix1 q)) x5)
                x6 (fun q => x7 (ix1 q)) x8) x1)
            (Cert.Spec.layerFn true
              (Read.val_main_v13 (F := Ideal)
                (Cert.Spec.layerFn true (Read.val_main_v13 (F := Ideal) x0 x1) x0 x3 (fun q => x4 (ix1 q)) x5) x1)
              (Cert.Spec.layerFn true (Read.val_main_v13 (F := Ideal) x0 x1) x0 x3 (fun q => x4 (ix1 q)) x5)
              x6 (fun q => x7 (ix1 q)) x8)
            x9 (fun q => x10 (ix1 q)) x11)
          x2 x12 (fun j => x13 (ix1 j)) :=
  ref_eq x0 x1 x2 x3 x4 x5 x6 x7 x8 x9 x10 x11 x12 x13

end Cert.ReferenceIdeal.Hand

end
-- ==== Proof.Algebraic.lean ====
/-
  The two idealized programs compute one function of their arguments.

  The kernel program's result is the mean-pooled third GraphConv layer passed through the linear head, each layer
  taken of the layer before and of its aggregation over the edges (the kernel's three regions and the host stretches
  between them). The reference's result is the same nest of the same functions, read off its run one operation at a
  time. From memories that agree on the fourteen arguments the two results are therefore equal, index by index.
-/
import proofs.«417198_j24592982737081_2_alg».proof.Proof.Frames
import proofs.«417198_j24592982737081_2_alg».proof.Proof.KI.KChain
import proofs.«417198_j24592982737081_2_alg».proof.Proof.KI.Ref

set_option maxRecDepth 16384

noncomputable section

namespace Cert.Proof.Alg

open Idealize.ShloMosaic Idealize.ShloMosaic.TcCoe Idealize.SL.Sem

theorem algebraic : Cert.algebraic_KernelIdeal_ReferenceIdeal := by
  intro m ρ m' ρ' _ hagree
  refine ⟨fun c => Cert.KernelIdeal.Hand.W6 (F := Ideal) m c (Proc.devRef .tc Cert.KernelIdeal.main_v47), ?_, ?_⟩
  · refine (θ_run Cert.KernelIdeal.defs _ _).mono ?_ (Cert.Proof.Frames.run_ki m ρ)
    intro r h c
    exact ⟨h c _ (Cert.KernelIdeal.Hand.mem_uc Cert.KernelIdeal.main_v47 (by decide)),
        (h c _ (Cert.KernelIdeal.Hand.mem_uc Cert.KernelIdeal.main_arg0 (by decide))).trans (Cert.KernelIdeal.Hand.W6_main_arg0 m c),
        (h c _ (Cert.KernelIdeal.Hand.mem_uc Cert.KernelIdeal.main_arg1 (by decide))).trans (Cert.KernelIdeal.Hand.W6_main_arg1 m c),
        (h c _ (Cert.KernelIdeal.Hand.mem_uc Cert.KernelIdeal.main_arg2 (by decide))).trans (Cert.KernelIdeal.Hand.W6_main_arg2 m c),
        (h c _ (Cert.KernelIdeal.Hand.mem_uc Cert.KernelIdeal.main_arg3 (by decide))).trans (Cert.KernelIdeal.Hand.W6_main_arg3 m c),
        (h c _ (Cert.KernelIdeal.Hand.mem_uc Cert.KernelIdeal.main_arg4 (by decide))).trans (Cert.KernelIdeal.Hand.W6_main_arg4 m c),
        (h c _ (Cert.KernelIdeal.Hand.mem_uc Cert.KernelIdeal.main_arg5 (by decide))).trans (Cert.KernelIdeal.Hand.W6_main_arg5 m c),
        (h c _ (Cert.KernelIdeal.Hand.mem_uc Cert.KernelIdeal.main_arg6 (by decide))).trans (Cert.KernelIdeal.Hand.W6_main_arg6 m c),
        (h c _ (Cert.KernelIdeal.Hand.mem_uc Cert.KernelIdeal.main_arg7 (by decide))).trans (Cert.KernelIdeal.Hand.W6_main_arg7 m c),
        (h c _ (Cert.KernelIdeal.Hand.mem_uc Cert.KernelIdeal.main_arg8 (by decide))).trans (Cert.KernelIdeal.Hand.W6_main_arg8 m c),
        (h c _ (Cert.KernelIdeal.Hand.mem_uc Cert.KernelIdeal.main_arg9 (by decide))).trans (Cert.KernelIdeal.Hand.W6_main_arg9 m c),
        (h c _ (Cert.KernelIdeal.Hand.mem_uc Cert.KernelIdeal.main_arg10 (by decide))).trans (Cert.KernelIdeal.Hand.W6_main_arg10 m c),
        (h c _ (Cert.KernelIdeal.Hand.mem_uc Cert.KernelIdeal.main_arg11 (by decide))).trans (Cert.KernelIdeal.Hand.W6_main_arg11 m c),
        (h c _ (Cert.KernelIdeal.Hand.mem_uc Cert.KernelIdeal.main_arg12 (by decide))).trans (Cert.KernelIdeal.Hand.W6_main_arg12 m c),
        (h c _ (Cert.KernelIdeal.Hand.mem_uc Cert.KernelIdeal.main_arg13 (by decide))).trans (Cert.KernelIdeal.Hand.W6_main_arg13 m c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v68_eq m' c, h0, h1, h2, h3, h4, h5, h6, h7, h8, h9, h10, h11, h12, h13]
    refine (Cert.ReferenceIdeal.Hand.ref_eq' _ _ _ _ _ _ _ _ _ _ _ _ _ _).trans ?_
    exact (Cert.KernelIdeal.Hand.logits_eq m c).symm

end Cert.Proof.Alg

end
-- ==== Proof.lean ====
/-
  The certificate: a three-layer GraphConv network with mean pooling and a linear head, as a Pallas program of three
  kernel regions among host operations, against its plain reference.

  The word-level kernel program and its idealization each run to the end and leave their arguments as launched
  (Proof/Frames.lean, over the run of Proof/K/Run.lean and Proof/KI/Run.lean); so does the reference. The ideal
  pass's ledger is empty: the idealization is the program's own text read over the extended reals. There both
  programs compute  head(pool(layer₃(layer₂(layer₁ x))))  with the same neighbour aggregation between the layers
  (Proof/Algebraic.lean): a change of float format is the identity, a matrix product into a zero accumulator is
  the plain sum of products, and the kernel's tile-by-tile one-hot products add up to the reference's segment sums,
  because 0·x = 0 and 1·x = x for every extended real and addition there is commutative and associative.
-/
import proofs.«417198_j24592982737081_2_alg».proof.Defs
import proofs.«417198_j24592982737081_2_alg».proof.Proof.Gen.Kernel
import proofs.«417198_j24592982737081_2_alg».proof.Proof.Gen.KernelIdeal
import proofs.«417198_j24592982737081_2_alg».proof.Proof.Gen.ReferenceIdeal
import proofs.«417198_j24592982737081_2_alg».proof.Proof.Gen.Pre_finite_inputs
import proofs.«417198_j24592982737081_2_alg».proof.Proof.Frames
import proofs.«417198_j24592982737081_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Alg.algebraic⟩

end Cert.Proof

end
